-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x26 : Shape := ⟨2, ![100000, 26]⟩
abbrev S2x3200000 : Shape := ⟨2, ![2, 3200000]⟩
abbrev S100000 : Shape := ⟨1, ![100000]⟩
abbrev S26x64 : Shape := ⟨2, ![26, 64]⟩
abbrev S64 : Shape := ⟨1, ![64]⟩
abbrev S64x64 : Shape := ⟨2, ![64, 64]⟩
abbrev S64x26 : Shape := ⟨2, ![64, 26]⟩
abbrev S26 : Shape := ⟨1, ![26]⟩
abbrev S_ : Shape := ⟨0, ![]⟩

class Facts : Prop where
  bcast_S_S100000x26 : S_.BroadcastsInDim S100000x26 (![] : Fin 0 → Fin S100000x26.rank)
  reducesTo_S100000x26_S_d0_1 : S100000x26.ReducesTo [0, 1] S_
  h_S_ : 0 < S_.numel
  bcast_S_S26x64 : S_.BroadcastsInDim S26x64 (![] : Fin 0 → Fin S26x64.rank)
  reducesTo_S26x64_S_d0_1 : S26x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x26 : S_.BroadcastsInDim S64x26 (![] : Fin 0 → Fin S64x26.rank)
  reducesTo_S64x26_S_d0_1 : S64x26.ReducesTo [0, 1] S_
  bcast_S_S26 : S_.BroadcastsInDim S26 (![] : Fin 0 → Fin S26.rank)
  reducesTo_S26_S_d0 : S26.ReducesTo [0] S_

variable [Facts]

def fn_part2 {F : FTy → Type} [FloatOps F] (main_arg9 : FVec F S64x26 .f32) (main_arg10 : FVec F S26 .f32) (main_v33 : IVec S_ 1) : IVec S_ 1 :=
  let main_v34 : FVec F S64x26 .f32 := Host.absf main_arg9
  let main_cst_12 : FVec F S_ .f32 := constant S_ .f32 0x7F800000#32
  let main_v35 : FVec F S64x26 .f32 := broadcastInDim S64x26 ![] bcast_S_S64x26 main_cst_12
  let main_v36 : IVec S64x26 1 := cmpf .olt main_v34 main_v35
  let main_c_13 : IVec S_ 1 := constantI S_ 1 1#1
  let main_v37 : IVec S_ 1 := (fun x v => Host.reduce IntOp.andi x v reducesTo_S64x26_S_d0_1 h_S_) main_v36 main_c_13
  let main_v38 : IVec S_ 1 := andi main_v33 main_v37
  let main_v39 : FVec F S26 .f32 := Host.absf main_arg10
  let main_cst_14 : FVec F S_ .f32 := constant S_ .f32 0x7F800000#32
  let main_v40 : FVec F S26 .f32 := broadcastInDim S26 ![] bcast_S_S26 main_cst_14
  let main_v41 : IVec S26 1 := cmpf .olt main_v39 main_v40
  let main_c_15 : IVec S_ 1 := constantI S_ 1 1#1
  let main_v42 : IVec S_ 1 := (fun x v => Host.reduce IntOp.andi x v reducesTo_S26_S_d0 h_S_) main_v41 main_c_15
  let main_v43 : IVec S_ 1 := andi main_v38 main_v42
  main_v43

def fn_part1 {F : FTy → Type} [FloatOps F] (main_arg6 : FVec F S64x64 .f32) (main_arg7 : FVec F S64 .f32) (main_arg8 : FVec F S64x64 .f32) (main_arg9 : FVec F S64x26 .f32) (main_arg10 : FVec F S26 .f32) (main_v13 : IVec S_ 1) (main_v16 : IVec S26x64 1) : IVec S_ 1 :=
  let main_c_5 : IVec S_ 1 := constantI S_ 1 1#1
  let main_v17 : IVec S_ 1 := (fun x v => Host.reduce IntOp.andi x v reducesTo_S26x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_v33

def fn {F : FTy → Type} [FloatOps F] (main_arg0 : FVec F S100000x26 .f32) (main_arg1 : IVec S2x3200000 32) (main_arg2 : IVec S100000 32) (main_arg3 : FVec F S26x64 .f32) (main_arg4 : FVec F S64 .f32) (main_arg5 : FVec F S26x64 .f32) (main_arg6 : FVec F S64x64 .f32) (main_arg7 : FVec F S64 .f32) (main_arg8 : FVec F S64x64 .f32) (main_arg9 : FVec F S64x26 .f32) (main_arg10 : FVec F S26 .f32) : IVec S_ 1 :=
  let main_v0 : FVec F S100000x26 .f32 := Host.absf main_arg0
  let main_cst : FVec F S_ .f32 := constant S_ .f32 0x7F800000#32
  let main_v1 : FVec F S100000x26 .f32 := broadcastInDim S100000x26 ![] bcast_S_S100000x26 main_cst
  let main_v2 : IVec S100000x26 1 := cmpf .olt main_v0 main_v1
  let main_c : IVec S_ 1 := constantI S_ 1 1#1
  let main_v3 : IVec S_ 1 := (fun x v => Host.reduce IntOp.andi x v reducesTo_S100000x26_S_d0_1 h_S_) main_v2 main_c
  let main_v4 : FVec F S26x64 .f32 := Host.absf main_arg3
  let main_cst_0 : FVec F S_ .f32 := constant S_ .f32 0x7F800000#32
  let main_v5 : FVec F S26x64 .f32 := broadcastInDim S26x64 ![] bcast_S_S26x64 main_cst_0
  let main_v6 : IVec S26x64 1 := cmpf .olt main_v4 main_v5
  let main_c_1 : IVec S_ 1 := constantI S_ 1 1#1
  let main_v7 : IVec S_ 1 := (fun x v => Host.reduce IntOp.andi x v reducesTo_S26x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S26x64 .f32 := Host.absf main_arg5
  let main_cst_4 : FVec F S_ .f32 := constant S_ .f32 0x7F800000#32
  let main_v15 : FVec F S26x64 .f32 := broadcastInDim S26x64 ![] bcast_S_S26x64 main_cst_4
  let main_v16 : IVec S26x64 1 := cmpf .olt main_v14 main_v15
  fn_part1 (F := F) main_arg6 main_arg7 main_arg8 main_arg9 main_arg10 main_v13 main_v16
-- ==== Kernel.lean ====
abbrev S100000x26 : Shape := ⟨2, ![100000, 26]⟩
abbrev S2x3200000 : Shape := ⟨2, ![2, 3200000]⟩
abbrev S100000 : Shape := ⟨1, ![100000]⟩
abbrev S26x64 : Shape := ⟨2, ![26, 64]⟩
abbrev S64 : Shape := ⟨1, ![64]⟩
abbrev S64x64 : Shape := ⟨2, ![64, 64]⟩
abbrev S64x26 : Shape := ⟨2, ![64, 26]⟩
abbrev S26 : Shape := ⟨1, ![26]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x26 : Shape := ⟨2, ![3200000, 26]⟩
abbrev S100000x1 : Shape := ⟨2, ![100000, 1]⟩
abbrev S100000x64 : Shape := ⟨2, ![100000, 64]⟩
abbrev S2000x26 : Shape := ⟨2, ![2000, 26]⟩
abbrev S2000x64 : Shape := ⟨2, ![2000, 64]⟩
abbrev S1x64 : Shape := ⟨2, ![1, 64]⟩
abbrev S3200000x64 : Shape := ⟨2, ![3200000, 64]⟩
abbrev S2000x1 : Shape := ⟨2, ![2000, 1]⟩
abbrev S64x1 : Shape := ⟨2, ![64, 1]⟩
abbrev S64x2000 : Shape := ⟨2, ![64, 2000]⟩
abbrev S1x26 : Shape := ⟨2, ![1, 26]⟩

abbrev nBuf : Space → Nat
  | .hbm => 63
  | .vmem => 27
  | .smem => 0
  | _ => 0

abbrev bufTy : (tb : Table) → Fin (tcTables nBuf tb) → BufTy
  | .hbm, ⟨0, _⟩ => ⟨S100000x26, .f32⟩
  | .hbm, ⟨1, _⟩ => ⟨S2x3200000, .i32⟩
  | .hbm, ⟨2, _⟩ => ⟨S100000, .i32⟩
  | .hbm, ⟨3, _⟩ => ⟨S26x64, .f32⟩
  | .hbm, ⟨4, _⟩ => ⟨S64, .f32⟩
  | .hbm, ⟨5, _⟩ => ⟨S26x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x26, .f32⟩
  | .hbm, ⟨10, _⟩ => ⟨S26, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x26, .f32⟩
  | .hbm, ⟨36, _⟩ => ⟨S_, .f32⟩
  | .hbm, ⟨37, _⟩ => ⟨S100000x26, .f32⟩
  | .hbm, ⟨38, _⟩ => ⟨S3200000x1, .i32⟩
  | .hbm, ⟨39, _⟩ => ⟨S100000x26, .f32⟩
  | .hbm, ⟨40, _⟩ => ⟨S100000x1, .f32⟩
  | .hbm, ⟨41, _⟩ => ⟨S100000x26, .f32⟩
  | .hbm, ⟨42, _⟩ => ⟨S100000x26, .f32⟩
  | .hbm, ⟨43, _⟩ => ⟨S100000x64, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x64, .f32⟩
  | .hbm, ⟨53, _⟩ => ⟨S_, .f32⟩
  | .hbm, ⟨54, _⟩ => ⟨S100000x64, .f32⟩
  | .hbm, ⟨55, _⟩ => ⟨S3200000x1, .i32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x1, .i32⟩
  | .hbm, ⟨62, _⟩ => ⟨S64x26, .f32⟩
  | .local _ .vmem, ⟨0, _⟩ => ⟨S2000x26, .f32⟩
  | .local _ .vmem, ⟨1, _⟩ => ⟨S2000x26, .f32⟩
  | .local _ .vmem, ⟨2, _⟩ => ⟨S2000x26, .f32⟩
  | .local _ .vmem, ⟨3, _⟩ => ⟨S2000x26, .f32⟩
  | .local _ .vmem, ⟨4, _⟩ => ⟨S26x64, .f32⟩
  | .local _ .vmem, ⟨5, _⟩ => ⟨S64, .f32⟩
  | .local _ .vmem, ⟨6, _⟩ => ⟨S26x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x1, .i32⟩
  | .local _ .vmem, ⟨21, _⟩ => ⟨S2000x1, .i32⟩
  | .local _ .vmem, ⟨22, _⟩ => ⟨S64x26, .f32⟩
  | .local _ .vmem, ⟨23, _⟩ => ⟨S26, .f32⟩
  | .local _ .vmem, ⟨24, _⟩ => ⟨S64x26, .f32⟩
  | .local _ .vmem, ⟨25, _⟩ => ⟨S64x64, .f32⟩
  | .local _ .vmem, ⟨26, _⟩ => ⟨S64x1, .f32⟩
  | _, _ => ⟨S100000x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x26 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S26x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S26x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v29 : BitVec 1 := Scalar.cmpi .eq arg0 c49_i32
  let v30 : BitVec 32 := Scalar.extui v29
  let c0_i32_14 : BitVec 32 := 0#32
  let v31 : BitVec 1 := Scalar.cmpi .ne v30 c0_i32_14
  v31

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x26 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S26 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x26 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x26 : S_.BroadcastsInDim S100000x26 (![] : Fin 0 → Fin S100000x26.rank)
  bcast_S100000_S100000x1_0 : S100000.BroadcastsInDim S100000x1 (![0] : Fin 1 → Fin S100000x1.rank)
  bcast_S100000x1_S100000x26_0_1 : S100000x1.BroadcastsInDim S100000x26 (![0, 1] : Fin 2 → Fin S100000x26.rank)
  inb_S2000x26_S2000x26_0_0 : ∀ a, (![0, 0] : Fin 2 → Nat) a + S2000x26.size a ≤ S2000x26.size a
  h_S2000x26 : 0 < S2000x26.numel
  shapeCasts_S2000x26_S2000x26 : S2000x26.ShapeCasts S2000x26
  bitsLt_bf16_f32 : FTy.bits .bf16 < FTy.bits .f32
  inb_S26x64_S26x64_0_0 : ∀ a, (![0, 0] : Fin 2 → Nat) a + S26x64.size a ≤ S26x64.size a
  h_S26x64 : 0 < S26x64.numel
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  transposes_S2000x64_p1_0_S64x2000 : S2000x64.Transposes [1, 0] S64x2000
  broadcasts_S64x1_S64x64 : S64x1.Broadcasts S64x64
  inb_S64x26_S64x26_0_0 : ∀ a, (![0, 0] : Fin 2 → Nat) a + S64x26.size a ≤ S64x26.size a
  h_S64x26 : 0 < S64x26.numel
  inb_S26_S26_0 : ∀ a, (![0] : Fin 1 → Nat) a + S26.size a ≤ S26.size a
  h_S26 : 0 < S26.numel
  shapeCasts_S26_S1x26 : S26.ShapeCasts S1x26
  shapeCasts_S1x26_S1x26 : S1x26.ShapeCasts S1x26
  broadcasts_S1x26_S64x26 : S1x26.Broadcasts S64x26
  scatter_S100000_S3200000x1_S3200000_n_0_0_1_wf : ScatterDims.WF S100000 S3200000x1 S3200000 [] [0] [0] 1
  gather_S100000x26_S3200000x1_S3200000x26_1_0_n_n_0_1_126_wf : GatherDims.WF S100000x26 S3200000x1 S3200000x26 [1] [0] [] [0] [] 1 ![1, 26]
  scatter_S100000x26_S3200000x1_S3200000x26_1_0_0_1_wf : ScatterDims.WF S100000x26 S3200000x1 S3200000x26 [1] [0] [0] 1
  dot_S2000x26_S26x64_S2000x64_1_0_0_1_n_n_wf : DotDims.WF S2000x26 S26x64 S2000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S2000x64_S64x64_S2000x64_1_0_0_1_n_n_wf : DotDims.WF S2000x64 S64x64 S2000x64 [1] [0] [0] [1] [] []
  dot_S64x2000_S2000x64_S64x64_1_0_0_1_n_n_wf : DotDims.WF S64x2000 S2000x64 S64x64 [1] [0] [0] [1] [] []
  dot_S64x2000_S2000x1_S64x1_1_0_0_1_n_n_wf : DotDims.WF S64x2000 S2000x1 S64x1 [1] [0] [0] [1] [] []
  dot_S64x64_S64x26_S64x26_1_0_0_1_n_n_wf : DotDims.WF S64x64 S64x26 S64x26 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x26.size a ≤ S100000x26.size a
  hwx0_0 : ∀ i : grid0.Coords, EltTy.bits .f32 = 32 ∨ (Rect.block (s := S100000x26) S2000x26.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x26.size a ≤ S100000x26.size a
  hwx0_1 : ∀ i : grid0.Coords, EltTy.bits .f32 = 32 ∨ (Rect.block (s := S100000x26) S2000x26.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S26x64.size a ≤ S26x64.size a
  hwx0_2 : ∀ i : grid0.Coords, EltTy.bits .f32 = 32 ∨ (Rect.block (s := S26x64) S26x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S26x64.size a ≤ S26x64.size a
  hwx0_4 : ∀ i : grid0.Coords, EltTy.bits .f32 = 32 ∨ (Rect.block (s := S26x64) S26x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .i32 = 32 ∨ (Rect.block (s := S100000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x26.size a ≤ S64x26.size a
  hwx2_2 : ∀ i : grid2.Coords, EltTy.bits .f32 = 32 ∨ (Rect.block (s := S64x26) S64x26.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S26.size a ≤ S26.size a
  hwx2_3 : ∀ i : grid2.Coords, EltTy.bits .f32 = 32 ∨ (Rect.block (s := S26) S26.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x26.size a ≤ S64x26.size a
  hwx2_4 : ∀ i : grid2.Coords, EltTy.bits .f32 = 32 ∨ (Rect.block (s := S64x26) S64x26.size (cc2_transform_4 i) (hinb2_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x26_S3200000x1_S3200000x26_1_0_n_n_0_1_126 : GatherDims S100000x26 S3200000x1 S3200000x26 where
  offsetDims := [1]
  collapsedSliceDims := [0]
  operandBatchingDims := []
  startIndicesBatchingDims := []
  startIndexMap := [0]
  indexVectorDim := 1
  sliceSizes := ![1, 26]
  wf := gather_S100000x26_S3200000x1_S3200000x26_1_0_n_n_0_1_126_wf
def scatter_S100000x26_S3200000x1_S3200000x26_1_0_0_1 : ScatterDims S100000x26 S3200000x1 S3200000x26 where
  updateWindowDims := [1]
  insertedWindowDims := [0]
  scatterDimsToOperandDims := [0]
  indexVectorDim := 1
  wf := scatter_S100000x26_S3200000x1_S3200000x26_1_0_0_1_wf
def dot_S2000x26_S26x64_S2000x64_1_0_0_1_n_n : DotDims S2000x26 S26x64 S2000x64 where
  lhsContracting := [1]
  rhsContracting := [0]
  lhsNonContracting := [0]
  rhsNonContracting := [1]
  lhsBatch := []
  rhsBatch := []
  wf := dot_S2000x26_S26x64_S2000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S64x2000_S2000x64_S64x64_1_0_0_1_n_n : DotDims S64x2000 S2000x64 S64x64 where
  lhsContracting := [1]
  rhsContracting := [0]
  lhsNonContracting := [0]
  rhsNonContracting := [1]
  lhsBatch := []
  rhsBatch := []
  wf := dot_S64x2000_S2000x64_S64x64_1_0_0_1_n_n_wf
def dot_S64x2000_S2000x1_S64x1_1_0_0_1_n_n : DotDims S64x2000 S2000x1 S64x1 where
  lhsContracting := [1]
  rhsContracting := [0]
  lhsNonContracting := [0]
  rhsNonContracting := [1]
  lhsBatch := []
  rhsBatch := []
  wf := dot_S64x2000_S2000x1_S64x1_1_0_0_1_n_n_wf
def dot_S64x64_S64x26_S64x26_1_0_0_1_n_n : DotDims S64x64 S64x26 S64x26 where
  lhsContracting := [1]
  rhsContracting := [0]
  lhsNonContracting := [0]
  rhsNonContracting := [1]
  lhsBatch := []
  rhsBatch := []
  wf := dot_S64x64_S64x26_S64x26_1_0_0_1_n_n_wf

abbrev win0_0 : Pipeline.Window sig grid0 :=
  Pipeline.Window.ofSpec (Memref.whole main_v24) S2000x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x26.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S26x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S26x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x26.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S26.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S64x26.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S100000x26 : Shape := ⟨2, ![100000, 26]⟩
abbrev S2x3200000 : Shape := ⟨2, ![2, 3200000]⟩
abbrev S100000 : Shape := ⟨1, ![100000]⟩
abbrev S26x64 : Shape := ⟨2, ![26, 64]⟩
abbrev S64 : Shape := ⟨1, ![64]⟩
abbrev S64x64 : Shape := ⟨2, ![64, 64]⟩
abbrev S64x26 : Shape := ⟨2, ![64, 26]⟩
abbrev S26 : Shape := ⟨1, ![26]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x26 : Shape := ⟨2, ![3200000, 26]⟩
abbrev S100000x1 : Shape := ⟨2, ![100000, 1]⟩
abbrev S100000x64 : Shape := ⟨2, ![100000, 64]⟩
abbrev S1x64 : Shape := ⟨2, ![1, 64]⟩
abbrev S3200000x64 : Shape := ⟨2, ![3200000, 64]⟩
abbrev S64x1 : Shape := ⟨2, ![64, 1]⟩
abbrev S1x26 : Shape := ⟨2, ![1, 26]⟩

abbrev nBuf : Space → Nat
  | .hbm => 100
  | .vmem => 0
  | .smem => 0
  | _ => 0

abbrev bufTy : (tb : Table) → Fin (tcTables nBuf tb) → BufTy
  | .hbm, ⟨0, _⟩ => ⟨S100000x26, .f32⟩
  | .hbm, ⟨1, _⟩ => ⟨S2x3200000, .i32⟩
  | .hbm, ⟨2, _⟩ => ⟨S100000, .i32⟩
  | .hbm, ⟨3, _⟩ => ⟨S26x64, .f32⟩
  | .hbm, ⟨4, _⟩ => ⟨S64, .f32⟩
  | .hbm, ⟨5, _⟩ => ⟨S26x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x26, .f32⟩
  | .hbm, ⟨10, _⟩ => ⟨S26, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x26, .f32⟩
  | .hbm, ⟨24, _⟩ => ⟨S_, .f32⟩
  | .hbm, ⟨25, _⟩ => ⟨S100000x26, .f32⟩
  | .hbm, ⟨26, _⟩ => ⟨S3200000x1, .i32⟩
  | .hbm, ⟨27, _⟩ => ⟨S100000x26, .f32⟩
  | .hbm, ⟨28, _⟩ => ⟨S_, .f32⟩
  | .hbm, ⟨29, _⟩ => ⟨S3200000, .f32⟩
  | .hbm, ⟨30, _⟩ => ⟨S_, .f32⟩
  | .hbm, ⟨31, _⟩ => ⟨S100000, .f32⟩
  | .hbm, ⟨32, _⟩ => ⟨S3200000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x26, .f32⟩
  | .hbm, ⟨39, _⟩ => ⟨S100000x26, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S3200000, .i32⟩
  | .hbm, ⟨51, _⟩ => ⟨S3200000, .i1⟩
  | .hbm, ⟨52, _⟩ => ⟨S_, .i32⟩
  | .hbm, ⟨53, _⟩ => ⟨S3200000, .i32⟩
  | .hbm, ⟨54, _⟩ => ⟨S3200000, .i32⟩
  | .hbm, ⟨55, _⟩ => ⟨S3200000, .i32⟩
  | .hbm, ⟨56, _⟩ => ⟨S3200000x1, .i32⟩
  | .hbm, ⟨57, _⟩ => ⟨S3200000x64, .f32⟩
  | .hbm, ⟨58, _⟩ => ⟨S_, .f32⟩
  | .hbm, ⟨59, _⟩ => ⟨S100000x64, .f32⟩
  | .hbm, ⟨60, _⟩ => ⟨S3200000x1, .i32⟩
  | .hbm, ⟨61, _⟩ => ⟨S100000x64, .f32⟩
  | .hbm, ⟨62, _⟩ => ⟨S_, .f32⟩
  | .hbm, ⟨63, _⟩ => ⟨S3200000, .f32⟩
  | .hbm, ⟨64, _⟩ => ⟨S_, .f32⟩
  | .hbm, ⟨65, _⟩ => ⟨S100000, .f32⟩
  | .hbm, ⟨66, _⟩ => ⟨S3200000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S64x64, .f32⟩
  | .hbm, ⟨82, _⟩ => ⟨S100000x1, .i32⟩
  | .hbm, ⟨83, _⟩ => ⟨S64x64, .f32⟩
  | .hbm, ⟨84, _⟩ => ⟨S_, .f32⟩
  | .hbm, ⟨85, _⟩ => ⟨S100000, .f32⟩
  | .hbm, ⟨86, _⟩ => ⟨S_, .f32⟩
  | .hbm, ⟨87, _⟩ => ⟨S64, .f32⟩
  | .hbm, ⟨88, _⟩ => ⟨S100000x1, .i32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64x1, .f32⟩
  | .hbm, ⟨94, _⟩ => ⟨S64x64, .f32⟩
  | .hbm, ⟨95, _⟩ => ⟨S64x64, .f32⟩
  | .hbm, ⟨96, _⟩ => ⟨S64x26, .f32⟩
  | .hbm, ⟨97, _⟩ => ⟨S1x26, .f32⟩
  | .hbm, ⟨98, _⟩ => ⟨S64x26, .f32⟩
  | .hbm, ⟨99, _⟩ => ⟨S64x26, .f32⟩
  | _, _ => ⟨S100000x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x26 : S_.BroadcastsInDim S100000x26 (![] : Fin 0 → Fin S100000x26.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x26_0_1 : S100000x1.BroadcastsInDim S100000x26 (![0, 1] : Fin 2 → Fin S100000x26.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S26_S1x26_1 : S26.BroadcastsInDim S1x26 (![1] : Fin 1 → Fin S1x26.rank)
  bcast_S1x26_S64x26_0_1 : S1x26.BroadcastsInDim S64x26 (![0, 1] : Fin 2 → Fin S64x26.rank)
  gather_S100000x26_S3200000x1_S3200000x26_1_0_n_n_0_1_126_wf : GatherDims.WF S100000x26 S3200000x1 S3200000x26 [1] [0] [] [0] [] 1 ![1, 26]
  scatter_S100000x26_S3200000x1_S3200000x26_1_0_0_1_wf : ScatterDims.WF S100000x26 S3200000x1 S3200000x26 [1] [0] [0] 1
  scatter_S100000_S3200000x1_S3200000_n_0_0_1_wf : ScatterDims.WF S100000 S3200000x1 S3200000 [] [0] [0] 1
  dot_S100000x26_S26x64_S100000x64_1_0_0_1_n_n_wf : DotDims.WF S100000x26 S26x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x26_S64x26_1_0_0_1_n_n_wf : DotDims.WF S64x64 S64x26 S64x26 [1] [0] [0] [1] [] []

variable [Facts₀]

def gather_S100000x26_S3200000x1_S3200000x26_1_0_n_n_0_1_126 : GatherDims S100000x26 S3200000x1 S3200000x26 where
  offsetDims := [1]
  collapsedSliceDims := [0]
  operandBatchingDims := []
  startIndicesBatchingDims := []
  startIndexMap := [0]
  indexVectorDim := 1
  sliceSizes := ![1, 26]
  wf := gather_S100000x26_S3200000x1_S3200000x26_1_0_n_n_0_1_126_wf
def scatter_S100000x26_S3200000x1_S3200000x26_1_0_0_1 : ScatterDims S100000x26 S3200000x1 S3200000x26 where
  updateWindowDims := [1]
  insertedWindowDims := [0]
  scatterDimsToOperandDims := [0]
  indexVectorDim := 1
  wf := scatter_S100000x26_S3200000x1_S3200000x26_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x26_S26x64_S100000x64_1_0_0_1_n_n : DotDims S100000x26 S26x64 S100000x64 where
  lhsContracting := [1]
  rhsContracting := [0]
  lhsNonContracting := [0]
  rhsNonContracting := [1]
  lhsBatch := []
  rhsBatch := []
  wf := dot_S100000x26_S26x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x26_S64x26_1_0_0_1_n_n : DotDims S64x64 S64x26 S64x26 where
  lhsContracting := [1]
  rhsContracting := [0]
  lhsNonContracting := [0]
  rhsNonContracting := [1]
  lhsBatch := []
  rhsBatch := []
  wf := dot_S64x64_S64x26_S64x26_1_0_0_1_n_n_wf

class Facts : Prop extends Facts₀ where

variable [Facts]
-- ==== Proof.Kernel.Reg0.lean ====
/- The frame half of region 0 (the first dense layer's kernel): the body's run on whole buffers and the
   pipeline's proof data, at any float instance. -/
import proofs.«415661_j14705968022324_1_alg».proof.Proof.Gen.Kernel.Launch
import proofs.«415661_j14705968022324_1_alg».proof.Proof.Gen.Kernel.Skeleton
import proofs.«415661_j14705968022324_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-! # Region 0: one dense layer's kernel, at the contents `V` the region is entered with

Each of the five input windows holds, at every grid point, the block of its array the index map names; the body
reads them whole and stores one value, so the output window's buffer after the body is a function of the five
blocks. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev r0_0 : Rect S2000x26 := Rect.unit (s := S2000x26) ![0, 0] S2000x26.size inb_S2000x26_S2000x26_0_0
abbrev r0_1 : Rect S26x64 := Rect.unit (s := S26x64) ![0, 0] S26x64.size inb_S26x64_S26x64_0_0
abbrev r0_2 : Rect S64 := Rect.unit (s := S64) ![0] S64.size inb_S64_S64_0
abbrev r0_3 : Rect S2000x64 := Rect.unit (s := S2000x64) ![0, 0] S2000x64.size inb_S2000x64_S2000x64_0_0

/-- The output window's buffer after the body, from the input windows' blocks: its one store, of the whole buffer. -/
def out0_5 (x0 : Vec F S2000x26 .f32) (x1 : Vec F S2000x26 .f32) (x2 : Vec F S26x64 .f32) (x3 : Vec F S64 .f32) (x4 : Vec F S26x64 .f32) : Vec F S2000x64 .f32 :=
  View.canon [⟨r0_3, k0_pay1 (View.ld x0 r0_0) (View.ld x1 r0_0) (View.ld x2 r0_1) (View.ld x4 r0_1) (View.ld x3 r0_2)⟩]

/-- The store covers the buffer. -/
theorem cover0_5 (p0 : Vec F S2000x64 .f32) (y : S2000x64.Idx) :
    ∃ pc ∈ ([⟨r0_3, p0⟩] : List (View.Piece (Elt F) S2000x64 .f32)), y ∈ pc.1.set :=
  View.cover_of_tiled [⟨r0_3, p0⟩] S2000x64.size (by rfl) y

set_option maxHeartbeats 1000000 in
/-- The body on whole buffers, the inputs' at contents `xW` and the output's at anything, runs to the continuation
    holding the inputs' as they were and the output's at `out0_5` of them. -/
theorem sound_kernel0 (c : Dev nD) (E : Set ℕ) (i : grid0.Coords) (arg0 : Memref sig .tc .vmem S2000x26 .f32) (harg0 : arg0.IsWhole) (arg1 : Memref sig .tc .vmem S2000x26 .f32) (harg1 : arg1.IsWhole) (arg2 : Memref sig .tc .vmem S26x64 .f32) (harg2 : arg2.IsWhole) (arg3 : Memref sig .tc .vmem S64 .f32) (harg3 : arg3.IsWhole) (arg4 : Memref sig .tc .vmem S26x64 .f32) (harg4 : arg4.IsWhole) (arg5 : Memref sig .tc .vmem S2000x64 .f32) (harg5 : arg5.IsWhole)
    (x0 : Vec F S2000x26 .f32) (x1 : Vec F S2000x26 .f32) (x2 : Vec F S26x64 .f32) (x3 : Vec F S64 .f32) (x4 : Vec F S26x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0_kernel i arg0 harg0 arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    input's buffer at its block and the output's at `out0_5` of the blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Reg1.lean ====
/- The frame half of region 1 (the second dense layer's kernel): the body's run on whole buffers and the
   pipeline's proof data, at any float instance. -/
import proofs.«415661_j14705968022324_1_alg».proof.Proof.Gen.Kernel.Launch
import proofs.«415661_j14705968022324_1_alg».proof.Proof.Gen.Kernel.Skeleton
import proofs.«415661_j14705968022324_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-! # Region 1: one dense layer's kernel, at the contents `V` the region is entered with

Each of the five input windows holds, at every grid point, the block of its array the index map names; the body
reads them whole and stores one value, so the output window's buffer after the body is a function of the five
blocks. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_0 : Rect S2000x64 := Rect.unit (s := S2000x64) ![0, 0] S2000x64.size inb_S2000x64_S2000x64_0_0
abbrev r1_1 : Rect S64x64 := Rect.unit (s := S64x64) ![0, 0] S64x64.size inb_S64x64_S64x64_0_0
abbrev r1_2 : Rect S64 := Rect.unit (s := S64) ![0] S64.size inb_S64_S64_0
abbrev r1_3 : Rect S2000x64 := Rect.unit (s := S2000x64) ![0, 0] S2000x64.size inb_S2000x64_S2000x64_0_0

/-- The output window's buffer after the body, from the input windows' blocks: its one store, of the whole buffer. -/
def out1_5 (x0 : Vec F S2000x64 .f32) (x1 : Vec F S2000x64 .f32) (x2 : Vec F S64x64 .f32) (x3 : Vec F S64 .f32) (x4 : Vec F S64x64 .f32) : Vec F S2000x64 .f32 :=
  View.canon [⟨r1_3, k1_pay1 (View.ld x0 r1_0) (View.ld x1 r1_0) (View.ld x2 r1_1) (View.ld x4 r1_1) (View.ld x3 r1_2)⟩]

/-- The store covers the buffer. -/
theorem cover1_5 (p0 : Vec F S2000x64 .f32) (y : S2000x64.Idx) :
    ∃ pc ∈ ([⟨r1_3, p0⟩] : List (View.Piece (Elt F) S2000x64 .f32)), y ∈ pc.1.set :=
  View.cover_of_tiled [⟨r1_3, p0⟩] S2000x64.size (by rfl) y

set_option maxHeartbeats 1000000 in
/-- The body on whole buffers, the inputs' at contents `xW` and the output's at anything, runs to the continuation
    holding the inputs' as they were and the output's at `out1_5` of them. -/
theorem sound_kernel1 (c : Dev nD) (E : Set ℕ) (i : grid1.Coords) (arg0 : Memref sig .tc .vmem S2000x64 .f32) (harg0 : arg0.IsWhole) (arg1 : Memref sig .tc .vmem S2000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S2000x64 .f32) (harg5 : arg5.IsWhole)
    (x0 : Vec F S2000x64 .f32) (x1 : Vec F S2000x64 .f32) (x2 : Vec F S64x64 .f32) (x3 : Vec F S64 .f32) (x4 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1_kernel i arg0 harg0 arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and the output's at `out1_5` of the blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Reg2Base.lean ====
/- Region 2 (per-graph pooling and the final linear layer), what its three cases share: the windows' blocks, the two
   branch conditions in closed form over the 50 grid points (the first holds at point 0 only, the second at point 49
   only), where the output window is idle, the memrefs the body is called with, and the region's invariant with the two
   scratch buffers named. -/
import proofs.«415661_j14705968022324_1_alg».proof.Proof.Gen.Kernel.Launch
import proofs.«415661_j14705968022324_1_alg».proof.Proof.Gen.Kernel.Skeleton
import proofs.«415661_j14705968022324_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The first branch's condition from the grid coordinate: "this is point 0" (the scratch is reset there). -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 50 = 0 :=
  (by decide +kernel : ∀ t : Fin grid2.N, cond2_0 (grid2.coords t) ↔ t.val % 50 = 0)

/-- The second branch's condition: "this is point 49" (the pooled output is computed and stored there). -/
abbrev cond2_1 (i : grid2.Coords) : Prop := k2_cond2 i = 1#1
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At point 0 and at the points between, the output window is idle (nothing is stored into it) and not written back. -/
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
/-- At point 49 it is live. -/
theorem liveAt2_4_C : ∀ t : Fin cfg2.N, ¬cond2_0 (grid2.coords t) → cond2_1 (grid2.coords t) → cfg2.idle 4 (grid2.coords t) = false := by decide +kernel

/-! ## The memrefs the body is called with -/

/-- One staging buffer of the output window, through which its contents are stated. -/
abbrev VO2_4 : View sig .tc .vmem S64x26 .f32 := (Memref.whole cc2_stg4_0 : Memref sig .tc .vmem S64x26 .f32).view
abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x26 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S26 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x26 .f32 := win2_4.stage (cfg2.slots t 4)
abbrev hs2_4 (t : Fin cfg2.N) : (ms2_4 t).IsWhole := hstage2_4 ((cfg2.slots t 4).cast nbuf2_4)
/-- The two scratch operands: the per-graph sums (64×64) and the per-graph counts (64×1), whole scoped buffers. -/
abbrev scM2_0 : Memref sig .tc .vmem S64x64 .f32 := Memref.whole cc2_scratch0
abbrev scM2_1 : Memref sig .tc .vmem S64x1 .f32 := Memref.whole cc2_scratch1
abbrev VS2_0 : View sig .tc .vmem S64x64 .f32 := scM2_0.view
abbrev VS2_1 : View sig .tc .vmem S64x1 .f32 := scM2_1.view

/-- The core's scoped buffers that no window of this region stages: the other regions' eighteen staging buffers, each at
    some contents, and the two scratch buffers at `P0`, `P1`. -/
def scr2 (c : Dev nD) (P0 P1 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ P0 ∗ P1)

/-- The class's invariant with the scratch operands as memrefs owned at some contents. -/
theorem PhiA2_eq (c : Dev nD) :
    (Pipeline.ΦA spec2 c : sProp 𝕄)
      = iprop(scr2 c iprop(∃ d, owns (c : Thread nD τ) scM2_0 fullShare d) iprop(∃ d, owns (c : Thread nD τ) scM2_1 fullShare d) ∗ (∃ r, prngReg c r)) := by
  unfold Pipeline.ΦA scr2; rw [scopedRest2_eq]; simp only [scM2_0, scM2_1, owns_whole]; try rfl

end Cert.Kernel.Hand

end
-- ==== Proof.Kernel.Reg2RunA.lean ====
/- Region 2's body at point 0 (first branch taken, second not): the scratch buffers, at anything, are reset and then accumulated into; the output window is left untouched. The pieces each buffer ends with are found by the run itself. -/
import proofs.«415661_j14705968022324_1_alg».proof.Proof.Kernel.Reg2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at point 0 (first branch taken, second not): the scratch buffers, at anything, are reset and then accumulated into; the output window is left untouched: on whole buffers, the inputs' at their contents, it runs to the continuation holding the inputs'
    as they were and each buffer it stored into with its pieces written (last first). -/
noncomputable def kernelRun2_A (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i)
    (x0 : Vec F S2000x64 .f32) (x1 : Vec F S2000x1 .i32) (x2 : Vec F S64x26 .f32) (x3 : Vec F S26 .f32) :
    Σ' (L4 : List (View.Piece (Elt F) S64x26 .f32)) (LS0 : List (View.Piece (Elt F) S64x64 .f32)), { LS1 : List (View.Piece (Elt F) S64x1 .f32) //
      ∀ (xi4 : Vec F S64x26 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__pool_linear_kernel i arg1 harg1 arg2 harg2 arg3 harg3 arg4 harg4 arg5 harg5 arg6 harg6 arg7 harg7) K } := by
  refine ⟨[], ?_, ?_, fun xi4 E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.Kernel.Reg2RunB.lean ====
/- Region 2's body at the points between (neither branch taken): the scratch buffers, at what the point before left, are accumulated into; the output window is left untouched. The pieces each buffer ends with are found by the run itself. -/
import proofs.«415661_j14705968022324_1_alg».proof.Proof.Kernel.Reg2RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at the points between (neither branch taken): the scratch buffers, at what the point before left, are accumulated into; the output window is left untouched: on whole buffers, the inputs' at their contents, it runs to the continuation holding the inputs'
    as they were and each buffer it stored into with its pieces written (last first). -/
noncomputable def kernelRun2_B (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i)
    (x0 : Vec F S2000x64 .f32) (x1 : Vec F S2000x1 .i32) (x2 : Vec F S64x26 .f32) (x3 : Vec F S26 .f32) (xs0 : Vec F S64x64 .f32) (xs1 : Vec F S64x1 .f32) :
    Σ' (L4 : List (View.Piece (Elt F) S64x26 .f32)) (LS0 : List (View.Piece (Elt F) S64x64 .f32)), { LS1 : List (View.Piece (Elt F) S64x1 .f32) //
      ∀ (xi4 : Vec F S64x26 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__pool_linear_kernel i arg1 harg1 arg2 harg2 arg3 harg3 arg4 harg4 arg5 harg5 arg6 harg6 arg7 harg7) K } := by
  refine ⟨[], ?_, ?_, fun xi4 E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.Kernel.Reg2RunC.lean ====
/- Region 2's body at point 49 (first branch not taken, second taken): the scratch buffers, at what the point before left, are accumulated into, then read to compute the pooled output, which is stored. The pieces each buffer ends with are found by the run itself. -/
import proofs.«415661_j14705968022324_1_alg».proof.Proof.Kernel.Reg2RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at point 49 (first branch not taken, second taken): the scratch buffers, at what the point before left, are accumulated into, then read to compute the pooled output, which is stored: on whole buffers, the inputs' at their contents, it runs to the continuation holding the inputs'
    as they were and each buffer it stored into with its pieces written (last first). -/
noncomputable def kernelRun2_C (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) :
    Σ' (L4 : List (View.Piece (Elt F) S64x26 .f32)) (LS0 : List (View.Piece (Elt F) S64x64 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__pool_linear_kernel i arg1 harg1 arg2 harg2 arg3 harg3 arg4 harg4 arg5 harg5 arg6 harg6 arg7 harg7) K } := by
  refine ⟨?_, ?_, ?_, fun E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.Kernel.Hand

end
-- ==== Proof.Kernel.Reg2.lean ====
/- Region 2 (per-graph pooling and the final linear layer): what its buffers hold after each of the 50 grid points — the
   output window and the two scratch accumulators, point 0 resetting and accumulating, the points between accumulating
   over what the point before left, point 49 accumulating and then computing the output —, the region's invariant carrying
   the two accumulators from point to point, the pipeline's proof data and the body obligation. -/
import proofs.«415661_j14705968022324_1_alg».proof.Proof.Kernel.Reg2RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In this case nothing is stored into the output window (it is idle and not written back): a placeholder nothing consults. -/
def out2_A_4 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i)
    (x0 : Vec F S2000x64 .f32) (x1 : Vec F S2000x1 .i32) (x2 : Vec F S64x26 .f32) (x3 : Vec F S26 .f32) : Vec F S64x26 .f32 :=
  VO2_4.read (Elt F) (VO2_4.writes (Elt F) VO2_4.junk (kernelRun2_A c i arg1 harg1 arg2 harg2 arg3 harg3 arg4 harg4 arg5 harg5 arg6 harg6 arg7 harg7 hc0 hc1 x0 x1 x2 x3).1)

/-- The case's stores into the sums' scratch cover it. -/
theorem scover2_A_0 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i)
    (x0 : Vec F S2000x64 .f32) (x1 : Vec F S2000x1 .i32) (x2 : Vec F S64x26 .f32) (x3 : Vec F S26 .f32) (y : S64x64.Idx) :
    ∃ pc ∈ (kernelRun2_A c i arg1 harg1 arg2 harg2 arg3 harg3 arg4 harg4 arg5 harg5 arg6 harg6 arg7 harg7 hc0 hc1 x0 x1 x2 x3).2.1, y ∈ pc.1.set :=
  View.cover_of_tiledL (kernelRun2_A c i arg1 harg1 arg2 harg2 arg3 harg3 arg4 harg4 arg5 harg5 arg6 harg6 arg7 harg7 hc0 hc1 x0 x1 x2 x3).2.1 S64x64.size (by sl_kernel_rfl) y

/-- What the case leaves in the sums' scratch. -/
def sout2_A_0 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i)
    (x0 : Vec F S2000x64 .f32) (x1 : Vec F S2000x1 .i32) (x2 : Vec F S64x26 .f32) (x3 : Vec F S26 .f32) : Vec F S64x64 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1 x2 x3).2.1)

/-- The case's stores into the counts' scratch cover it. -/
theorem scover2_A_1 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i)
    (x0 : Vec F S2000x64 .f32) (x1 : Vec F S2000x1 .i32) (x2 : Vec F S64x26 .f32) (x3 : Vec F S26 .f32) (y : S64x1.Idx) :
    ∃ pc ∈ (kernelRun2_A c i arg1 harg1 arg2 harg2 arg3 harg3 arg4 harg4 arg5 harg5 arg6 harg6 arg7 harg7 hc0 hc1 x0 x1 x2 x3).2.2.1, y ∈ pc.1.set :=
  View.cover_of_tiledL (kernelRun2_A c i arg1 harg1 arg2 harg2 arg3 harg3 arg4 harg4 arg5 harg5 arg6 harg6 arg7 harg7 hc0 hc1 x0 x1 x2 x3).2.2.1 S64x1.size (by sl_kernel_rfl) y

/-- What the case leaves in the counts' scratch. -/
def sout2_A_1 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i)
    (x0 : Vec F S2000x64 .f32) (x1 : Vec F S2000x1 .i32) (x2 : Vec F S64x26 .f32) (x3 : Vec F S26 .f32) : Vec F S64x1 .f32 :=
  VS2_1.read (Elt F) (VS2_1.writes (Elt F) VS2_1.junk (kernelRun2_A c i arg1 harg1 arg2 harg2 arg3 harg3 arg4 harg4 arg5 harg5 arg6 harg6 arg7 harg7 hc0 hc1 x0 x1 x2 x3).2.2.1)

/-- In this case nothing is stored into the output window (it is idle and not written back): a placeholder nothing consults. -/
def out2_B_4 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i)
    (x0 : Vec F S2000x64 .f32) (x1 : Vec F S2000x1 .i32) (x2 : Vec F S64x26 .f32) (x3 : Vec F S26 .f32) (xs0 : Vec F S64x64 .f32) (xs1 : Vec F S64x1 .f32) : Vec F S64x26 .f32 :=
  VO2_4.read (Elt F) (VO2_4.writes (Elt F) VO2_4.junk (kernelRun2_B c i arg1 harg1 arg2 harg2 arg3 harg3 arg4 harg4 arg5 harg5 arg6 harg6 arg7 harg7 hc0 hc1 x0 x1 x2 x3 xs0 xs1).1)

/-- The case's stores into the sums' scratch cover it. -/
theorem scover2_B_0 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i)
    (x0 : Vec F S2000x64 .f32) (x1 : Vec F S2000x1 .i32) (x2 : Vec F S64x26 .f32) (x3 : Vec F S26 .f32) (xs0 : Vec F S64x64 .f32) (xs1 : Vec F S64x1 .f32) (y : S64x64.Idx) :
    ∃ pc ∈ (kernelRun2_B c i arg1 harg1 arg2 harg2 arg3 harg3 arg4 harg4 arg5 harg5 arg6 harg6 arg7 harg7 hc0 hc1 x0 x1 x2 x3 xs0 xs1).2.1, y ∈ pc.1.set :=
  View.cover_of_tiledL (kernelRun2_B c i arg1 harg1 arg2 harg2 arg3 harg3 arg4 harg4 arg5 harg5 arg6 harg6 arg7 harg7 hc0 hc1 x0 x1 x2 x3 xs0 xs1).2.1 S64x64.size (by sl_kernel_rfl) y

/-- What the case leaves in the sums' scratch. -/
def sout2_B_0 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i)
    (x0 : Vec F S2000x64 .f32) (x1 : Vec F S2000x1 .i32) (x2 : Vec F S64x26 .f32) (x3 : Vec F S26 .f32) (xs0 : Vec F S64x64 .f32) (xs1 : Vec F S64x1 .f32) : Vec F S64x64 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 x2 x3 xs0 xs1).2.1)

/-- The case's stores into the counts' scratch cover it. -/
theorem scover2_B_1 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i)
    (x0 : Vec F S2000x64 .f32) (x1 : Vec F S2000x1 .i32) (x2 : Vec F S64x26 .f32) (x3 : Vec F S26 .f32) (xs0 : Vec F S64x64 .f32) (xs1 : Vec F S64x1 .f32) (y : S64x1.Idx) :
    ∃ pc ∈ (kernelRun2_B c i arg1 harg1 arg2 harg2 arg3 harg3 arg4 harg4 arg5 harg5 arg6 harg6 arg7 harg7 hc0 hc1 x0 x1 x2 x3 xs0 xs1).2.2.1, y ∈ pc.1.set :=
  View.cover_of_tiledL (kernelRun2_B c i arg1 harg1 arg2 harg2 arg3 harg3 arg4 harg4 arg5 harg5 arg6 harg6 arg7 harg7 hc0 hc1 x0 x1 x2 x3 xs0 xs1).2.2.1 S64x1.size (by sl_kernel_rfl) y

/-- What the case leaves in the counts' scratch. -/
def sout2_B_1 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i)
    (x0 : Vec F S2000x64 .f32) (x1 : Vec F S2000x1 .i32) (x2 : Vec F S64x26 .f32) (x3 : Vec F S26 .f32) (xs0 : Vec F S64x64 .f32) (xs1 : Vec F S64x1 .f32) : Vec F S64x1 .f32 :=
  VS2_1.read (Elt F) (VS2_1.writes (Elt F) VS2_1.junk (kernelRun2_B c i arg1 harg1 arg2 harg2 arg3 harg3 arg4 harg4 arg5 harg5 arg6 harg6 arg7 harg7 hc0 hc1 x0 x1 x2 x3 xs0 xs1).2.2.1)

/-- At point 49 the one store into the output window covers it. -/
theorem cover2_C_4 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) (y : S64x26.Idx) :
    ∃ pc ∈ (kernelRun2_C c i arg1 harg1 arg2 harg2 arg3 harg3 arg4 harg4 arg5 harg5 arg6 harg6 arg7 harg7 hc0 hc1 x0 x1 x2 x3 xs0 xs1).1, y ∈ pc.1.set :=
  View.cover_of_tiledL (kernelRun2_C c i arg1 harg1 arg2 harg2 arg3 harg3 arg4 harg4 arg5 harg5 arg6 harg6 arg7 harg7 hc0 hc1 x0 x1 x2 x3 xs0 xs1).1 S64x26.size (by sl_kernel_rfl) y

/-- What point 49 leaves in the output window's buffer. -/
def out2_C_4 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) : Vec F S64x26 .f32 :=
  VO2_4.read (Elt F) (VO2_4.writes (Elt F) VO2_4.junk (kernelRun2_C c i arg1 harg1 arg2 harg2 arg3 harg3 arg4 harg4 arg5 harg5 arg6 harg6 arg7 harg7 hc0 hc1 x0 x1 x2 x3 xs0 xs1).1)

/-- The case's stores into the sums' scratch cover it. -/
theorem scover2_C_0 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) (y : S64x64.Idx) :
    ∃ pc ∈ (kernelRun2_C c i arg1 harg1 arg2 harg2 arg3 harg3 arg4 harg4 arg5 harg5 arg6 harg6 arg7 harg7 hc0 hc1 x0 x1 x2 x3 xs0 xs1).2.1, y ∈ pc.1.set :=
  View.cover_of_tiledL (kernelRun2_C c i arg1 harg1 arg2 harg2 arg3 harg3 arg4 harg4 arg5 harg5 arg6 harg6 arg7 harg7 hc0 hc1 x0 x1 x2 x3 xs0 xs1).2.1 S64x64.size (by sl_kernel_rfl) y

/-- What the case leaves in the sums' scratch. -/
def sout2_C_0 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) : Vec F S64x64 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 x2 x3 xs0 xs1).2.1)

/-- The case's stores into the counts' scratch cover it. -/
theorem scover2_C_1 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) (y : S64x1.Idx) :
    ∃ pc ∈ (kernelRun2_C c i arg1 harg1 arg2 harg2 arg3 harg3 arg4 harg4 arg5 harg5 arg6 harg6 arg7 harg7 hc0 hc1 x0 x1 x2 x3 xs0 xs1).2.2.1, y ∈ pc.1.set :=
  View.cover_of_tiledL (kernelRun2_C c i arg1 harg1 arg2 harg2 arg3 harg3 arg4 harg4 arg5 harg5 arg6 harg6 arg7 harg7 hc0 hc1 x0 x1 x2 x3 xs0 xs1).2.2.1 S64x1.size (by sl_kernel_rfl) y

/-- What the case leaves in the counts' scratch. -/
def sout2_C_1 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) : Vec F S64x1 .f32 :=
  VS2_1.read (Elt F) (VS2_1.writes (Elt F) VS2_1.junk (kernelRun2_C c i arg1 harg1 arg2 harg2 arg3 harg3 arg4 harg4 arg5 harg5 arg6 harg6 arg7 harg7 hc0 hc1 x0 x1 x2 x3 xs0 xs1).2.2.1)

/-! ## What the buffers hold after each point -/

/-- THE ACCUMULATION: the output window's buffer, the sums' scratch and the counts' scratch after the body at position `n`. -/
def outsAt2 (c : Dev nD) : (n : ℕ) → n < cfg2.N → Vec F S64x26 .f32 × Vec F S64x64 .f32 × Vec F S64x1 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 50 = 0 then
      False.elim (by have hN : n + 1 < 50 := lt_of_lt_of_eq hn (show cfg2.N = 50 from N_2); omega)
    else
      if h1 : (n + 1) % 50 = 49 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2)

/-- At point 0: the first case's contents. -/
theorem outsAt2_A (c : Dev nD) (t : Fin cfg2.N) (h0 : t.val % 50 = 0) (h1 : ¬t.val % 50 = 49) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (by exfalso; (try dsimp only at h0); have hN : n + 1 < 50 := lt_of_lt_of_eq hn (show cfg2.N = 50 from N_2); omega)

/-- At a point between: the middle case's contents, over what the point before left. -/
theorem outsAt2_B (c : Dev nD) (t : Fin cfg2.N) (h0 : ¬t.val % 50 = 0) (h1 : ¬t.val % 50 = 49) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At point 49: the last case's contents, over what the point before left. -/
theorem outsAt2_C (c : Dev nD) (t : Fin cfg2.N) (h0 : ¬t.val % 50 = 0) (h1 : t.val % 50 = 49) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the two
    scratch accumulators at what the point before left in them, the rest at anything; the generator register at some state. -/
def PhiS2 (c : Dev nD) : (n : ℕ) → n ≤ cfg2.N → sProp 𝕄
  | 0, _ => Pipeline.ΦA spec2 c
  | n + 1, hn => iprop(scr2 c (owns (c : Thread nD τ) scM2_0 fullShare ((outsAt2 V c n hn).2.1)) (owns (c : Thread nD τ) scM2_1 fullShare ((outsAt2 V c n hn).2.2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(scr2 c (owns (c : Thread nD τ) scM2_0 fullShare ((outsAt2 V c n hn).2.1)) (owns (c : Thread nD τ) scM2_1 fullShare ((outsAt2 V c n hn).2.2)) ∗ (∃ r, prngReg c r)) := rfl

theorem PhiS2_pos (c : Dev nD) (n : ℕ) (h : n ≤ cfg2.N) (hz : n ≠ 0) :
    PhiS2 V c n h = iprop(scr2 c (owns (c : Thread nD τ) scM2_0 fullShare ((outsAt2 V c (n - 1) (by omega)).2.1)) (owns (c : Thread nD τ) scM2_1 fullShare ((outsAt2 V c (n - 1) (by omega)).2.2)) ∗ (∃ r, prngReg c r)) := by
  cases n with
  | zero => exact absurd rfl hz
  | succ n => rfl

/-! ## The pipeline's proof data -/

/-- The proof data of pipeline 2 on core `c`: the arrays as the region finds them; after the body at point `t` each input's
    buffer at its block and the output's at the accumulation's first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the closed forms say which case the point is in; the
    invariant hands the body the two accumulators at what the point before left (at anything at point 0) and takes them
    back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  by_cases h0 : t.val % 50 = 0
  · by_cases h1 : t.val % 50 = 49
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0 sout2_A_1; (try dsimp only)
      have hz : t.val = 0 := by omega
      rw [PhiS2_castSucc V c t, PhiS2_zero V c _ _ hz, PhiA2_eq]
      unfold scr2
      iintro ⟨⟨⟨R1, R2, R3, R4, R5, R6, R7, R8, R9, R10, R11, R12, R13, R14, R15, R16, R17, R18, HS0, HS1⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [R1 R2 R3 R4 R5 R6 R7 R8 R9 R10 R11 R12 R13 R14 R15 R16 R17 R18 HS0 HS1 Hg]
      · isplitl [R1 R2 R3 R4 R5 R6 R7 R8 R9 R10 R11 R12 R13 R14 R15 R16 R17 R18 HS0 HS1]
        ·
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [R15]; · iexact R15
          isplitl [R16]; · iexact R16
          isplitl [R17]; · iexact R17
          isplitl [R18]; · iexact R18
          isplitl [HS0]
          · unfold owns; iexists _; isplitr
            swap; · iexact HS0
            ipureintro; exact View.read_writes_of_cover _ _ _ _ _ (scover2_A_0 c _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · by_cases h1 : t.val % 50 = 49
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0 sout2_C_1; (try dsimp only)
      have hz : t.val ≠ 0 := by omega
      rw [PhiS2_castSucc V c t, PhiS2_pos V c _ _ hz]
      unfold scr2
      iintro ⟨⟨⟨R1, R2, R3, R4, R5, R6, R7, R8, R9, R10, R11, R12, R13, R14, R15, R16, R17, R18, HS0, HS1⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [R1 R2 R3 R4 R5 R6 R7 R8 R9 R10 R11 R12 R13 R14 R15 R16 R17 R18 HS0 HS1 Hg]
      · isplitl [R1 R2 R3 R4 R5 R6 R7 R8 R9 R10 R11 R12 R13 R14 R15 R16 R17 R18 HS0 HS1]
        ·
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [R15]; · iexact R15
          isplitl [R16]; · iexact R16
          isplitl [R17]; · iexact R17
          isplitl [R18]; · iexact R18
          isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _)
          unfold owns; iexists _; isplitr
          swap; · iexact HS1
          ipureintro; exact View.read_writes_of_cover _ _ _ _ _ (scover2_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0 sout2_B_1; (try dsimp only)
      have hz : t.val ≠ 0 := by omega
      rw [PhiS2_castSucc V c t, PhiS2_pos V c _ _ hz]
      unfold scr2
      iintro ⟨⟨⟨R1, R2, R3, R4, R5, R6, R7, R8, R9, R10, R11, R12, R13, R14, R15, R16, R17, R18, HS0, HS1⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [R1 R2 R3 R4 R5 R6 R7 R8 R9 R10 R11 R12 R13 R14 R15 R16 R17 R18 HS0 HS1 Hg]
      · isplitl [R1 R2 R3 R4 R5 R6 R7 R8 R9 R10 R11 R12 R13 R14 R15 R16 R17 R18 HS0 HS1]
        ·
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [R15]; · iexact R15
          isplitl [R16]; · iexact R16
          isplitl [R17]; · iexact R17
          isplitl [R18]; · iexact R18
          isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _)
          unfold owns; iexists _; isplitr
          swap; · iexact HS1
          ipureintro; exact View.read_writes_of_cover _ _ _ _ _ (scover2_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- After any point but the first the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold scr2
  iintro ⟨⟨R1, R2, R3, R4, R5, R6, R7, R8, R9, R10, R11, R12, R13, R14, R15, R16, R17, R18, HS0, HS1⟩, Hg⟩
  isplitl [R1 R2 R3 R4 R5 R6 R7 R8 R9 R10 R11 R12 R13 R14 R15 R16 R17 R18 HS0 HS1]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [HS0]; · iexists _; iexact HS0
    iexists _; iexact HS1
  iexact Hg

/-- The same after the last point. -/
theorem hout2 (c : Dev nD) : (dat2 V c).Φ (Fin.last cfg2.N) ⊢ Pipeline.ΦA spec2 c :=
  Phi_out2 V c _ (by rw [Fin.val_last]; have : cfg2.N = 50 := N_2; omega)

end Cert.Kernel.Hand

end
-- ==== Proof.Kernel.Run.lean ====
/- The run of the kernel's program from the launch to the return, as six segments: three stretches of host operations
   and three pallas regions. The contents of every unscoped buffer at each boundary are a fold from the launch memory (a
   stretch applies its operations; a region replaces its output array by what its write-backs leave); at the end every
   unscoped buffer is read against the last boundary's contents. -/
import proofs.«415661_j14705968022324_1_alg».proof.Proof.Kernel.Reg0
import proofs.«415661_j14705968022324_1_alg».proof.Proof.Kernel.Reg1
import proofs.«415661_j14705968022324_1_alg».proof.Proof.Kernel.Reg2
import proofs.«415661_j14705968022324_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the host operations `hostOps0` (region 0's entry). -/
abbrev W1 : Dev nD → Valuation τ sig (Elt F) := fun c => StableHlo.after hostOps0 (W0 m ρ c)
/-- The same read at the TensorCore's references. -/
abbrev Vr1 : (c : Dev nD) → (b : Ref sig .tc) → Buf (Elt F) ((c : Thread nD τ).loc b) := fun c b => W1 m ρ c b
/-- At region 0's exit: its arrays at what the pipeline leaves (the inputs as entered, the output's write-backs folded), every
    other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (Vr1 m ρ) c).arrAt_in w hw _).trans (A_eq0 (Vr1 m ρ) c w))
abbrev Vx2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vx2 m ρ c (Pipeline.arrRef spec0 w) :=
  (W2_arr m ρ c w).symm
theorem hrest0 (c : Dev nD) : ∀ b, b ∉ Finset.univ.image (Pipeline.arrRef spec0) → Vx2 m ρ c b = Vr1 m ρ c b :=
  fun b hb => W2_of_ne m ρ c b fun w e => hb (Finset.mem_image.mpr ⟨w, Finset.mem_univ _, e⟩)

/-- After the host operations `hostOps1` (region 1's entry). -/
abbrev W3 : Dev nD → Valuation τ sig (Elt F) := fun c => StableHlo.after hostOps1 (W2 m ρ c)
/-- The same read at the TensorCore's references. -/
abbrev Vr3 : (c : Dev nD) → (b : Ref sig .tc) → Buf (Elt F) ((c : Thread nD τ).loc b) := fun c b => W3 m ρ c b
/-- At region 1's exit: its arrays at what the pipeline leaves (the inputs as entered, the output's write-backs folded), every
    other buffer as entered. -/
def W4 (c : Dev nD) : Valuation τ sig (Elt F) :=
  Pipeline.withArrays spec1 c (W3 m ρ c) fun w => (dat1 (Vr3 m ρ) c).arrAt w cfg1.N
theorem W4_arr (c : Dev nD) (w : Fin cfg1.W) :
    W4 m ρ c (Proc.devRef .tc (Pipeline.arrRef spec1 w)) = (dat1 (Vr3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (Vr3 m ρ) c).arrAt_in w hw _).trans (A_eq1 (Vr3 m ρ) c w))
abbrev Vx4 : (c : Dev nD) → (b : Ref sig .tc) → Buf (Elt F) ((c : Thread nD τ).loc b) := fun c b => W4 m ρ c b
theorem hF1 (c : Dev nD) (w : Fin cfg1.W) : (dat1 (Vr3 m ρ) c).arrAt w cfg1.N = Vx4 m ρ c (Pipeline.arrRef spec1 w) :=
  (W4_arr m ρ c w).symm
theorem hrest1 (c : Dev nD) : ∀ b, b ∉ Finset.univ.image (Pipeline.arrRef spec1) → Vx4 m ρ c b = Vr3 m ρ c b :=
  fun b hb => W4_of_ne m ρ c b fun w e => hb (Finset.mem_image.mpr ⟨w, Finset.mem_univ _, e⟩)

/-- After the host operations `hostOps2` (region 2's entry). -/
abbrev W5 : Dev nD → Valuation τ sig (Elt F) := fun c => StableHlo.after hostOps2 (W4 m ρ c)
/-- The same read at the TensorCore's references. -/
abbrev Vr5 : (c : Dev nD) → (b : Ref sig .tc) → Buf (Elt F) ((c : Thread nD τ).loc b) := fun c b => W5 m ρ c b
/-- At region 2's exit: its arrays at what the pipeline leaves (the inputs as entered, the output's write-backs folded), every
    other buffer as entered. -/
def W6 (c : Dev nD) : Valuation τ sig (Elt F) :=
  Pipeline.withArrays spec2 c (W5 m ρ c) fun w => (dat2 (Vr5 m ρ) c).arrAt w cfg2.N
theorem W6_arr (c : Dev nD) (w : Fin cfg2.W) :
    W6 m ρ c (Proc.devRef .tc (Pipeline.arrRef spec2 w)) = (dat2 (Vr5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (Vr5 m ρ) c).arrAt_in w hw _).trans (A_eq2 (Vr5 m ρ) c w))
abbrev Vx6 : (c : Dev nD) → (b : Ref sig .tc) → Buf (Elt F) ((c : Thread nD τ).loc b) := fun c b => W6 m ρ c b
theorem hF2 (c : Dev nD) (w : Fin cfg2.W) : (dat2 (Vr5 m ρ) c).arrAt w cfg2.N = Vx6 m ρ c (Pipeline.arrRef spec2 w) :=
  (W6_arr m ρ c w).symm
theorem hrest2 (c : Dev nD) : ∀ b, b ∉ Finset.univ.image (Pipeline.arrRef spec2) → Vx6 m ρ c b = Vr5 m ρ c b :=
  fun b hb => W6_of_ne m ρ c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr3 m ρ) c
  | ⟨2, _⟩ => fun c => dat2 (Vr5 m ρ) c
/-- No core owes another anything: no level is assigned. -/
abbrev Lz : GSem nD τ sig → Finset Unit := fun _ => ∅
abbrev lvz : GSem nD τ sig → Unit → ℕ := fun _ _ => 0
/-- What rides beside the buffers through every segment: the generator register at some state and the core's dues, at nothing. -/
abbrev Rest (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tend (c : Dev nD) : sProp 𝕄 := iprop(StableHlo.held (c : Thread nD τ) (Pipeline.ucRefs τ sig) (W6 m ρ c) ∗ ∃ r, prngReg c r)

/-! ## The regions as segments -/

-- a library lemma stated over the pinned configuration unifies with the printed one only when unification may unfold plain
-- definitions in a metavariable's type
set_option backward.isDefEq.respectTransparency.types false in
/-- REGION 0 over the thread state: entered from every unscoped buffer at `W1`, left at `W2`. Its arrays are split out
    of the unscoped buffers and put back at the exit contents; the generator register goes into the region's invariant and
    comes back; nothing is owed; the kernel has no semaphore of its own. -/
def reg0 : Pipeline.RegionSeg (pcfgs (F := F)) adm (pdats m ρ) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ Lz lvz 0 fun _ _ => rfl
  pre c := iprop(StableHlo.held (c : Thread nD τ) (Pipeline.ucRefs τ sig) (W1 m ρ c) ∗ Rest c)
  post c := iprop(StableHlo.held (c : Thread nD τ) (Pipeline.ucRefs τ sig) (W2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vx2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 1 over the thread state: entered from every unscoped buffer at `W3`, left at `W4`. Its arrays are split out
    of the unscoped buffers and put back at the exit contents; the generator register goes into the region's invariant and
    comes back; nothing is owed; the kernel has no semaphore of its own. -/
def reg1 : Pipeline.RegionSeg (pcfgs (F := F)) adm (pdats m ρ) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vr3 m ρ) c).loose
  hwaits := Pipeline.hwaits_of_owed_zero _ _ _ _ Lz lvz 1 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (Vr3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr3 m ρ c) (Vx4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 2 over the thread state: entered from every unscoped buffer at `W5`, left at `W6`. Its arrays are split out
    of the unscoped buffers and put back at the exit contents; the generator register goes into the region's invariant and
    comes back; nothing is owed; the kernel has no semaphore of its own. -/
def reg2 : Pipeline.RegionSeg (pcfgs (F := F)) adm (pdats m ρ) () defs₀ Variants.none Lz lvz 2 where
  win := launch2.win.to₀
  block_pos := launch2.block_pos
  stage_whole := launch2.stage_whole
  K := PEmpty
  osem k := k.elim
  ho := Pipeline.OwnSemFacts.none _
  hbody c := (body_obligation2 (Vr5 m ρ) c).loose
  hwaits := Pipeline.hwaits_of_owed_zero _ _ _ _ Lz lvz 2 fun _ _ => rfl
  pre c := iprop(StableHlo.held (c : Thread nD τ) (Pipeline.ucRefs τ sig) (W5 m ρ c) ∗ Rest c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (Vr5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr5 m ρ c) (Vx6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs : List (Pipeline.Seg (pcfgs (F := F)) adm (pdats m ρ) () defs₀ Variants.none Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (mainSegs m ρ) := (main_chain c).trans (by chain_rfl)

set_option backward.isDefEq.respectTransparency.types false in
/-- THE RUN. From any memory with zero counters every weakly fair execution of @main terminates, nothing faulting, and every
    final state holds every unscoped buffer of every core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ Variants.none Lz lvz m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tend m ρ)
    (hch := ⟨fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.Kernel.Fold.lean ====
/- The fold of the buffers' contents read back: each argument array ends as launched (the frame claim), the result
   buffer ends at what the last region's write-backs leave, and each buffer a later segment reads is what the earlier
   segment left there. -/
import proofs.«415661_j14705968022324_1_alg».proof.Proof.Kernel.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each stretch of host operations leaves alone -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! ## The arguments end as launched -/

/-- `main_arg0` reaches the end as launched: no stretch writes it; a region reads it through an input window or not at all. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_in m ρ c 1 rfl
    _ = W0 m ρ c (Proc.devRef .tc main_arg0) := W1_of m ρ c main_arg0 (by decide)
    _ = m ((c : Thread nD τ).loc main_arg0) := rfl

/-- `main_arg1` reaches the end as launched: no stretch writes it; a region reads it through an input window or not at all. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- `main_arg2` reaches the end as launched: no stretch writes it; a region reads it through an input window or not at all. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- `main_arg3` reaches the end as launched: no stretch writes it; a region reads it through an input window or not at all. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_in m ρ c 2 rfl
    _ = W0 m ρ c (Proc.devRef .tc main_arg3) := W1_of m ρ c main_arg3 (by decide)
    _ = m ((c : Thread nD τ).loc main_arg3) := rfl

/-- `main_arg4` reaches the end as launched: no stretch writes it; a region reads it through an input window or not at all. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_in m ρ c 3 rfl
    _ = W0 m ρ c (Proc.devRef .tc main_arg4) := W1_of m ρ c main_arg4 (by decide)
    _ = m ((c : Thread nD τ).loc main_arg4) := rfl

/-- `main_arg5` reaches the end as launched: no stretch writes it; a region reads it through an input window or not at all. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_in m ρ c 4 rfl
    _ = W0 m ρ c (Proc.devRef .tc main_arg5) := W1_of m ρ c main_arg5 (by decide)
    _ = m ((c : Thread nD τ).loc main_arg5) := rfl

/-- `main_arg6` reaches the end as launched: no stretch writes it; a region reads it through an input window or not at all. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_in m ρ c 2 rfl
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- `main_arg7` reaches the end as launched: no stretch writes it; a region reads it through an input window or not at all. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_in m ρ c 3 rfl
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- `main_arg8` reaches the end as launched: no stretch writes it; a region reads it through an input window or not at all. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_in m ρ c 4 rfl
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- `main_arg9` reaches the end as launched: no stretch writes it; a region reads it through an input window or not at all. -/
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_in m ρ c 2 rfl
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

/-- `main_arg10` reaches the end as launched: no stretch writes it; a region reads it through an input window or not at all. -/
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_in m ρ c 3 rfl
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-- THE FRAME at any float instance: every weakly fair execution of @main terminates, nothing faulting, and every final
    state has the eleven argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c)⟩) (run_all m ρ)

/-! ## What the segments hand each other -/

/-- The result buffer ends at what region 2's write-backs leave. -/
theorem W6_out (c : Dev nD) : W6 m ρ c (Proc.devRef .tc main_v41) = (dat2 (Vr5 m ρ) c).arrAt 4 cfg2.N := W6_arr m ρ c 4
/-- Region 2 finds region 1's output as region 1 left it. -/
theorem Vr5_v39 (c : Dev nD) : Vr5 m ρ c main_v39 = (dat1 (Vr3 m ρ) c).arrAt 5 cfg1.N :=
  (W5_of m ρ c main_v39 (by decide)).trans (W4_arr m ρ c 5)
/-- Regions 1 and the second stretch find region 0's output as region 0 left it. -/
theorem W2_v25 (c : Dev nD) : W2 m ρ c (Proc.devRef .tc main_v25) = (dat0 (Vr1 m ρ) c).arrAt 5 cfg0.N := W2_arr m ρ c 5
theorem Vr3_v25 (c : Dev nD) : Vr3 m ρ c main_v25 = (dat0 (Vr1 m ρ) c).arrAt 5 cfg0.N :=
  (W3_of m ρ c main_v25 (by decide)).trans (W2_v25 m ρ c)
/-- A buffer the first stretch wrote and no region touches is still there for the second stretch. -/
theorem W2_keep (c : Dev nD) (r : Ref sig .tc) (h : ∀ w, Pipeline.arrRef spec0 w ≠ r) :
    W2 m ρ c (Proc.devRef .tc r) = W1 m ρ c (Proc.devRef .tc r) := W2_of_ne m ρ c r h
/-- The weights and biases as each region finds them are the launch contents. -/
theorem Vr1_arg (c : Dev nD) (r : Ref sig .tc) (h : r ∉ hostOps0_W) : Vr1 m ρ c r = m ((c : Thread nD τ).loc r) :=
  (W1_of m ρ c r h).trans rfl
theorem Vr3_arg (c : Dev nD) (r : Ref sig .tc) (h1 : r ∉ hostOps1_W) (h2 : ∀ w, Pipeline.arrRef spec0 w ≠ r) (h0 : r ∉ hostOps0_W) :
    Vr3 m ρ c r = m ((c : Thread nD τ).loc r) :=
  (W3_of m ρ c r h1).trans ((W2_of_ne m ρ c r h2).trans ((W1_of m ρ c r h0).trans rfl))
theorem Vr5_arg (c : Dev nD) (r : Ref sig .tc) (h5 : r ∉ hostOps2_W) (h4 : ∀ w, Pipeline.arrRef spec1 w ≠ r) (h1 : r ∉ hostOps1_W)
    (h2 : ∀ w, Pipeline.arrRef spec0 w ≠ r) (h0 : r ∉ hostOps0_W) : Vr5 m ρ c r = m ((c : Thread nD τ).loc r) :=
  (W5_of m ρ c r h5).trans ((W4_of_ne m ρ c r h4).trans ((W3_of m ρ c r h1).trans ((W2_of_ne m ρ c r h2).trans ((W1_of m ρ c r h0).trans rfl))))

end Cert.Kernel.Hand

end
-- ==== Proof.KernelIdeal.Reg0.lean ====
/- The frame half of region 0 (the first dense layer's kernel): the body's run on whole buffers and the
   pipeline's proof data, at any float instance. -/
import proofs.«415661_j14705968022324_1_alg».proof.Proof.Gen.KernelIdeal.Launch
import proofs.«415661_j14705968022324_1_alg».proof.Proof.Gen.KernelIdeal.Skeleton
import proofs.«415661_j14705968022324_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
/-! # Region 0: one dense layer's kernel, at the contents `V` the region is entered with

Each of the five input windows holds, at every grid point, the block of its array the index map names; the body
reads them whole and stores one value, so the output window's buffer after the body is a function of the five
blocks. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev r0_0 : Rect S2000x26 := Rect.unit (s := S2000x26) ![0, 0] S2000x26.size inb_S2000x26_S2000x26_0_0
abbrev r0_1 : Rect S26x64 := Rect.unit (s := S26x64) ![0, 0] S26x64.size inb_S26x64_S26x64_0_0
abbrev r0_2 : Rect S64 := Rect.unit (s := S64) ![0] S64.size inb_S64_S64_0
abbrev r0_3 : Rect S2000x64 := Rect.unit (s := S2000x64) ![0, 0] S2000x64.size inb_S2000x64_S2000x64_0_0

/-- The output window's buffer after the body, from the input windows' blocks: its one store, of the whole buffer. -/
def out0_5 (x0 : Vec F S2000x26 .f32) (x1 : Vec F S2000x26 .f32) (x2 : Vec F S26x64 .f32) (x3 : Vec F S64 .f32) (x4 : Vec F S26x64 .f32) : Vec F S2000x64 .f32 :=
  View.canon [⟨r0_3, k0_pay1 (View.ld x0 r0_0) (View.ld x1 r0_0) (View.ld x2 r0_1) (View.ld x4 r0_1) (View.ld x3 r0_2)⟩]

/-- The store covers the buffer. -/
theorem cover0_5 (p0 : Vec F S2000x64 .f32) (y : S2000x64.Idx) :
    ∃ pc ∈ ([⟨r0_3, p0⟩] : List (View.Piece (Elt F) S2000x64 .f32)), y ∈ pc.1.set :=
  View.cover_of_tiled [⟨r0_3, p0⟩] S2000x64.size (by rfl) y

set_option maxHeartbeats 1000000 in
/-- The body on whole buffers, the inputs' at contents `xW` and the output's at anything, runs to the continuation
    holding the inputs' as they were and the output's at `out0_5` of them. -/
theorem sound_kernel0 (c : Dev nD) (E : Set ℕ) (i : grid0.Coords) (arg0 : Memref sig .tc .vmem S2000x26 .f32) (harg0 : arg0.IsWhole) (arg1 : Memref sig .tc .vmem S2000x26 .f32) (harg1 : arg1.IsWhole) (arg2 : Memref sig .tc .vmem S26x64 .f32) (harg2 : arg2.IsWhole) (arg3 : Memref sig .tc .vmem S64 .f32) (harg3 : arg3.IsWhole) (arg4 : Memref sig .tc .vmem S26x64 .f32) (harg4 : arg4.IsWhole) (arg5 : Memref sig .tc .vmem S2000x64 .f32) (harg5 : arg5.IsWhole)
    (x0 : Vec F S2000x26 .f32) (x1 : Vec F S2000x26 .f32) (x2 : Vec F S26x64 .f32) (x3 : Vec F S64 .f32) (x4 : Vec F S26x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0_kernel i arg0 harg0 arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    input's buffer at its block and the output's at `out0_5` of the blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Reg1.lean ====
/- The frame half of region 1 (the second dense layer's kernel): the body's run on whole buffers and the
   pipeline's proof data, at any float instance. -/
import proofs.«415661_j14705968022324_1_alg».proof.Proof.Gen.KernelIdeal.Launch
import proofs.«415661_j14705968022324_1_alg».proof.Proof.Gen.KernelIdeal.Skeleton
import proofs.«415661_j14705968022324_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
/-! # Region 1: one dense layer's kernel, at the contents `V` the region is entered with

Each of the five input windows holds, at every grid point, the block of its array the index map names; the body
reads them whole and stores one value, so the output window's buffer after the body is a function of the five
blocks. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_0 : Rect S2000x64 := Rect.unit (s := S2000x64) ![0, 0] S2000x64.size inb_S2000x64_S2000x64_0_0
abbrev r1_1 : Rect S64x64 := Rect.unit (s := S64x64) ![0, 0] S64x64.size inb_S64x64_S64x64_0_0
abbrev r1_2 : Rect S64 := Rect.unit (s := S64) ![0] S64.size inb_S64_S64_0
abbrev r1_3 : Rect S2000x64 := Rect.unit (s := S2000x64) ![0, 0] S2000x64.size inb_S2000x64_S2000x64_0_0

/-- The output window's buffer after the body, from the input windows' blocks: its one store, of the whole buffer. -/
def out1_5 (x0 : Vec F S2000x64 .f32) (x1 : Vec F S2000x64 .f32) (x2 : Vec F S64x64 .f32) (x3 : Vec F S64 .f32) (x4 : Vec F S64x64 .f32) : Vec F S2000x64 .f32 :=
  View.canon [⟨r1_3, k1_pay1 (View.ld x0 r1_0) (View.ld x1 r1_0) (View.ld x2 r1_1) (View.ld x4 r1_1) (View.ld x3 r1_2)⟩]

/-- The store covers the buffer. -/
theorem cover1_5 (p0 : Vec F S2000x64 .f32) (y : S2000x64.Idx) :
    ∃ pc ∈ ([⟨r1_3, p0⟩] : List (View.Piece (Elt F) S2000x64 .f32)), y ∈ pc.1.set :=
  View.cover_of_tiled [⟨r1_3, p0⟩] S2000x64.size (by rfl) y

set_option maxHeartbeats 1000000 in
/-- The body on whole buffers, the inputs' at contents `xW` and the output's at anything, runs to the continuation
    holding the inputs' as they were and the output's at `out1_5` of them. -/
theorem sound_kernel1 (c : Dev nD) (E : Set ℕ) (i : grid1.Coords) (arg0 : Memref sig .tc .vmem S2000x64 .f32) (harg0 : arg0.IsWhole) (arg1 : Memref sig .tc .vmem S2000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S2000x64 .f32) (harg5 : arg5.IsWhole)
    (x0 : Vec F S2000x64 .f32) (x1 : Vec F S2000x64 .f32) (x2 : Vec F S64x64 .f32) (x3 : Vec F S64 .f32) (x4 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1_kernel i arg0 harg0 arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and the output's at `out1_5` of the blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Reg2Base.lean ====
/- Region 2 (per-graph pooling and the final linear layer), what its three cases share: the windows' blocks, the two
   branch conditions in closed form over the 50 grid points (the first holds at point 0 only, the second at point 49
   only), where the output window is idle, the memrefs the body is called with, and the region's invariant with the two
   scratch buffers named. -/
import proofs.«415661_j14705968022324_1_alg».proof.Proof.Gen.KernelIdeal.Launch
import proofs.«415661_j14705968022324_1_alg».proof.Proof.Gen.KernelIdeal.Skeleton
import proofs.«415661_j14705968022324_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The first branch's condition from the grid coordinate: "this is point 0" (the scratch is reset there). -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 50 = 0 :=
  (by decide +kernel : ∀ t : Fin grid2.N, cond2_0 (grid2.coords t) ↔ t.val % 50 = 0)

/-- The second branch's condition: "this is point 49" (the pooled output is computed and stored there). -/
abbrev cond2_1 (i : grid2.Coords) : Prop := k2_cond2 i = 1#1
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At point 0 and at the points between, the output window is idle (nothing is stored into it) and not written back. -/
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
/-- At point 49 it is live. -/
theorem liveAt2_4_C : ∀ t : Fin cfg2.N, ¬cond2_0 (grid2.coords t) → cond2_1 (grid2.coords t) → cfg2.idle 4 (grid2.coords t) = false := by decide +kernel

/-! ## The memrefs the body is called with -/

/-- One staging buffer of the output window, through which its contents are stated. -/
abbrev VO2_4 : View sig .tc .vmem S64x26 .f32 := (Memref.whole cc2_stg4_0 : Memref sig .tc .vmem S64x26 .f32).view
abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x26 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S26 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x26 .f32 := win2_4.stage (cfg2.slots t 4)
abbrev hs2_4 (t : Fin cfg2.N) : (ms2_4 t).IsWhole := hstage2_4 ((cfg2.slots t 4).cast nbuf2_4)
/-- The two scratch operands: the per-graph sums (64×64) and the per-graph counts (64×1), whole scoped buffers. -/
abbrev scM2_0 : Memref sig .tc .vmem S64x64 .f32 := Memref.whole cc2_scratch0
abbrev scM2_1 : Memref sig .tc .vmem S64x1 .f32 := Memref.whole cc2_scratch1
abbrev VS2_0 : View sig .tc .vmem S64x64 .f32 := scM2_0.view
abbrev VS2_1 : View sig .tc .vmem S64x1 .f32 := scM2_1.view

/-- The core's scoped buffers that no window of this region stages: the other regions' eighteen staging buffers, each at
    some contents, and the two scratch buffers at `P0`, `P1`. -/
def scr2 (c : Dev nD) (P0 P1 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ P0 ∗ P1)

/-- The class's invariant with the scratch operands as memrefs owned at some contents. -/
theorem PhiA2_eq (c : Dev nD) :
    (Pipeline.ΦA spec2 c : sProp 𝕄)
      = iprop(scr2 c iprop(∃ d, owns (c : Thread nD τ) scM2_0 fullShare d) iprop(∃ d, owns (c : Thread nD τ) scM2_1 fullShare d) ∗ (∃ r, prngReg c r)) := by
  unfold Pipeline.ΦA scr2; rw [scopedRest2_eq]; simp only [scM2_0, scM2_1, owns_whole]; try rfl

end Cert.KernelIdeal.Hand

end
-- ==== Proof.KernelIdeal.Reg2RunA.lean ====
/- Region 2's body at point 0 (first branch taken, second not): the scratch buffers, at anything, are reset and then accumulated into; the output window is left untouched. The pieces each buffer ends with are found by the run itself. -/
import proofs.«415661_j14705968022324_1_alg».proof.Proof.KernelIdeal.Reg2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at point 0 (first branch taken, second not): the scratch buffers, at anything, are reset and then accumulated into; the output window is left untouched: on whole buffers, the inputs' at their contents, it runs to the continuation holding the inputs'
    as they were and each buffer it stored into with its pieces written (last first). -/
noncomputable def kernelRun2_A (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i)
    (x0 : Vec F S2000x64 .f32) (x1 : Vec F S2000x1 .i32) (x2 : Vec F S64x26 .f32) (x3 : Vec F S26 .f32) :
    Σ' (L4 : List (View.Piece (Elt F) S64x26 .f32)) (LS0 : List (View.Piece (Elt F) S64x64 .f32)), { LS1 : List (View.Piece (Elt F) S64x1 .f32) //
      ∀ (xi4 : Vec F S64x26 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__pool_linear_kernel i arg1 harg1 arg2 harg2 arg3 harg3 arg4 harg4 arg5 harg5 arg6 harg6 arg7 harg7) K } := by
  refine ⟨[], ?_, ?_, fun xi4 E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KernelIdeal.Reg2RunB.lean ====
/- Region 2's body at the points between (neither branch taken): the scratch buffers, at what the point before left, are accumulated into; the output window is left untouched. The pieces each buffer ends with are found by the run itself. -/
import proofs.«415661_j14705968022324_1_alg».proof.Proof.KernelIdeal.Reg2RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at the points between (neither branch taken): the scratch buffers, at what the point before left, are accumulated into; the output window is left untouched: on whole buffers, the inputs' at their contents, it runs to the continuation holding the inputs'
    as they were and each buffer it stored into with its pieces written (last first). -/
noncomputable def kernelRun2_B (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i)
    (x0 : Vec F S2000x64 .f32) (x1 : Vec F S2000x1 .i32) (x2 : Vec F S64x26 .f32) (x3 : Vec F S26 .f32) (xs0 : Vec F S64x64 .f32) (xs1 : Vec F S64x1 .f32) :
    Σ' (L4 : List (View.Piece (Elt F) S64x26 .f32)) (LS0 : List (View.Piece (Elt F) S64x64 .f32)), { LS1 : List (View.Piece (Elt F) S64x1 .f32) //
      ∀ (xi4 : Vec F S64x26 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__pool_linear_kernel i arg1 harg1 arg2 harg2 arg3 harg3 arg4 harg4 arg5 harg5 arg6 harg6 arg7 harg7) K } := by
  refine ⟨[], ?_, ?_, fun xi4 E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KernelIdeal.Reg2RunC.lean ====
/- Region 2's body at point 49 (first branch not taken, second taken): the scratch buffers, at what the point before left, are accumulated into, then read to compute the pooled output, which is stored. The pieces each buffer ends with are found by the run itself. -/
import proofs.«415661_j14705968022324_1_alg».proof.Proof.KernelIdeal.Reg2RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at point 49 (first branch not taken, second taken): the scratch buffers, at what the point before left, are accumulated into, then read to compute the pooled output, which is stored: on whole buffers, the inputs' at their contents, it runs to the continuation holding the inputs'
    as they were and each buffer it stored into with its pieces written (last first). -/
noncomputable def kernelRun2_C (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) :
    Σ' (L4 : List (View.Piece (Elt F) S64x26 .f32)) (LS0 : List (View.Piece (Elt F) S64x64 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__pool_linear_kernel i arg1 harg1 arg2 harg2 arg3 harg3 arg4 harg4 arg5 harg5 arg6 harg6 arg7 harg7) K } := by
  refine ⟨?_, ?_, ?_, fun E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.KernelIdeal.Hand

end
-- ==== Proof.KernelIdeal.Reg2.lean ====
/- Region 2 (per-graph pooling and the final linear layer): what its buffers hold after each of the 50 grid points — the
   output window and the two scratch accumulators, point 0 resetting and accumulating, the points between accumulating
   over what the point before left, point 49 accumulating and then computing the output —, the region's invariant carrying
   the two accumulators from point to point, the pipeline's proof data and the body obligation. -/
import proofs.«415661_j14705968022324_1_alg».proof.Proof.KernelIdeal.Reg2RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In this case nothing is stored into the output window (it is idle and not written back): a placeholder nothing consults. -/
def out2_A_4 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i)
    (x0 : Vec F S2000x64 .f32) (x1 : Vec F S2000x1 .i32) (x2 : Vec F S64x26 .f32) (x3 : Vec F S26 .f32) : Vec F S64x26 .f32 :=
  VO2_4.read (Elt F) (VO2_4.writes (Elt F) VO2_4.junk (kernelRun2_A c i arg1 harg1 arg2 harg2 arg3 harg3 arg4 harg4 arg5 harg5 arg6 harg6 arg7 harg7 hc0 hc1 x0 x1 x2 x3).1)

/-- The case's stores into the sums' scratch cover it. -/
theorem scover2_A_0 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i)
    (x0 : Vec F S2000x64 .f32) (x1 : Vec F S2000x1 .i32) (x2 : Vec F S64x26 .f32) (x3 : Vec F S26 .f32) (y : S64x64.Idx) :
    ∃ pc ∈ (kernelRun2_A c i arg1 harg1 arg2 harg2 arg3 harg3 arg4 harg4 arg5 harg5 arg6 harg6 arg7 harg7 hc0 hc1 x0 x1 x2 x3).2.1, y ∈ pc.1.set :=
  View.cover_of_tiledL (kernelRun2_A c i arg1 harg1 arg2 harg2 arg3 harg3 arg4 harg4 arg5 harg5 arg6 harg6 arg7 harg7 hc0 hc1 x0 x1 x2 x3).2.1 S64x64.size (by sl_kernel_rfl) y

/-- What the case leaves in the sums' scratch. -/
def sout2_A_0 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i)
    (x0 : Vec F S2000x64 .f32) (x1 : Vec F S2000x1 .i32) (x2 : Vec F S64x26 .f32) (x3 : Vec F S26 .f32) : Vec F S64x64 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1 x2 x3).2.1)

/-- The case's stores into the counts' scratch cover it. -/
theorem scover2_A_1 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i)
    (x0 : Vec F S2000x64 .f32) (x1 : Vec F S2000x1 .i32) (x2 : Vec F S64x26 .f32) (x3 : Vec F S26 .f32) (y : S64x1.Idx) :
    ∃ pc ∈ (kernelRun2_A c i arg1 harg1 arg2 harg2 arg3 harg3 arg4 harg4 arg5 harg5 arg6 harg6 arg7 harg7 hc0 hc1 x0 x1 x2 x3).2.2.1, y ∈ pc.1.set :=
  View.cover_of_tiledL (kernelRun2_A c i arg1 harg1 arg2 harg2 arg3 harg3 arg4 harg4 arg5 harg5 arg6 harg6 arg7 harg7 hc0 hc1 x0 x1 x2 x3).2.2.1 S64x1.size (by sl_kernel_rfl) y

/-- What the case leaves in the counts' scratch. -/
def sout2_A_1 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i)
    (x0 : Vec F S2000x64 .f32) (x1 : Vec F S2000x1 .i32) (x2 : Vec F S64x26 .f32) (x3 : Vec F S26 .f32) : Vec F S64x1 .f32 :=
  VS2_1.read (Elt F) (VS2_1.writes (Elt F) VS2_1.junk (kernelRun2_A c i arg1 harg1 arg2 harg2 arg3 harg3 arg4 harg4 arg5 harg5 arg6 harg6 arg7 harg7 hc0 hc1 x0 x1 x2 x3).2.2.1)

/-- In this case nothing is stored into the output window (it is idle and not written back): a placeholder nothing consults. -/
def out2_B_4 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i)
    (x0 : Vec F S2000x64 .f32) (x1 : Vec F S2000x1 .i32) (x2 : Vec F S64x26 .f32) (x3 : Vec F S26 .f32) (xs0 : Vec F S64x64 .f32) (xs1 : Vec F S64x1 .f32) : Vec F S64x26 .f32 :=
  VO2_4.read (Elt F) (VO2_4.writes (Elt F) VO2_4.junk (kernelRun2_B c i arg1 harg1 arg2 harg2 arg3 harg3 arg4 harg4 arg5 harg5 arg6 harg6 arg7 harg7 hc0 hc1 x0 x1 x2 x3 xs0 xs1).1)

/-- The case's stores into the sums' scratch cover it. -/
theorem scover2_B_0 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i)
    (x0 : Vec F S2000x64 .f32) (x1 : Vec F S2000x1 .i32) (x2 : Vec F S64x26 .f32) (x3 : Vec F S26 .f32) (xs0 : Vec F S64x64 .f32) (xs1 : Vec F S64x1 .f32) (y : S64x64.Idx) :
    ∃ pc ∈ (kernelRun2_B c i arg1 harg1 arg2 harg2 arg3 harg3 arg4 harg4 arg5 harg5 arg6 harg6 arg7 harg7 hc0 hc1 x0 x1 x2 x3 xs0 xs1).2.1, y ∈ pc.1.set :=
  View.cover_of_tiledL (kernelRun2_B c i arg1 harg1 arg2 harg2 arg3 harg3 arg4 harg4 arg5 harg5 arg6 harg6 arg7 harg7 hc0 hc1 x0 x1 x2 x3 xs0 xs1).2.1 S64x64.size (by sl_kernel_rfl) y

/-- What the case leaves in the sums' scratch. -/
def sout2_B_0 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i)
    (x0 : Vec F S2000x64 .f32) (x1 : Vec F S2000x1 .i32) (x2 : Vec F S64x26 .f32) (x3 : Vec F S26 .f32) (xs0 : Vec F S64x64 .f32) (xs1 : Vec F S64x1 .f32) : Vec F S64x64 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 x2 x3 xs0 xs1).2.1)

/-- The case's stores into the counts' scratch cover it. -/
theorem scover2_B_1 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i)
    (x0 : Vec F S2000x64 .f32) (x1 : Vec F S2000x1 .i32) (x2 : Vec F S64x26 .f32) (x3 : Vec F S26 .f32) (xs0 : Vec F S64x64 .f32) (xs1 : Vec F S64x1 .f32) (y : S64x1.Idx) :
    ∃ pc ∈ (kernelRun2_B c i arg1 harg1 arg2 harg2 arg3 harg3 arg4 harg4 arg5 harg5 arg6 harg6 arg7 harg7 hc0 hc1 x0 x1 x2 x3 xs0 xs1).2.2.1, y ∈ pc.1.set :=
  View.cover_of_tiledL (kernelRun2_B c i arg1 harg1 arg2 harg2 arg3 harg3 arg4 harg4 arg5 harg5 arg6 harg6 arg7 harg7 hc0 hc1 x0 x1 x2 x3 xs0 xs1).2.2.1 S64x1.size (by sl_kernel_rfl) y

/-- What the case leaves in the counts' scratch. -/
def sout2_B_1 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i)
    (x0 : Vec F S2000x64 .f32) (x1 : Vec F S2000x1 .i32) (x2 : Vec F S64x26 .f32) (x3 : Vec F S26 .f32) (xs0 : Vec F S64x64 .f32) (xs1 : Vec F S64x1 .f32) : Vec F S64x1 .f32 :=
  VS2_1.read (Elt F) (VS2_1.writes (Elt F) VS2_1.junk (kernelRun2_B c i arg1 harg1 arg2 harg2 arg3 harg3 arg4 harg4 arg5 harg5 arg6 harg6 arg7 harg7 hc0 hc1 x0 x1 x2 x3 xs0 xs1).2.2.1)

/-- At point 49 the one store into the output window covers it. -/
theorem cover2_C_4 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) (y : S64x26.Idx) :
    ∃ pc ∈ (kernelRun2_C c i arg1 harg1 arg2 harg2 arg3 harg3 arg4 harg4 arg5 harg5 arg6 harg6 arg7 harg7 hc0 hc1 x0 x1 x2 x3 xs0 xs1).1, y ∈ pc.1.set :=
  View.cover_of_tiledL (kernelRun2_C c i arg1 harg1 arg2 harg2 arg3 harg3 arg4 harg4 arg5 harg5 arg6 harg6 arg7 harg7 hc0 hc1 x0 x1 x2 x3 xs0 xs1).1 S64x26.size (by sl_kernel_rfl) y

/-- What point 49 leaves in the output window's buffer. -/
def out2_C_4 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) : Vec F S64x26 .f32 :=
  VO2_4.read (Elt F) (VO2_4.writes (Elt F) VO2_4.junk (kernelRun2_C c i arg1 harg1 arg2 harg2 arg3 harg3 arg4 harg4 arg5 harg5 arg6 harg6 arg7 harg7 hc0 hc1 x0 x1 x2 x3 xs0 xs1).1)

/-- The case's stores into the sums' scratch cover it. -/
theorem scover2_C_0 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) (y : S64x64.Idx) :
    ∃ pc ∈ (kernelRun2_C c i arg1 harg1 arg2 harg2 arg3 harg3 arg4 harg4 arg5 harg5 arg6 harg6 arg7 harg7 hc0 hc1 x0 x1 x2 x3 xs0 xs1).2.1, y ∈ pc.1.set :=
  View.cover_of_tiledL (kernelRun2_C c i arg1 harg1 arg2 harg2 arg3 harg3 arg4 harg4 arg5 harg5 arg6 harg6 arg7 harg7 hc0 hc1 x0 x1 x2 x3 xs0 xs1).2.1 S64x64.size (by sl_kernel_rfl) y

/-- What the case leaves in the sums' scratch. -/
def sout2_C_0 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) : Vec F S64x64 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 x2 x3 xs0 xs1).2.1)

/-- The case's stores into the counts' scratch cover it. -/
theorem scover2_C_1 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) (y : S64x1.Idx) :
    ∃ pc ∈ (kernelRun2_C c i arg1 harg1 arg2 harg2 arg3 harg3 arg4 harg4 arg5 harg5 arg6 harg6 arg7 harg7 hc0 hc1 x0 x1 x2 x3 xs0 xs1).2.2.1, y ∈ pc.1.set :=
  View.cover_of_tiledL (kernelRun2_C c i arg1 harg1 arg2 harg2 arg3 harg3 arg4 harg4 arg5 harg5 arg6 harg6 arg7 harg7 hc0 hc1 x0 x1 x2 x3 xs0 xs1).2.2.1 S64x1.size (by sl_kernel_rfl) y

/-- What the case leaves in the counts' scratch. -/
def sout2_C_1 (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i)
    (x0 : Vec F S2000x64 .f32) (x1 : Vec F S2000x1 .i32) (x2 : Vec F S64x26 .f32) (x3 : Vec F S26 .f32) (xs0 : Vec F S64x64 .f32) (xs1 : Vec F S64x1 .f32) : Vec F S64x1 .f32 :=
  VS2_1.read (Elt F) (VS2_1.writes (Elt F) VS2_1.junk (kernelRun2_C c i arg1 harg1 arg2 harg2 arg3 harg3 arg4 harg4 arg5 harg5 arg6 harg6 arg7 harg7 hc0 hc1 x0 x1 x2 x3 xs0 xs1).2.2.1)

/-! ## What the buffers hold after each point -/

/-- THE ACCUMULATION: the output window's buffer, the sums' scratch and the counts' scratch after the body at position `n`. -/
def outsAt2 (c : Dev nD) : (n : ℕ) → n < cfg2.N → Vec F S64x26 .f32 × Vec F S64x64 .f32 × Vec F S64x1 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 50 = 0 then
      False.elim (by have hN : n + 1 < 50 := lt_of_lt_of_eq hn (show cfg2.N = 50 from N_2); omega)
    else
      if h1 : (n + 1) % 50 = 49 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2)

/-- At point 0: the first case's contents. -/
theorem outsAt2_A (c : Dev nD) (t : Fin cfg2.N) (h0 : t.val % 50 = 0) (h1 : ¬t.val % 50 = 49) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (by exfalso; (try dsimp only at h0); have hN : n + 1 < 50 := lt_of_lt_of_eq hn (show cfg2.N = 50 from N_2); omega)

/-- At a point between: the middle case's contents, over what the point before left. -/
theorem outsAt2_B (c : Dev nD) (t : Fin cfg2.N) (h0 : ¬t.val % 50 = 0) (h1 : ¬t.val % 50 = 49) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At point 49: the last case's contents, over what the point before left. -/
theorem outsAt2_C (c : Dev nD) (t : Fin cfg2.N) (h0 : ¬t.val % 50 = 0) (h1 : t.val % 50 = 49) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the two
    scratch accumulators at what the point before left in them, the rest at anything; the generator register at some state. -/
def PhiS2 (c : Dev nD) : (n : ℕ) → n ≤ cfg2.N → sProp 𝕄
  | 0, _ => Pipeline.ΦA spec2 c
  | n + 1, hn => iprop(scr2 c (owns (c : Thread nD τ) scM2_0 fullShare ((outsAt2 V c n hn).2.1)) (owns (c : Thread nD τ) scM2_1 fullShare ((outsAt2 V c n hn).2.2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(scr2 c (owns (c : Thread nD τ) scM2_0 fullShare ((outsAt2 V c n hn).2.1)) (owns (c : Thread nD τ) scM2_1 fullShare ((outsAt2 V c n hn).2.2)) ∗ (∃ r, prngReg c r)) := rfl

theorem PhiS2_pos (c : Dev nD) (n : ℕ) (h : n ≤ cfg2.N) (hz : n ≠ 0) :
    PhiS2 V c n h = iprop(scr2 c (owns (c : Thread nD τ) scM2_0 fullShare ((outsAt2 V c (n - 1) (by omega)).2.1)) (owns (c : Thread nD τ) scM2_1 fullShare ((outsAt2 V c (n - 1) (by omega)).2.2)) ∗ (∃ r, prngReg c r)) := by
  cases n with
  | zero => exact absurd rfl hz
  | succ n => rfl

/-! ## The pipeline's proof data -/

/-- The proof data of pipeline 2 on core `c`: the arrays as the region finds them; after the body at point `t` each input's
    buffer at its block and the output's at the accumulation's first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the closed forms say which case the point is in; the
    invariant hands the body the two accumulators at what the point before left (at anything at point 0) and takes them
    back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  by_cases h0 : t.val % 50 = 0
  · by_cases h1 : t.val % 50 = 49
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0 sout2_A_1; (try dsimp only)
      have hz : t.val = 0 := by omega
      rw [PhiS2_castSucc V c t, PhiS2_zero V c _ _ hz, PhiA2_eq]
      unfold scr2
      iintro ⟨⟨⟨R1, R2, R3, R4, R5, R6, R7, R8, R9, R10, R11, R12, R13, R14, R15, R16, R17, R18, HS0, HS1⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [R1 R2 R3 R4 R5 R6 R7 R8 R9 R10 R11 R12 R13 R14 R15 R16 R17 R18 HS0 HS1 Hg]
      · isplitl [R1 R2 R3 R4 R5 R6 R7 R8 R9 R10 R11 R12 R13 R14 R15 R16 R17 R18 HS0 HS1]
        ·
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [R15]; · iexact R15
          isplitl [R16]; · iexact R16
          isplitl [R17]; · iexact R17
          isplitl [R18]; · iexact R18
          isplitl [HS0]
          · unfold owns; iexists _; isplitr
            swap; · iexact HS0
            ipureintro; exact View.read_writes_of_cover _ _ _ _ _ (scover2_A_0 c _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · by_cases h1 : t.val % 50 = 49
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0 sout2_C_1; (try dsimp only)
      have hz : t.val ≠ 0 := by omega
      rw [PhiS2_castSucc V c t, PhiS2_pos V c _ _ hz]
      unfold scr2
      iintro ⟨⟨⟨R1, R2, R3, R4, R5, R6, R7, R8, R9, R10, R11, R12, R13, R14, R15, R16, R17, R18, HS0, HS1⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [R1 R2 R3 R4 R5 R6 R7 R8 R9 R10 R11 R12 R13 R14 R15 R16 R17 R18 HS0 HS1 Hg]
      · isplitl [R1 R2 R3 R4 R5 R6 R7 R8 R9 R10 R11 R12 R13 R14 R15 R16 R17 R18 HS0 HS1]
        ·
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [R15]; · iexact R15
          isplitl [R16]; · iexact R16
          isplitl [R17]; · iexact R17
          isplitl [R18]; · iexact R18
          isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _)
          unfold owns; iexists _; isplitr
          swap; · iexact HS1
          ipureintro; exact View.read_writes_of_cover _ _ _ _ _ (scover2_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0 sout2_B_1; (try dsimp only)
      have hz : t.val ≠ 0 := by omega
      rw [PhiS2_castSucc V c t, PhiS2_pos V c _ _ hz]
      unfold scr2
      iintro ⟨⟨⟨R1, R2, R3, R4, R5, R6, R7, R8, R9, R10, R11, R12, R13, R14, R15, R16, R17, R18, HS0, HS1⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [R1 R2 R3 R4 R5 R6 R7 R8 R9 R10 R11 R12 R13 R14 R15 R16 R17 R18 HS0 HS1 Hg]
      · isplitl [R1 R2 R3 R4 R5 R6 R7 R8 R9 R10 R11 R12 R13 R14 R15 R16 R17 R18 HS0 HS1]
        ·
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [R15]; · iexact R15
          isplitl [R16]; · iexact R16
          isplitl [R17]; · iexact R17
          isplitl [R18]; · iexact R18
          isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _)
          unfold owns; iexists _; isplitr
          swap; · iexact HS1
          ipureintro; exact View.read_writes_of_cover _ _ _ _ _ (scover2_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- After any point but the first the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold scr2
  iintro ⟨⟨R1, R2, R3, R4, R5, R6, R7, R8, R9, R10, R11, R12, R13, R14, R15, R16, R17, R18, HS0, HS1⟩, Hg⟩
  isplitl [R1 R2 R3 R4 R5 R6 R7 R8 R9 R10 R11 R12 R13 R14 R15 R16 R17 R18 HS0 HS1]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [HS0]; · iexists _; iexact HS0
    iexists _; iexact HS1
  iexact Hg

/-- The same after the last point. -/
theorem hout2 (c : Dev nD) : (dat2 V c).Φ (Fin.last cfg2.N) ⊢ Pipeline.ΦA spec2 c :=
  Phi_out2 V c _ (by rw [Fin.val_last]; have : cfg2.N = 50 := N_2; omega)

end Cert.KernelIdeal.Hand

end
-- ==== Proof.KernelIdeal.Run.lean ====
/- The run of the kernel's program from the launch to the return, as six segments: three stretches of host operations
   and three pallas regions. The contents of every unscoped buffer at each boundary are a fold from the launch memory (a
   stretch applies its operations; a region replaces its output array by what its write-backs leave); at the end every
   unscoped buffer is read against the last boundary's contents. -/
import proofs.«415661_j14705968022324_1_alg».proof.Proof.KernelIdeal.Reg0
import proofs.«415661_j14705968022324_1_alg».proof.Proof.KernelIdeal.Reg1
import proofs.«415661_j14705968022324_1_alg».proof.Proof.KernelIdeal.Reg2
import proofs.«415661_j14705968022324_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the host operations `hostOps0` (region 0's entry). -/
abbrev W1 : Dev nD → Valuation τ sig (Elt F) := fun c => StableHlo.after hostOps0 (W0 m ρ c)
/-- The same read at the TensorCore's references. -/
abbrev Vr1 : (c : Dev nD) → (b : Ref sig .tc) → Buf (Elt F) ((c : Thread nD τ).loc b) := fun c b => W1 m ρ c b
/-- At region 0's exit: its arrays at what the pipeline leaves (the inputs as entered, the output's write-backs folded), every
    other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (Vr1 m ρ) c).arrAt_in w hw _).trans (A_eq0 (Vr1 m ρ) c w))
abbrev Vx2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vx2 m ρ c (Pipeline.arrRef spec0 w) :=
  (W2_arr m ρ c w).symm
theorem hrest0 (c : Dev nD) : ∀ b, b ∉ Finset.univ.image (Pipeline.arrRef spec0) → Vx2 m ρ c b = Vr1 m ρ c b :=
  fun b hb => W2_of_ne m ρ c b fun w e => hb (Finset.mem_image.mpr ⟨w, Finset.mem_univ _, e⟩)

/-- After the host operations `hostOps1` (region 1's entry). -/
abbrev W3 : Dev nD → Valuation τ sig (Elt F) := fun c => StableHlo.after hostOps1 (W2 m ρ c)
/-- The same read at the TensorCore's references. -/
abbrev Vr3 : (c : Dev nD) → (b : Ref sig .tc) → Buf (Elt F) ((c : Thread nD τ).loc b) := fun c b => W3 m ρ c b
/-- At region 1's exit: its arrays at what the pipeline leaves (the inputs as entered, the output's write-backs folded), every
    other buffer as entered. -/
def W4 (c : Dev nD) : Valuation τ sig (Elt F) :=
  Pipeline.withArrays spec1 c (W3 m ρ c) fun w => (dat1 (Vr3 m ρ) c).arrAt w cfg1.N
theorem W4_arr (c : Dev nD) (w : Fin cfg1.W) :
    W4 m ρ c (Proc.devRef .tc (Pipeline.arrRef spec1 w)) = (dat1 (Vr3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (Vr3 m ρ) c).arrAt_in w hw _).trans (A_eq1 (Vr3 m ρ) c w))
abbrev Vx4 : (c : Dev nD) → (b : Ref sig .tc) → Buf (Elt F) ((c : Thread nD τ).loc b) := fun c b => W4 m ρ c b
theorem hF1 (c : Dev nD) (w : Fin cfg1.W) : (dat1 (Vr3 m ρ) c).arrAt w cfg1.N = Vx4 m ρ c (Pipeline.arrRef spec1 w) :=
  (W4_arr m ρ c w).symm
theorem hrest1 (c : Dev nD) : ∀ b, b ∉ Finset.univ.image (Pipeline.arrRef spec1) → Vx4 m ρ c b = Vr3 m ρ c b :=
  fun b hb => W4_of_ne m ρ c b fun w e => hb (Finset.mem_image.mpr ⟨w, Finset.mem_univ _, e⟩)

/-- After the host operations `hostOps2` (region 2's entry). -/
abbrev W5 : Dev nD → Valuation τ sig (Elt F) := fun c => StableHlo.after hostOps2 (W4 m ρ c)
/-- The same read at the TensorCore's references. -/
abbrev Vr5 : (c : Dev nD) → (b : Ref sig .tc) → Buf (Elt F) ((c : Thread nD τ).loc b) := fun c b => W5 m ρ c b
/-- At region 2's exit: its arrays at what the pipeline leaves (the inputs as entered, the output's write-backs folded), every
    other buffer as entered. -/
def W6 (c : Dev nD) : Valuation τ sig (Elt F) :=
  Pipeline.withArrays spec2 c (W5 m ρ c) fun w => (dat2 (Vr5 m ρ) c).arrAt w cfg2.N
theorem W6_arr (c : Dev nD) (w : Fin cfg2.W) :
    W6 m ρ c (Proc.devRef .tc (Pipeline.arrRef spec2 w)) = (dat2 (Vr5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (Vr5 m ρ) c).arrAt_in w hw _).trans (A_eq2 (Vr5 m ρ) c w))
abbrev Vx6 : (c : Dev nD) → (b : Ref sig .tc) → Buf (Elt F) ((c : Thread nD τ).loc b) := fun c b => W6 m ρ c b
theorem hF2 (c : Dev nD) (w : Fin cfg2.W) : (dat2 (Vr5 m ρ) c).arrAt w cfg2.N = Vx6 m ρ c (Pipeline.arrRef spec2 w) :=
  (W6_arr m ρ c w).symm
theorem hrest2 (c : Dev nD) : ∀ b, b ∉ Finset.univ.image (Pipeline.arrRef spec2) → Vx6 m ρ c b = Vr5 m ρ c b :=
  fun b hb => W6_of_ne m ρ c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr3 m ρ) c
  | ⟨2, _⟩ => fun c => dat2 (Vr5 m ρ) c
/-- No core owes another anything: no level is assigned. -/
abbrev Lz : GSem nD τ sig → Finset Unit := fun _ => ∅
abbrev lvz : GSem nD τ sig → Unit → ℕ := fun _ _ => 0
/-- What rides beside the buffers through every segment: the generator register at some state and the core's dues, at nothing. -/
abbrev Rest (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tend (c : Dev nD) : sProp 𝕄 := iprop(StableHlo.held (c : Thread nD τ) (Pipeline.ucRefs τ sig) (W6 m ρ c) ∗ ∃ r, prngReg c r)

/-! ## The regions as segments -/

-- a library lemma stated over the pinned configuration unifies with the printed one only when unification may unfold plain
-- definitions in a metavariable's type
set_option backward.isDefEq.respectTransparency.types false in
/-- REGION 0 over the thread state: entered from every unscoped buffer at `W1`, left at `W2`. Its arrays are split out
    of the unscoped buffers and put back at the exit contents; the generator register goes into the region's invariant and
    comes back; nothing is owed; the kernel has no semaphore of its own. -/
def reg0 : Pipeline.RegionSeg (pcfgs (F := F)) adm (pdats m ρ) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ Lz lvz 0 fun _ _ => rfl
  pre c := iprop(StableHlo.held (c : Thread nD τ) (Pipeline.ucRefs τ sig) (W1 m ρ c) ∗ Rest c)
  post c := iprop(StableHlo.held (c : Thread nD τ) (Pipeline.ucRefs τ sig) (W2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vx2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 1 over the thread state: entered from every unscoped buffer at `W3`, left at `W4`. Its arrays are split out
    of the unscoped buffers and put back at the exit contents; the generator register goes into the region's invariant and
    comes back; nothing is owed; the kernel has no semaphore of its own. -/
def reg1 : Pipeline.RegionSeg (pcfgs (F := F)) adm (pdats m ρ) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vr3 m ρ) c).loose
  hwaits := Pipeline.hwaits_of_owed_zero _ _ _ _ Lz lvz 1 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (Vr3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr3 m ρ c) (Vx4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 2 over the thread state: entered from every unscoped buffer at `W5`, left at `W6`. Its arrays are split out
    of the unscoped buffers and put back at the exit contents; the generator register goes into the region's invariant and
    comes back; nothing is owed; the kernel has no semaphore of its own. -/
def reg2 : Pipeline.RegionSeg (pcfgs (F := F)) adm (pdats m ρ) () defs₀ Variants.none Lz lvz 2 where
  win := launch2.win.to₀
  block_pos := launch2.block_pos
  stage_whole := launch2.stage_whole
  K := PEmpty
  osem k := k.elim
  ho := Pipeline.OwnSemFacts.none _
  hbody c := (body_obligation2 (Vr5 m ρ) c).loose
  hwaits := Pipeline.hwaits_of_owed_zero _ _ _ _ Lz lvz 2 fun _ _ => rfl
  pre c := iprop(StableHlo.held (c : Thread nD τ) (Pipeline.ucRefs τ sig) (W5 m ρ c) ∗ Rest c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (Vr5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr5 m ρ c) (Vx6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs : List (Pipeline.Seg (pcfgs (F := F)) adm (pdats m ρ) () defs₀ Variants.none Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (mainSegs m ρ) := (main_chain c).trans (by chain_rfl)

set_option backward.isDefEq.respectTransparency.types false in
/-- THE RUN. From any memory with zero counters every weakly fair execution of @main terminates, nothing faulting, and every
    final state holds every unscoped buffer of every core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ Variants.none Lz lvz m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tend m ρ)
    (hch := ⟨fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KernelIdeal.Fold.lean ====
/- The fold of the buffers' contents read back: each argument array ends as launched (the frame claim), the result
   buffer ends at what the last region's write-backs leave, and each buffer a later segment reads is what the earlier
   segment left there. -/
import proofs.«415661_j14705968022324_1_alg».proof.Proof.KernelIdeal.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each stretch of host operations leaves alone -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! ## The arguments end as launched -/

/-- `main_arg0` reaches the end as launched: no stretch writes it; a region reads it through an input window or not at all. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_in m ρ c 1 rfl
    _ = W0 m ρ c (Proc.devRef .tc main_arg0) := W1_of m ρ c main_arg0 (by decide)
    _ = m ((c : Thread nD τ).loc main_arg0) := rfl

/-- `main_arg1` reaches the end as launched: no stretch writes it; a region reads it through an input window or not at all. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- `main_arg2` reaches the end as launched: no stretch writes it; a region reads it through an input window or not at all. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- `main_arg3` reaches the end as launched: no stretch writes it; a region reads it through an input window or not at all. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_in m ρ c 2 rfl
    _ = W0 m ρ c (Proc.devRef .tc main_arg3) := W1_of m ρ c main_arg3 (by decide)
    _ = m ((c : Thread nD τ).loc main_arg3) := rfl

/-- `main_arg4` reaches the end as launched: no stretch writes it; a region reads it through an input window or not at all. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_in m ρ c 3 rfl
    _ = W0 m ρ c (Proc.devRef .tc main_arg4) := W1_of m ρ c main_arg4 (by decide)
    _ = m ((c : Thread nD τ).loc main_arg4) := rfl

/-- `main_arg5` reaches the end as launched: no stretch writes it; a region reads it through an input window or not at all. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_in m ρ c 4 rfl
    _ = W0 m ρ c (Proc.devRef .tc main_arg5) := W1_of m ρ c main_arg5 (by decide)
    _ = m ((c : Thread nD τ).loc main_arg5) := rfl

/-- `main_arg6` reaches the end as launched: no stretch writes it; a region reads it through an input window or not at all. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_in m ρ c 2 rfl
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- `main_arg7` reaches the end as launched: no stretch writes it; a region reads it through an input window or not at all. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_in m ρ c 3 rfl
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- `main_arg8` reaches the end as launched: no stretch writes it; a region reads it through an input window or not at all. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_in m ρ c 4 rfl
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- `main_arg9` reaches the end as launched: no stretch writes it; a region reads it through an input window or not at all. -/
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_in m ρ c 2 rfl
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

/-- `main_arg10` reaches the end as launched: no stretch writes it; a region reads it through an input window or not at all. -/
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_in m ρ c 3 rfl
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-- THE FRAME at any float instance: every weakly fair execution of @main terminates, nothing faulting, and every final
    state has the eleven argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c)⟩) (run_all m ρ)

/-! ## What the segments hand each other -/

/-- The result buffer ends at what region 2's write-backs leave. -/
theorem W6_out (c : Dev nD) : W6 m ρ c (Proc.devRef .tc main_v41) = (dat2 (Vr5 m ρ) c).arrAt 4 cfg2.N := W6_arr m ρ c 4
/-- Region 2 finds region 1's output as region 1 left it. -/
theorem Vr5_v39 (c : Dev nD) : Vr5 m ρ c main_v39 = (dat1 (Vr3 m ρ) c).arrAt 5 cfg1.N :=
  (W5_of m ρ c main_v39 (by decide)).trans (W4_arr m ρ c 5)
/-- Regions 1 and the second stretch find region 0's output as region 0 left it. -/
theorem W2_v25 (c : Dev nD) : W2 m ρ c (Proc.devRef .tc main_v25) = (dat0 (Vr1 m ρ) c).arrAt 5 cfg0.N := W2_arr m ρ c 5
theorem Vr3_v25 (c : Dev nD) : Vr3 m ρ c main_v25 = (dat0 (Vr1 m ρ) c).arrAt 5 cfg0.N :=
  (W3_of m ρ c main_v25 (by decide)).trans (W2_v25 m ρ c)
/-- A buffer the first stretch wrote and no region touches is still there for the second stretch. -/
theorem W2_keep (c : Dev nD) (r : Ref sig .tc) (h : ∀ w, Pipeline.arrRef spec0 w ≠ r) :
    W2 m ρ c (Proc.devRef .tc r) = W1 m ρ c (Proc.devRef .tc r) := W2_of_ne m ρ c r h
/-- The weights and biases as each region finds them are the launch contents. -/
theorem Vr1_arg (c : Dev nD) (r : Ref sig .tc) (h : r ∉ hostOps0_W) : Vr1 m ρ c r = m ((c : Thread nD τ).loc r) :=
  (W1_of m ρ c r h).trans rfl
theorem Vr3_arg (c : Dev nD) (r : Ref sig .tc) (h1 : r ∉ hostOps1_W) (h2 : ∀ w, Pipeline.arrRef spec0 w ≠ r) (h0 : r ∉ hostOps0_W) :
    Vr3 m ρ c r = m ((c : Thread nD τ).loc r) :=
  (W3_of m ρ c r h1).trans ((W2_of_ne m ρ c r h2).trans ((W1_of m ρ c r h0).trans rfl))
theorem Vr5_arg (c : Dev nD) (r : Ref sig .tc) (h5 : r ∉ hostOps2_W) (h4 : ∀ w, Pipeline.arrRef spec1 w ≠ r) (h1 : r ∉ hostOps1_W)
    (h2 : ∀ w, Pipeline.arrRef spec0 w ≠ r) (h0 : r ∉ hostOps0_W) : Vr5 m ρ c r = m ((c : Thread nD τ).loc r) :=
  (W5_of m ρ c r h5).trans ((W4_of_ne m ρ c r h4).trans ((W3_of m ρ c r h1).trans ((W2_of_ne m ρ c r h2).trans ((W1_of m ρ c r h0).trans rfl))))

end Cert.KernelIdeal.Hand

end
-- ==== Proof.Spec.lean ====
/- The mathematics of the two programs, index by index over the extended reals, with no program in sight:
   one dense layer of the network, the two spellings of the neighbourhood mean (times a reciprocal; divided by),
   and the pooled output (per graph: the sum of its nodes' rows over the clamped node count, times a matrix, plus a
   bias), with the per-graph sums written as sums over all nodes of a guarded term. -/
import proofs.«415661_j14705968022324_1_alg».proof.KernelIdeal
import Idealize.ShloMosaic.Lib.ValueIdx
import Idealize.ShloMosaic.PureOps.Ideal.Laws

noncomputable section

namespace Cert.Sage

open Idealize.ShloMosaic Idealize.ShloMosaic.ValueIdx

/-- A matrix of extended reals with `a` rows and `b` columns. -/
abbrev Mat (a b : Nat) : Type := (⟨2, ![a, b]⟩ : Shape).Idx → EReal
/-- A vector of extended reals of length `a`. -/
abbrev Vc (a : Nat) : Type := (⟨1, ![a]⟩ : Shape).Idx → EReal

/-- The neighbourhood mean as the kernel's program spells it: the neighbour sum times the reciprocal `1 / max(deg, 1)`. -/
def meanMul {n : Nat} (s : Mat 100000 n) (deg : Vc 100000) : Mat 100000 n :=
  fun i => s i * Ideal.div 1 (max (deg (ix1 (i 0))) 1)

/-- The same as the reference spells it: the neighbour sum divided by `max(deg, 1)`. -/
def meanDiv {n : Nat} (s : Mat 100000 n) (deg : Vc 100000) : Mat 100000 n :=
  fun i => Ideal.div (s i) (max (deg (ix1 (i 0))) 1)

/-- `max(d, 1)` is never zero, so dividing by it is multiplying by its inverse, and `1 / max(d,1)` IS that inverse:
    the two spellings agree at every extended real, the infinities included. -/
theorem meanMul_eq_meanDiv {n : Nat} (s : Mat 100000 n) (deg : Vc 100000) : meanMul s deg = meanDiv s deg := by
  funext i
  have hne : max (deg (ix1 (i 0))) 1 ≠ 0 := ne_of_gt (lt_of_lt_of_le zero_lt_one (le_max_right _ _))
  simp only [meanMul, meanDiv, Ideal.div, if_neg hne, one_mul]

/-- One dense layer at a node `i 0` and an output feature `i 1`: the mean's row times `Wl`, plus the node's own row
    times `Wr`, plus the bias; clamped at zero from below when `relu`. -/
def dense {n : Nat} (relu : Bool) (mean x : Mat 100000 n) (Wl : Mat n 64) (b : Vc 64) (Wr : Mat n 64) : Mat 100000 64 :=
  fun i =>
    let v := ((∑ k : Fin n, mean (ix2 (i 0) k) * Wl (ix2 k (i 1))) + (∑ k : Fin n, x (ix2 (i 0) k) * Wr (ix2 k (i 1)))) + b (ix1 (i 1))
    if relu then max v 0 else v

/-- The sum of the rows of `h` over the nodes whose graph id is `g`, at feature `l`: a sum over ALL nodes of a guarded term. -/
def segSum (h : Mat 100000 64) (bid : Fin 100000 → BitVec 32) (g l : Fin 64) : EReal :=
  ∑ r : Fin 100000, if (bid r).toInt = (g.val : Int) then h (ix2 r l) else 0

/-- The number of nodes whose graph id is `g`. -/
def segCnt (bid : Fin 100000 → BitVec 32) (g : Fin 64) : EReal :=
  ∑ r : Fin 100000, if (bid r).toInt = (g.val : Int) then (1 : EReal) else 0

/-- The pooled output at graph `i 0` and output feature `i 1`, from per-graph sums `S` and counts `C`. -/
def poolOut (S : Fin 64 → Fin 64 → EReal) (C : Fin 64 → EReal) (Wlin : Mat 64 26) (blin : Vc 26) : Mat 64 26 :=
  fun i => (∑ l : Fin 64, Ideal.div (S (i 0) l) (max (C (i 0)) 1) * Wlin (ix2 l (i 1))) + blin (ix1 (i 1))

end Cert.Sage

end
-- ==== Proof.KernelIdeal.Val0.lean ====
/- The value of region 0, the first dense layer's kernel: what its body stores at a row and a feature (two products
   into zero accumulators, the bias row, the clamp at zero from below), each input block as rows of its array, and the
   50 row blocks of 2000 put together into the whole output array: the dense layer of the specification. -/
import proofs.«415661_j14705968022324_1_alg».proof.Proof.KernelIdeal.Reg0
import proofs.«415661_j14705968022324_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The body's arithmetic at a row and a feature -/

/-- The left operand's row is the output's row, -/
theorem lhs_dot0_0 (i : S2000x64.Idx) (q : dot_S2000x26_S26x64_S2000x64_1_0_0_1_n_n.contr.Idx) :
    (dot_S2000x26_S26x64_S2000x64_1_0_0_1_n_n.lhsIdx i q 0).val = (i 0).val := by
  unfold DotDims.lhsIdx
  rw [dif_neg (show ¬(0 : Fin S2000x26.rank) ∈ dot_S2000x26_S26x64_S2000x64_1_0_0_1_n_n.lhsBatch by decide), dif_pos (show (0 : Fin S2000x26.rank) ∈ dot_S2000x26_S26x64_S2000x64_1_0_0_1_n_n.lhsNonContracting by decide)]
  rfl
/-- its column the contracted index; -/
theorem lhs_dot0_1 (i : S2000x64.Idx) (q : dot_S2000x26_S26x64_S2000x64_1_0_0_1_n_n.contr.Idx) :
    (dot_S2000x26_S26x64_S2000x64_1_0_0_1_n_n.lhsIdx i q 1).val = (q ⟨0, by decide⟩).val :=
  dot_S2000x26_S26x64_S2000x64_1_0_0_1_n_n.lhsIdx_val_of_single rfl i q
/-- the right operand's row is the contracted index, -/
theorem rhs_dot0_0 (i : S2000x64.Idx) (q : dot_S2000x26_S26x64_S2000x64_1_0_0_1_n_n.contr.Idx) :
    (dot_S2000x26_S26x64_S2000x64_1_0_0_1_n_n.rhsIdx i q 0).val = (q ⟨0, by decide⟩).val :=
  dot_S2000x26_S26x64_S2000x64_1_0_0_1_n_n.rhsIdx_val_of_single rfl i q
/-- its column the output's column. -/
theorem rhs_dot0_1 (i : S2000x64.Idx) (q : dot_S2000x26_S26x64_S2000x64_1_0_0_1_n_n.contr.Idx) :
    (dot_S2000x26_S26x64_S2000x64_1_0_0_1_n_n.rhsIdx i q 1).val = (i 1).val := by
  unfold DotDims.rhsIdx
  rw [dif_neg (show ¬(1 : Fin S26x64.rank) ∈ dot_S2000x26_S26x64_S2000x64_1_0_0_1_n_n.rhsBatch by decide), dif_pos (show (1 : Fin S26x64.rank) ∈ dot_S2000x26_S26x64_S2000x64_1_0_0_1_n_n.rhsNonContracting by decide)]
  rfl

/-- A block of 2000 rows times a 26×64 matrix, into a zero accumulator, at row `p` and feature `q`: the sum over the
    26 input features of the products. -/
theorem mm0_apply (l : FVec Ideal S2000x26 .bf16) (r : FVec Ideal S26x64 .bf16) (p : Fin 2000) (q : Fin 64) :
    matmul dot_S2000x26_S26x64_S2000x64_1_0_0_1_n_n none l r (constant (F := Ideal) S2000x64 .f32 0x00000000#32) (ix2 p q)
      = ∑ k : Fin 26, l (ix2 p k) * r (ix2 k q) := by
  simp only [matmul]
  rw [Ideal.matmul_constant_zero_apply, ← Equiv.sum_comp (contrEquiv1 dot_S2000x26_S26x64_S2000x64_1_0_0_1_n_n 26 rfl rfl).symm]
  refine Finset.sum_congr rfl fun k _ => ?_
  have hk := contrEquiv1_symm_val dot_S2000x26_S26x64_S2000x64_1_0_0_1_n_n 26 rfl rfl k
  have el : dot_S2000x26_S26x64_S2000x64_1_0_0_1_n_n.lhsIdx (ix2 p q) ((contrEquiv1 dot_S2000x26_S26x64_S2000x64_1_0_0_1_n_n 26 rfl rfl).symm k) = ix2 p k := funext fun a => Fin.ext (by
    match a with
    | ⟨0, _⟩ => exact lhs_dot0_0 _ _
    | ⟨1, _⟩ => exact (lhs_dot0_1 _ _).trans hk)
  have er : dot_S2000x26_S26x64_S2000x64_1_0_0_1_n_n.rhsIdx (ix2 p q) ((contrEquiv1 dot_S2000x26_S26x64_S2000x64_1_0_0_1_n_n 26 rfl rfl).symm k) = ix2 k q := funext fun a => Fin.ext (by
    match a with
    | ⟨0, _⟩ => exact (rhs_dot0_0 _ _).trans hk
    | ⟨1, _⟩ => exact rhs_dot0_1 _ _)
  rw [el, er]

/-- The bias vector, viewed as one row and repeated down the 2000 rows, at row `p` and feature `q`: the bias at `q`. -/
theorem bias0_apply (b : Vec Ideal S64 .f32) (p : Fin 2000) (q : Fin 64) :
    broadcastTo S2000x64 (shapeCast S1x64 (shapeCast S1x64 b shapeCasts_S64_S1x64) shapeCasts_S1x64_S1x64) broadcasts_S1x64_S2000x64 (ix2 p q)
      = b (ix1 q) := by
  rw [shapeCast_self]
  exact (broadcastTo_1b_ab_apply _ broadcasts_S1x64_S2000x64 p q).trans (shapeCast_a_1a_apply b shapeCasts_S64_S1x64 0 q)

/-- What the body stores, at row `p` of the block and feature `q`: the first block's row times the first matrix, plus the
    second block's row times the second, plus the bias, clamped at zero from below. -/
theorem pay0_apply (x0 x1 : Vec Ideal S2000x26 .f32) (w0 w1 : Vec Ideal S26x64 .f32) (b : Vec Ideal S64 .f32) (p : Fin 2000) (q : Fin 64) :
    k0_pay1 (F := Ideal) x0 x1 w0 w1 b (ix2 p q)
      = max (((∑ k : Fin 26, x0 (ix2 p k) * w0 (ix2 k q)) + (∑ k : Fin 26, x1 (ix2 p k) * w1 (ix2 k q))) + b (ix1 q)) 0 := by
  unfold k0_pay1
  refine (maximumf_apply _ _ _).trans ?_
  refine congrArg₂ max ?_ ?_
  · refine (addf_apply _ _ _).trans ?_
    refine congrArg₂ (· + ·) ?_ (bias0_apply b p q)
    refine (addf_apply _ _ _).trans ?_
    refine congrArg₂ (· + ·) ?_ ?_
    · rw [shapeCast_self]
      exact mm0_apply _ _ p q
    · exact mm0_apply _ _ p q
  · exact Ideal.ofBits_zero_f32

/-! ## What the one store leaves at a row and a feature -/

theorem hz0_2 : (![0, 0] : Fin 2 → Nat) = fun _ => 0 := funext fun a => by fin_cases a <;> rfl
theorem hz0_1 : (![0] : Fin 1 → Nat) = fun _ => 0 := funext fun a => by fin_cases a <;> rfl

/-- The output window's buffer after the body, at row `p` and feature `q`, from the five input blocks. -/
theorem out0_5_apply (x0 x1 : Vec Ideal S2000x26 .f32) (x2 : Vec Ideal S26x64 .f32) (x3 : Vec Ideal S64 .f32) (x4 : Vec Ideal S26x64 .f32)
    (p : Fin 2000) (q : Fin 64) :
    out0_5 (F := Ideal) x0 x1 x2 x3 x4 (ix2 p q)
      = max (((∑ k : Fin 26, x0 (ix2 p k) * x2 (ix2 k q)) + (∑ k : Fin 26, x1 (ix2 p k) * x4 (ix2 k q))) + x3 (ix1 q)) 0 := by
  unfold out0_5
  rw [View.canon_unit_zero hz0_2]
  simp only [View.ld_unit_zero (S := S2000x26) hz0_2, View.ld_unit_zero (S := S26x64) hz0_2, View.ld_unit_zero (S := S64) hz0_1]
  exact pay0_apply x0 x1 x2 x4 x3 p q

/-- When the two row blocks hold row `r` of their arrays at their row `p` and the three small blocks are their
    arrays, the store leaves the dense layer of the arrays at node `r` and feature `q`. -/
theorem point0 (A0 A1 : Cert.Sage.Mat 100000 26) (W0 : Cert.Sage.Mat 26 64) (B : Cert.Sage.Vc 64) (W1 : Cert.Sage.Mat 26 64)
    (x0 x1 : Vec Ideal S2000x26 .f32) (x2 : Vec Ideal S26x64 .f32) (x3 : Vec Ideal S64 .f32) (x4 : Vec Ideal S26x64 .f32)
    (p : Fin 2000) (q : Fin 64) (r : Fin 100000)
    (h0 : ∀ k : Fin 26, x0 (ix2 p k) = A0 (ix2 r k)) (h1 : ∀ k : Fin 26, x1 (ix2 p k) = A1 (ix2 r k))
    (h2 : x2 = W0) (h3 : x3 = B) (h4 : x4 = W1) :
    out0_5 (F := Ideal) x0 x1 x2 x3 x4 (ix2 p q) = Cert.Sage.dense (n := 26) true A0 A1 W0 B W1 (ix2 r q) := by
  refine (out0_5_apply x0 x1 x2 x3 x4 p q).trans ?_
  subst h2 h3 h4
  unfold Cert.Sage.dense
  dsimp only
  rw [if_pos rfl]
  simp only [h0, h1]

/-! ## Each input block as rows of its array -/

variable (V : (c : Dev nD) → (b : Ref sig .tc) → Buf (Elt Ideal) ((c : Thread nD τ).loc b))

/-- The index maps over the 50 points: the two row-blocked inputs and the output are at block row `t`, the three small
    inputs at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the first input's block at point `t` is row `r = 2000·t + p` of the neighbourhood means. -/
theorem iblk0_0_apply (c : Dev nD) (t : Fin cfg0.N) (p : Fin 2000) (k : Fin 26) (r : Fin 100000) (hr : r.val = 2000 * t.val + p.val) :
    (iblk0 (F := Ideal) V c 0 t : Vec Ideal S2000x26 .f32) (ix2 p k) = (V c main_v24 : Cert.Sage.Mat 100000 26) (ix2 r k) := by
  obtain ⟨e0, e1, -⟩ := idx_facts0 t
  unfold iblk0
  rw [View.read_apply]
  show V c main_v24 (((cfg0.win 0).blk t).view.emb (ix2 p k)) = V c main_v24 (ix2 r k)
  congr 1
  funext a; apply Fin.ext
  match a with
  | ⟨0, _⟩ => show win0_0.index t (0 : Fin 2) * 2000 + 1 * p.val = r.val; rw [e0, hr]; omega
  | ⟨1, _⟩ => show win0_0.index t (1 : Fin 2) * 26 + 1 * k.val = k.val; rw [e1]; omega

/-- Row `p` of the second input's block at point `t` is row `r = 2000·t + p` of the node features. -/
theorem iblk0_1_apply (c : Dev nD) (t : Fin cfg0.N) (p : Fin 2000) (k : Fin 26) (r : Fin 100000) (hr : r.val = 2000 * t.val + p.val) :
    (iblk0 (F := Ideal) V c 1 t : Vec Ideal S2000x26 .f32) (ix2 p k) = (V c main_arg0 : Cert.Sage.Mat 100000 26) (ix2 r k) := by
  obtain ⟨-, -, e0, e1, -⟩ := idx_facts0 t
  unfold iblk0
  rw [View.read_apply]
  show V c main_arg0 (((cfg0.win 1).blk t).view.emb (ix2 p k)) = V c main_arg0 (ix2 r k)
  congr 1
  funext a; apply Fin.ext
  match a with
  | ⟨0, _⟩ => show win0_1.index t (0 : Fin 2) * 2000 + 1 * p.val = r.val; rw [e0, hr]; omega
  | ⟨1, _⟩ => show win0_1.index t (1 : Fin 2) * 26 + 1 * k.val = k.val; rw [e1]; omega

/-- The third input's block is, at every point, the whole first weight matrix. -/
theorem iblk0_2_eq (c : Dev nD) (t : Fin cfg0.N) :
    (iblk0 (F := Ideal) V c 2 t : Vec Ideal S26x64 .f32) = (V c main_arg3 : Cert.Sage.Mat 26 64) := by
  obtain ⟨-, -, -, -, e0, e1, -⟩ := idx_facts0 t
  funext y
  unfold iblk0
  rw [View.read_apply]
  show V c main_arg3 (((cfg0.win 2).blk t).view.emb y) = V c main_arg3 y
  congr 1
  funext a; apply Fin.ext
  match a with
  | ⟨0, _⟩ => show win0_2.index t (0 : Fin 2) * 26 + 1 * (y 0).val = (y 0).val; rw [e0]; omega
  | ⟨1, _⟩ => show win0_2.index t (1 : Fin 2) * 64 + 1 * (y 1).val = (y 1).val; rw [e1]; omega

/-- The fourth input's block is the whole bias vector. -/
theorem iblk0_3_eq (c : Dev nD) (t : Fin cfg0.N) :
    (iblk0 (F := Ideal) V c 3 t : Vec Ideal S64 .f32) = (V c main_arg4 : Cert.Sage.Vc 64) := by
  obtain ⟨-, -, -, -, -, -, e0, -⟩ := idx_facts0 t
  funext y
  unfold iblk0
  rw [View.read_apply]
  show V c main_arg4 (((cfg0.win 3).blk t).view.emb y) = V c main_arg4 y
  congr 1
  funext a; apply Fin.ext
  match a with
  | ⟨0, _⟩ => show win0_3.index t (0 : Fin 1) * 64 + 1 * (y 0).val = (y 0).val; rw [e0]; omega

/-- The fifth input's block is the whole second weight matrix. -/
theorem iblk0_4_eq (c : Dev nD) (t : Fin cfg0.N) :
    (iblk0 (F := Ideal) V c 4 t : Vec Ideal S26x64 .f32) = (V c main_arg5 : Cert.Sage.Mat 26 64) := by
  obtain ⟨-, -, -, -, -, -, -, e0, e1, -⟩ := idx_facts0 t
  funext y
  unfold iblk0
  rw [View.read_apply]
  show V c main_arg5 (((cfg0.win 4).blk t).view.emb y) = V c main_arg5 y
  congr 1
  funext a; apply Fin.ext
  match a with
  | ⟨0, _⟩ => show win0_4.index t (0 : Fin 2) * 26 + 1 * (y 0).val = (y 0).val; rw [e0]; omega
  | ⟨1, _⟩ => show win0_4.index t (1 : Fin 2) * 64 + 1 * (y 1).val = (y 1).val; rw [e1]; omega

/-! ## From the 50 row blocks to the array -/

/-- The first dense layer of the arrays the region finds: the specification's layer with the clamp, of the neighbourhood
    means, the node features, the two weight matrices and the bias. -/
abbrev layer0 (c : Dev nD) : Cert.Sage.Mat 100000 64 :=
  Cert.Sage.dense (n := 26) true (V c main_v24) (V c main_arg0) (V c main_arg3) (V c main_arg4) (V c main_arg5)

/-- What point `t` writes back is block `t` (rows `2000·t … 2000·t + 1999`) of that layer. -/
theorem flushed0_eq (c : Dev nD) (t : Fin cfg0.N) :
    (dat0 (F := Ideal) V c).flushed 5 t = ((cfg0.win 5).blk t).view.read (Elt Ideal) (layer0 V c) := by
  have hN : cfg0.N = 50 := N_0
  obtain ⟨-, -, -, -, -, -, -, -, -, e0, e1⟩ := idx_facts0 t
  show (cfg0.win 5).cut (grid0.coords t) ((dat0 V c).after 5 t) = _
  rw [after0_5]
  funext j
  rw [View.read_apply]
  have hj0 : (j 0).val < 2000 := (j 0).isLt
  have hj1 : (j 1).val < 64 := (j 1).isLt
  have ht : t.val < 50 := hN ▸ t.isLt
  have hx : (cfg0.win 5).xinj (grid0.coords t) j = ix2 (⟨(j 0).val, hj0⟩ : Fin 2000) (⟨(j 1).val, hj1⟩ : Fin 64) :=
    funext fun a => match a with | ⟨0, _⟩ => rfl | ⟨1, _⟩ => rfl
  have hy : ((cfg0.win 5).blk t).view.emb j = ix2 (⟨2000 * t.val + (j 0).val, by omega⟩ : Fin 100000) (⟨(j 1).val, hj1⟩ : Fin 64) := by
    funext a; apply Fin.ext
    match a with
    | ⟨0, _⟩ => show win0_5.index t (0 : Fin 2) * 2000 + 1 * (j 0).val = 2000 * t.val + (j 0).val; rw [e0]; omega
    | ⟨1, _⟩ => show win0_5.index t (1 : Fin 2) * 64 + 1 * (j 1).val = (j 1).val; rw [e1]; omega
  show out0_5 (iblk0 V c 0 t) (iblk0 V c 1 t) (iblk0 V c 2 t) (iblk0 V c 3 t) (iblk0 V c 4 t) ((cfg0.win 5).xinj (grid0.coords t) j) = layer0 V c (((cfg0.win 5).blk t).view.emb j)
  rw [hx, hy]
  exact point0 (V c main_v24) (V c main_arg0) (V c main_arg3) (V c main_arg4) (V c main_arg5)
    (iblk0 V c 0 t) (iblk0 V c 1 t) (iblk0 V c 2 t) (iblk0 V c 3 t) (iblk0 V c 4 t) _ _ _
    (fun k => iblk0_0_apply V c t _ k _ rfl) (fun k => iblk0_1_apply V c t _ k _ rfl)
    (iblk0_2_eq V c t) (iblk0_3_eq V c t) (iblk0_4_eq V c t)

/-- A node and a feature are in point `t`'s block exactly when, on each axis, the coordinate is within the block's range. -/
theorem mem_blk0 (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v25).slice (win0_5.rect t)).set ↔ _
  rw [View.set_slice_whole, Rect.mem_set_unit]
  exact Iff.rfl

/-- Every node's row is in some point's block: node `r` is in block `r / 2000`. -/
theorem cover0 (i : S100000x64.Idx) :
    ∃ t : Fin cfg0.N, (cfg0.win 5).flush t = true ∧ i ∈ ((cfg0.win 5).blk t).view.set := by
  have hN : cfg0.N = 50 := N_0
  have hi0 : (i 0).val < 100000 := (i 0).isLt
  have hi1 : (i 1).val < 64 := (i 1).isLt
  let t : Fin cfg0.N := ⟨(i 0).val / 2000, by rw [hN]; omega⟩
  obtain ⟨-, -, -, -, -, -, -, -, -, e0, e1⟩ := idx_facts0 t
  have ht : t.val = (i 0).val / 2000 := rfl
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 64 ≤ (i 1).val ∧ (i 1).val < win0_5.index t (1 : Fin 2) * 64 + 64; rw [e1]; omega

/-- THE ARRAY the region leaves in its output: the first dense layer, with the clamp, of the arrays it was entered with. -/
theorem arr0 (c : Dev nD) :
    (dat0 (F := Ideal) V c).arrAt 5 cfg0.N
      = Cert.Sage.dense (n := 26) true (V c main_v24) (V c main_arg0) (V c main_arg3) (V c main_arg4) (V c main_arg5) :=
  (dat0 (F := Ideal) V c).arrAt_eq_of_cover 5 (layer0 V c) (fun t _ => flushed0_eq V c t) cover0

end Cert.KernelIdeal.Hand

end
-- ==== Proof.KernelIdeal.Val1.lean ====
/- The value of region 1, the second dense layer's kernel: what its body stores at a row and a feature (two products
   into zero accumulators and the bias row, with no clamp), each input block as rows of its array, and the 50 row blocks
   of 2000 put together into the whole output array: the dense layer of the specification over 64 input features. -/
import proofs.«415661_j14705968022324_1_alg».proof.Proof.KernelIdeal.Reg1
import proofs.«415661_j14705968022324_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The body's arithmetic at a row and a feature -/

/-- The left operand's row is the output's row, -/
theorem lhs_dot1_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- its column the contracted index; -/
theorem lhs_dot1_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- the right operand's row is the contracted index, -/
theorem rhs_dot1_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- its column the output's column. -/
theorem rhs_dot1_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A block of 2000 rows times a 64×64 matrix, into a zero accumulator, at row `p` and feature `q`: the sum over the
    64 hidden features of the products. -/
theorem mm1_apply (l : FVec Ideal S2000x64 .bf16) (r : FVec Ideal S64x64 .bf16) (p : Fin 2000) (q : Fin 64) :
    matmul dot_S2000x64_S64x64_S2000x64_1_0_0_1_n_n none l r (constant (F := Ideal) S2000x64 .f32 0x00000000#32) (ix2 p q)
      = ∑ k : Fin 64, l (ix2 p k) * r (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs_dot1_0 _ _
    | ⟨1, _⟩ => exact (lhs_dot1_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhs_dot1_0 _ _).trans hk
    | ⟨1, _⟩ => exact rhs_dot1_1 _ _)
  rw [el, er]

/-- The bias vector, viewed as one row and repeated down the 2000 rows, at row `p` and feature `q`: the bias at `q`. -/
theorem bias1_apply (b : Vec Ideal S64 .f32) (p : Fin 2000) (q : Fin 64) :
    broadcastTo S2000x64 (shapeCast S1x64 (shapeCast S1x64 b shapeCasts_S64_S1x64) shapeCasts_S1x64_S1x64) broadcasts_S1x64_S2000x64 (ix2 p q)
      = b (ix1 q) := by
  rw [shapeCast_self]
  exact (broadcastTo_1b_ab_apply _ broadcasts_S1x64_S2000x64 p q).trans (shapeCast_a_1a_apply b shapeCasts_S64_S1x64 0 q)

/-- What the body stores, at row `p` of the block and feature `q`: the first block's row times the first matrix, plus the
    second block's row times the second, plus the bias. -/
theorem pay1_apply (x0 x1 : Vec Ideal S2000x64 .f32) (w0 w1 : Vec Ideal S64x64 .f32) (b : Vec Ideal S64 .f32) (p : Fin 2000) (q : Fin 64) :
    k1_pay1 (F := Ideal) x0 x1 w0 w1 b (ix2 p q)
      = ((∑ k : Fin 64, x0 (ix2 p k) * w0 (ix2 k q)) + (∑ k : Fin 64, x1 (ix2 p k) * w1 (ix2 k q))) + b (ix1 q) := by
  unfold k1_pay1
  refine (addf_apply _ _ _).trans ?_
  refine congrArg₂ (· + ·) ?_ (bias1_apply b p q)
  refine (addf_apply _ _ _).trans ?_
  refine congrArg₂ (· + ·) ?_ ?_
  · rw [shapeCast_self]
    exact mm1_apply _ _ p q
  · rw [shapeCast_self]
    exact mm1_apply _ _ p q

/-! ## What the one store leaves at a row and a feature -/

theorem hz1_2 : (![0, 0] : Fin 2 → Nat) = fun _ => 0 := funext fun a => by fin_cases a <;> rfl
theorem hz1_1 : (![0] : Fin 1 → Nat) = fun _ => 0 := funext fun a => by fin_cases a <;> rfl

/-- The output window's buffer after the body, at row `p` and feature `q`, from the five input blocks. -/
theorem out1_5_apply (x0 x1 : Vec Ideal S2000x64 .f32) (x2 : Vec Ideal S64x64 .f32) (x3 : Vec Ideal S64 .f32) (x4 : Vec Ideal S64x64 .f32)
    (p : Fin 2000) (q : Fin 64) :
    out1_5 (F := Ideal) x0 x1 x2 x3 x4 (ix2 p q)
      = ((∑ k : Fin 64, x0 (ix2 p k) * x2 (ix2 k q)) + (∑ k : Fin 64, x1 (ix2 p k) * x4 (ix2 k q))) + x3 (ix1 q) := by
  unfold out1_5
  rw [View.canon_unit_zero hz1_2]
  simp only [View.ld_unit_zero (S := S2000x64) hz1_2, View.ld_unit_zero (S := S64x64) hz1_2, View.ld_unit_zero (S := S64) hz1_1]
  exact pay1_apply x0 x1 x2 x4 x3 p q

/-- When the two row blocks hold row `r` of their arrays at their row `p` and the three small blocks are their
    arrays, the store leaves the dense layer (no clamp) of the arrays at node `r` and feature `q`. -/
theorem point1 (A0 A1 : Cert.Sage.Mat 100000 64) (W0 : Cert.Sage.Mat 64 64) (B : Cert.Sage.Vc 64) (W1 : Cert.Sage.Mat 64 64)
    (x0 x1 : Vec Ideal S2000x64 .f32) (x2 : Vec Ideal S64x64 .f32) (x3 : Vec Ideal S64 .f32) (x4 : Vec Ideal S64x64 .f32)
    (p : Fin 2000) (q : Fin 64) (r : Fin 100000)
    (h0 : ∀ k : Fin 64, x0 (ix2 p k) = A0 (ix2 r k)) (h1 : ∀ k : Fin 64, x1 (ix2 p k) = A1 (ix2 r k))
    (h2 : x2 = W0) (h3 : x3 = B) (h4 : x4 = W1) :
    out1_5 (F := Ideal) x0 x1 x2 x3 x4 (ix2 p q) = Cert.Sage.dense (n := 64) false A0 A1 W0 B W1 (ix2 r q) := by
  refine (out1_5_apply x0 x1 x2 x3 x4 p q).trans ?_
  subst h2 h3 h4
  unfold Cert.Sage.dense
  dsimp only
  rw [if_neg Bool.false_ne_true]
  simp only [h0, h1]

/-! ## Each input block as rows of its array -/

variable (V : (c : Dev nD) → (b : Ref sig .tc) → Buf (Elt Ideal) ((c : Thread nD τ).loc b))

/-- The index maps over the 50 points: the two row-blocked inputs and the output are at block row `t`, the three small
    inputs at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the first input's block at point `t` is row `r = 2000·t + p` of the second layer's neighbourhood means. -/
theorem iblk1_0_apply (c : Dev nD) (t : Fin cfg1.N) (p : Fin 2000) (k : Fin 64) (r : Fin 100000) (hr : r.val = 2000 * t.val + p.val) :
    (iblk1 (F := Ideal) V c 0 t : Vec Ideal S2000x64 .f32) (ix2 p k) = (V c main_v38 : Cert.Sage.Mat 100000 64) (ix2 r k) := by
  obtain ⟨e0, e1, -⟩ := idx_facts1 t
  unfold iblk1
  rw [View.read_apply]
  show V c main_v38 (((cfg1.win 0).blk t).view.emb (ix2 p k)) = V c main_v38 (ix2 r k)
  congr 1
  funext a; apply Fin.ext
  match a with
  | ⟨0, _⟩ => show win1_0.index t (0 : Fin 2) * 2000 + 1 * p.val = r.val; rw [e0, hr]; omega
  | ⟨1, _⟩ => show win1_0.index t (1 : Fin 2) * 64 + 1 * k.val = k.val; rw [e1]; omega

/-- Row `p` of the second input's block at point `t` is row `r = 2000·t + p` of the first layer's output. -/
theorem iblk1_1_apply (c : Dev nD) (t : Fin cfg1.N) (p : Fin 2000) (k : Fin 64) (r : Fin 100000) (hr : r.val = 2000 * t.val + p.val) :
    (iblk1 (F := Ideal) V c 1 t : Vec Ideal S2000x64 .f32) (ix2 p k) = (V c main_v25 : Cert.Sage.Mat 100000 64) (ix2 r k) := by
  obtain ⟨-, -, e0, e1, -⟩ := idx_facts1 t
  unfold iblk1
  rw [View.read_apply]
  show V c main_v25 (((cfg1.win 1).blk t).view.emb (ix2 p k)) = V c main_v25 (ix2 r k)
  congr 1
  funext a; apply Fin.ext
  match a with
  | ⟨0, _⟩ => show win1_1.index t (0 : Fin 2) * 2000 + 1 * p.val = r.val; rw [e0, hr]; omega
  | ⟨1, _⟩ => show win1_1.index t (1 : Fin 2) * 64 + 1 * k.val = k.val; rw [e1]; omega

/-- The third input's block is, at every point, the whole first weight matrix. -/
theorem iblk1_2_eq (c : Dev nD) (t : Fin cfg1.N) :
    (iblk1 (F := Ideal) V c 2 t : Vec Ideal S64x64 .f32) = (V c main_arg6 : Cert.Sage.Mat 64 64) := by
  obtain ⟨-, -, -, -, e0, e1, -⟩ := idx_facts1 t
  funext y
  unfold iblk1
  rw [View.read_apply]
  show V c main_arg6 (((cfg1.win 2).blk t).view.emb y) = V c main_arg6 y
  congr 1
  funext a; apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The fourth input's block is the whole bias vector. -/
theorem iblk1_3_eq (c : Dev nD) (t : Fin cfg1.N) :
    (iblk1 (F := Ideal) V c 3 t : Vec Ideal S64 .f32) = (V c main_arg7 : Cert.Sage.Vc 64) := by
  obtain ⟨-, -, -, -, -, -, e0, -⟩ := idx_facts1 t
  funext y
  unfold iblk1
  rw [View.read_apply]
  show V c main_arg7 (((cfg1.win 3).blk t).view.emb y) = V c main_arg7 y
  congr 1
  funext a; apply Fin.ext
  match a with
  | ⟨0, _⟩ => show win1_3.index t (0 : Fin 1) * 64 + 1 * (y 0).val = (y 0).val; rw [e0]; omega

/-- The fifth input's block is the whole second weight matrix. -/
theorem iblk1_4_eq (c : Dev nD) (t : Fin cfg1.N) :
    (iblk1 (F := Ideal) V c 4 t : Vec Ideal S64x64 .f32) = (V c main_arg8 : Cert.Sage.Mat 64 64) := by
  obtain ⟨-, -, -, -, -, -, -, e0, e1, -⟩ := idx_facts1 t
  funext y
  unfold iblk1
  rw [View.read_apply]
  show V c main_arg8 (((cfg1.win 4).blk t).view.emb y) = V c main_arg8 y
  congr 1
  funext a; apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-! ## From the 50 row blocks to the array -/

/-- The second dense layer of the arrays the region finds: the specification's layer without the clamp, of the second
    neighbourhood means, the first layer's output, the two weight matrices and the bias. -/
abbrev layer1 (c : Dev nD) : Cert.Sage.Mat 100000 64 :=
  Cert.Sage.dense (n := 64) false (V c main_v38) (V c main_v25) (V c main_arg6) (V c main_arg7) (V c main_arg8)

/-- What point `t` writes back is block `t` (rows `2000·t … 2000·t + 1999`) of that layer. -/
theorem flushed1_eq (c : Dev nD) (t : Fin cfg1.N) :
    (dat1 (F := Ideal) V c).flushed 5 t = ((cfg1.win 5).blk t).view.read (Elt Ideal) (layer1 V c) := by
  have hN : cfg1.N = 50 := N_1
  obtain ⟨-, -, -, -, -, -, -, -, -, e0, e1⟩ := idx_facts1 t
  show (cfg1.win 5).cut (grid1.coords t) ((dat1 V c).after 5 t) = _
  rw [after1_5]
  funext j
  rw [View.read_apply]
  have hj0 : (j 0).val < 2000 := (j 0).isLt
  have hj1 : (j 1).val < 64 := (j 1).isLt
  have ht : t.val < 50 := hN ▸ t.isLt
  have hx : (cfg1.win 5).xinj (grid1.coords t) j = ix2 (⟨(j 0).val, hj0⟩ : Fin 2000) (⟨(j 1).val, hj1⟩ : Fin 64) :=
    funext fun a => match a with | ⟨0, _⟩ => rfl | ⟨1, _⟩ => rfl
  have hy : ((cfg1.win 5).blk t).view.emb j = ix2 (⟨2000 * t.val + (j 0).val, by omega⟩ : Fin 100000) (⟨(j 1).val, hj1⟩ : Fin 64) := by
    funext a; apply Fin.ext
    match a with
    | ⟨0, _⟩ => show win1_5.index t (0 : Fin 2) * 2000 + 1 * (j 0).val = 2000 * t.val + (j 0).val; rw [e0]; omega
    | ⟨1, _⟩ => show win1_5.index t (1 : Fin 2) * 64 + 1 * (j 1).val = (j 1).val; rw [e1]; omega
  show out1_5 (iblk1 V c 0 t) (iblk1 V c 1 t) (iblk1 V c 2 t) (iblk1 V c 3 t) (iblk1 V c 4 t) ((cfg1.win 5).xinj (grid1.coords t) j) = layer1 V c (((cfg1.win 5).blk t).view.emb j)
  rw [hx, hy]
  exact point1 (V c main_v38) (V c main_v25) (V c main_arg6) (V c main_arg7) (V c main_arg8)
    (iblk1 V c 0 t) (iblk1 V c 1 t) (iblk1 V c 2 t) (iblk1 V c 3 t) (iblk1 V c 4 t) _ _ _
    (fun k => iblk1_0_apply V c t _ k _ rfl) (fun k => iblk1_1_apply V c t _ k _ rfl)
    (iblk1_2_eq V c t) (iblk1_3_eq V c t) (iblk1_4_eq V c t)

/-- A node and a feature are in point `t`'s block exactly when, on each axis, the coordinate is within the block's range. -/
theorem mem_blk1 (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v39).slice (win1_5.rect t)).set ↔ _
  rw [View.set_slice_whole, Rect.mem_set_unit]
  exact Iff.rfl

/-- Every node's row is in some point's block: node `r` is in block `r / 2000`. -/
theorem cover1 (i : S100000x64.Idx) :
    ∃ t : Fin cfg1.N, (cfg1.win 5).flush t = true ∧ i ∈ ((cfg1.win 5).blk t).view.set := by
  have hN : cfg1.N = 50 := N_1
  have hi0 : (i 0).val < 100000 := (i 0).isLt
  have hi1 : (i 1).val < 64 := (i 1).isLt
  let t : Fin cfg1.N := ⟨(i 0).val / 2000, by rw [hN]; omega⟩
  obtain ⟨-, -, -, -, -, -, -, -, -, e0, e1⟩ := idx_facts1 t
  have ht : t.val = (i 0).val / 2000 := rfl
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 64 ≤ (i 1).val ∧ (i 1).val < win1_5.index t (1 : Fin 2) * 64 + 64; rw [e1]; omega

/-- THE ARRAY the region leaves in its output: the second dense layer, without the clamp, of the arrays it was entered with. -/
theorem arr1 (c : Dev nD) :
    (dat1 (F := Ideal) V c).arrAt 5 cfg1.N
      = Cert.Sage.dense (n := 64) false (V c main_v38) (V c main_v25) (V c main_arg6) (V c main_arg7) (V c main_arg8) :=
  (dat1 (F := Ideal) V c).arrAt_eq_of_cover 5 (layer1 V c) (fun t _ => flushed1_eq V c t) cover1

end Cert.KernelIdeal.Hand

end
-- ==== Proof.RefImports.lean ====
/- The reference program's run and its operations read at an index: generated modules, brought in here so that the
   modules that state the reference's value share one import. -/
import proofs.«415661_j14705968022324_1_alg».proof.Proof.Gen.ReferenceIdeal.Run
import proofs.«415661_j14705968022324_1_alg».proof.Proof.Gen.ReferenceIdeal.Read
-- ==== Proof.Seg.lean ====
/- Per-graph sums three ways. The reference adds each node's row into its graph's row with an accumulating
   scatter; the kernel multiplies, block of 2000 nodes by block, a 0/1 indicator matrix with the rows and adds the 50
   partial products up. Both are the sum over ALL nodes of the row guarded by "this node's graph id is g" — a node whose
   id is outside 0..63 is in no graph on either side. -/
import proofs.«415661_j14705968022324_1_alg».proof.Proof.Gen.ReferenceIdeal
import proofs.«415661_j14705968022324_1_alg».proof.Proof.Spec
import Idealize.ShloMosaic.Lib.ValueIdxRank1

noncomputable section

namespace Cert.Sage

open Idealize.ShloMosaic Idealize.ShloMosaic.ValueIdx
open Cert.ReferenceIdeal

/-! ## Where an update lands

The scatter of rows: operand 64×64, ids a column 100000×1, updates 100000×64; the update's axis 1 is the window axis,
the operand's axis 0 is scattered by the id. Update `(r, c)` lands at `(id r, c)` when `0 ≤ id r < 64`, nowhere
otherwise. The scatter of scalars is the same without the window axis. -/

/-- The dimension numbers of the scatter of rows. -/
abbrev dRow := scatter_S64x64_S100000x1_S100000x64_1_0_0_1

/-- On the scattered axis the window starts at the update's row's id, read signed. -/
theorem dRow_start0 (j : S100000x64.Idx) (idx : IVec S100000x1 32) :
    dRow.start j idx 0 = (idx (ix2 (j 0) 0)).toInt := by
  unfold ScatterDims.start
  rw [dif_pos (show (0 : Fin S64x64.rank) ∈ dRow.scatterDimsToOperandDims from List.mem_singleton.mpr rfl)]
  congr 2
  funext b
  refine Fin.ext ?_
  match b with
  | ⟨0, _⟩ => rfl
  | ⟨1, _⟩ => rfl

/-- On the window axis the start is zero. -/
theorem dRow_start1 (j : S100000x64.Idx) (idx : IVec S100000x1 32) : dRow.start j idx 1 = 0 := by
  unfold ScatterDims.start
  rw [dif_neg (show ¬ (1 : Fin S64x64.rank) ∈ dRow.scatterDimsToOperandDims by decide)]

/-- The scattered axis is an inserted one: window coordinate zero. -/
theorem dRow_window0 (j : S100000x64.Idx) : dRow.window j 0 = 0 := by
  unfold ScatterDims.window
  rw [dif_neg (show ¬ (0 : Fin S64x64.rank) ∈ dRow.sKept by decide)]

/-- The window coordinate on axis 1 is the update's column. -/
theorem dRow_window1 (j : S100000x64.Idx) : dRow.window j 1 = (j 1).val := by
  unfold ScatterDims.window
  rw [dif_pos (show (1 : Fin S64x64.rank) ∈ dRow.sKept by decide)]
  rfl

/-- Update `j` lands at `(g, l)` exactly when its row's id is `g` and its column is `l`. -/
theorem dRow_resultIdx (j : S100000x64.Idx) (idx : IVec S100000x1 32) (g l : Fin 64) :
    dRow.resultIdx? j idx = some (ix2 g l) ↔ (idx (ix2 (j 0) 0)).toInt = (g.val : Int) ∧ j 1 = l := by
  have hl := l.isLt
  have hg := g.isLt
  have hj1 : (j 1).val < 64 := (j 1).isLt
  unfold ScatterDims.resultIdx?
  split
  · rename_i h
    rw [Option.some.injEq]
    constructor
    · intro hf
      have h0 := congrArg (fun f => (f 0).val) hf
      have h1 := congrArg (fun f => (f 1).val) hf
      simp only [dRow_start0, dRow_start1, dRow_window0, dRow_window1] at h0 h1
      have hh := (h 0).1
      simp only [dRow_start0, dRow_window0] at hh
      refine ⟨?_, Fin.ext ?_⟩
      · change _ = g.val at h0
        omega
      · change _ = l.val at h1
        omega
    · rintro ⟨hid, hjl⟩
      funext a
      refine Fin.ext ?_
      match a with
      | ⟨0, _⟩ =>
        show (dRow.start j idx 0 + (dRow.window j 0 : Int)).toNat = g.val
        rw [dRow_start0, dRow_window0, hid]; omega
      | ⟨1, _⟩ =>
        show (dRow.start j idx 1 + (dRow.window j 1 : Int)).toNat = l.val
        rw [dRow_start1, dRow_window1, hjl]; omega
  · rename_i h
    constructor
    · intro hf; cases hf
    · rintro ⟨hid, hjl⟩
      exfalso; apply h
      intro a
      match a with
      | ⟨0, _⟩ =>
        show 0 ≤ dRow.start j idx 0 + (dRow.window j 0 : Int) ∧ dRow.start j idx 0 + (dRow.window j 0 : Int) < 64
        rw [dRow_start0, dRow_window0, hid]; omega
      | ⟨1, _⟩ =>
        show 0 ≤ dRow.start j idx 1 + (dRow.window j 1 : Int) ∧ dRow.start j idx 1 + (dRow.window j 1 : Int) < 64
        rw [dRow_start1, dRow_window1]; omega

/-- The same at an update named by its coordinates. -/
theorem dRow_resultIdx' (idx : IVec S100000x1 32) (r : Fin 100000) (c g l : Fin 64) :
    dRow.resultIdx? (ix2 r c) idx = some (ix2 g l) ↔ (idx (ix2 r 0)).toInt = (g.val : Int) ∧ c = l :=
  dRow_resultIdx (ix2 r c) idx g l

/-- The reference's accumulating scatter of the rows `h` into a zero 64×64 matrix, by the ids in the column `idx`,
    read at graph `g` and feature `l`: the guarded sum over all nodes. -/
theorem scatter_segSum (z : Mat 64 64) (hz : ∀ i, z i = 0) (idx : IVec S100000x1 32) (h : Mat 100000 64) (g l : Fin 64) :
    Host.scatterAdd (F := Ideal) (φ := .f32) scatter_S64x64_S100000x1_S100000x64_1_0_0_1 z idx h (ix2 g l)
      = segSum h (fun r => idx (ix2 r 0)) g l := by
  show z (ix2 g l) + ∑ j ∈ Finset.univ.filter (fun j => dRow.resultIdx? j idx = some (ix2 g l)), h j = _
  rw [hz, zero_add, Finset.sum_filter, sum_idx2]
  unfold segSum
  refine Finset.sum_congr rfl (fun r _ => ?_)
  simp only [dRow_resultIdx']
  by_cases hr : (idx (ix2 r 0)).toInt = (g.val : Int)
  · simp only [hr, true_and, Finset.sum_ite_eq', Finset.mem_univ, if_true]
  · simp only [hr, false_and, if_false, Finset.sum_const_zero]

/-- The dimension numbers of the scatter of scalars. -/
abbrev dOne := scatter_S64_S100000x1_S100000_n_0_0_1

/-- The window starts at the update's id, read signed. -/
theorem dOne_start0 (j : S100000.Idx) (idx : IVec S100000x1 32) :
    dOne.start j idx 0 = (idx (ix2 (j 0) 0)).toInt := by
  unfold ScatterDims.start
  rw [dif_pos (show (0 : Fin S64.rank) ∈ dOne.scatterDimsToOperandDims from List.mem_singleton.mpr rfl)]
  congr 2
  funext b
  refine Fin.ext ?_
  match b with
  | ⟨0, _⟩ => rfl
  | ⟨1, _⟩ => rfl

/-- The one operand axis is an inserted one: window coordinate zero. -/
theorem dOne_window0 (j : S100000.Idx) : dOne.window j 0 = 0 := by
  unfold ScatterDims.window
  rw [dif_neg (show ¬ (0 : Fin S64.rank) ∈ dOne.sKept by decide)]

/-- Update `j` lands at `g` exactly when its id is `g`. -/
theorem dOne_resultIdx (j : S100000.Idx) (idx : IVec S100000x1 32) (g : Fin 64) :
    dOne.resultIdx? j idx = some (ix1 g) ↔ (idx (ix2 (j 0) 0)).toInt = (g.val : Int) := by
  have hg := g.isLt
  unfold ScatterDims.resultIdx?
  split
  · rename_i h
    rw [Option.some.injEq]
    constructor
    · intro hf
      have h0 := congrArg (fun f => (f 0).val) hf
      simp only [dOne_start0, dOne_window0] at h0
      have hh := (h 0).1
      simp only [dOne_start0, dOne_window0] at hh
      change _ = g.val at h0
      omega
    · intro hid
      funext a
      refine Fin.ext ?_
      match a with
      | ⟨0, _⟩ =>
        show (dOne.start j idx 0 + (dOne.window j 0 : Int)).toNat = g.val
        rw [dOne_start0, dOne_window0, hid]; omega
  · rename_i h
    constructor
    · intro hf; cases hf
    · intro hid
      exfalso; apply h
      intro a
      match a with
      | ⟨0, _⟩ =>
        show 0 ≤ dOne.start j idx 0 + (dOne.window j 0 : Int) ∧ dOne.start j idx 0 + (dOne.window j 0 : Int) < 64
        rw [dOne_start0, dOne_window0, hid]; omega

/-- The same at an update named by its coordinate. -/
theorem dOne_resultIdx' (idx : IVec S100000x1 32) (r : Fin 100000) (g : Fin 64) :
    dOne.resultIdx? (ix1 r) idx = some (ix1 g) ↔ (idx (ix2 r 0)).toInt = (g.val : Int) :=
  dOne_resultIdx (ix1 r) idx g

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's accumulating scatter of ones into a zero vector of length 64: the node count of graph `g`. -/
theorem scatter_segCnt (z : Vc 64) (hz : ∀ i, z i = 0) (idx : IVec S100000x1 32) (u : Vc 100000) (hu : ∀ i, u i = 1) (g : Fin 64) :
    Host.scatterAdd (F := Ideal) (φ := .f32) scatter_S64_S100000x1_S100000_n_0_0_1 z idx u (ix1 g)
      = segCnt (fun r => idx (ix2 r 0)) g := by
  show z (ix1 g) + ∑ j ∈ Finset.univ.filter (fun j => dOne.resultIdx? j idx = some (ix1 g)), u j = _
  rw [hz, zero_add, Finset.sum_filter, sum_idx1]
  unfold segCnt
  refine Finset.sum_congr rfl (fun r _ => ?_)
  simp only [dOne_resultIdx', hu]

/-! ## The kernel's blocks -/

/-- Node `2000·t + k`: row `k` of block `t`. -/
def node (t : Fin 50) (k : Fin 2000) : Fin 100000 := ⟨2000 * t.val + k.val, by have := t.isLt; have := k.isLt; omega⟩

/-- The 0/1 indicator the kernel builds: is this id the number `g` (as a 32-bit word)? -/
def oneHot (b : BitVec 32) (g : Fin 64) : EReal := if b = BitVec.ofNat 32 g.val then 1 else 0

/-- Block `t`'s partial sum for graph `g` at feature `l`: the indicator row times the block's rows. -/
def blkSum (h : Mat 100000 64) (bid : Fin 100000 → BitVec 32) (t : Fin 50) (g l : Fin 64) : EReal :=
  ∑ k : Fin 2000, oneHot (bid (node t k)) g * h (ix2 (node t k) l)

/-- Block `t`'s partial count for graph `g`. -/
def blkCnt (bid : Fin 100000 → BitVec 32) (t : Fin 50) (g : Fin 64) : EReal :=
  ∑ k : Fin 2000, oneHot (bid (node t k)) g * 1

/-- The nodes are the pairs (block, row in the block): `r = 2000·(r / 2000) + r % 2000`. -/
def nodeEquiv : Fin 50 × Fin 2000 ≃ Fin 100000 where
  toFun p := node p.1 p.2
  invFun r := (⟨r.val / 2000, by have := r.isLt; omega⟩, ⟨r.val % 2000, by omega⟩)
  left_inv p := by
    obtain ⟨t, k⟩ := p
    have := t.isLt; have := k.isLt
    refine Prod.ext (Fin.ext ?_) (Fin.ext ?_)
    · show (2000 * t.val + k.val) / 2000 = t.val; omega
    · show (2000 * t.val + k.val) % 2000 = k.val; omega
  right_inv r := by
    refine Fin.ext ?_
    show 2000 * (r.val / 2000) + r.val % 2000 = r.val; omega

/-- A sum over the blocks of a sum over a block's rows is the sum over all nodes. -/
theorem sum_node {M : Type*} [AddCommMonoid M] (f : Fin 100000 → M) :
    ∑ t : Fin 50, ∑ k : Fin 2000, f (node t k) = ∑ r : Fin 100000, f r := by
  rw [← Equiv.sum_comp nodeEquiv f, Fintype.sum_prod_type]
  rfl

/-- The 32-bit word of a number below 64 has that number as its signed value. -/
theorem toInt_ofNat_lt64 (g : Fin 64) : (BitVec.ofNat 32 g.val).toInt = (g.val : Int) := by
  have hg := g.isLt
  have hm : g.val % 2 ^ 32 = g.val := Nat.mod_eq_of_lt (by omega)
  rw [BitVec.toInt_eq_toNat_cond, BitVec.toNat_ofNat, hm]
  split <;> omega

/-- The indicator times `y` is `y` guarded by "the word's signed value is `g`": `1 · y = y`, `0 · y = 0` at every
    extended real, and a word is the word of `g < 64` exactly when its signed value is `g` (the signed value determines
    the word). -/
theorem oneHot_mul (b : BitVec 32) (g : Fin 64) (y : EReal) :
    oneHot b g * y = if b.toInt = (g.val : Int) then y else 0 := by
  unfold oneHot
  by_cases hb : b = BitVec.ofNat 32 g.val
  · rw [if_pos hb, if_pos (by rw [hb]; exact toInt_ofNat_lt64 g), one_mul]
  · rw [if_neg hb, if_neg (fun h => hb (BitVec.eq_of_toInt_eq (h.trans (toInt_ofNat_lt64 g).symm))), zero_mul]

/-- The 50 partial sums add up to the guarded sum over all nodes (`0 · x = 0` and `1 · x = x` at every extended real;
    a word equals the number `g < 64` exactly when its signed value is `g`). -/
theorem sum_blkSum (h : Mat 100000 64) (bid : Fin 100000 → BitVec 32) (g l : Fin 64) :
    ∑ t : Fin 50, blkSum h bid t g l = segSum h bid g l := by
  unfold blkSum segSum
  rw [sum_node (fun r => oneHot (bid r) g * h (ix2 r l))]
  exact Finset.sum_congr rfl (fun r _ => oneHot_mul _ _ _)

/-- The 50 partial counts add up to the node count of graph `g`. -/
theorem sum_blkCnt (bid : Fin 100000 → BitVec 32) (g : Fin 64) :
    ∑ t : Fin 50, blkCnt bid t g = segCnt bid g := by
  unfold blkCnt segCnt
  rw [sum_node (fun r => oneHot (bid r) g * 1)]
  exact Finset.sum_congr rfl (fun r _ => oneHot_mul _ _ _)

end Cert.Sage

end
-- ==== Proof.RefVal.lean ====
/- The reference program's result, index by index, is the specification: each layer is the dense layer of the
   neighbourhood mean (the neighbour sum over the clamped in-degree), and the pooled output is the per-graph guarded sum
   over the clamped node count, times the last matrix, plus its bias. The gathers and the edge scatters stay as they are. -/
import proofs.«415661_j14705968022324_1_alg».proof.Proof.RefImports
import proofs.«415661_j14705968022324_1_alg».proof.Proof.Spec
import proofs.«415661_j14705968022324_1_alg».proof.Proof.Seg

noncomputable section

namespace Cert.Sage

open Idealize.ShloMosaic Idealize.ShloMosaic.ValueIdx
open Cert.ReferenceIdeal

/-- The second layer's neighbour sum as a function of the first layer's activations: the reference's gather by edge
    source and accumulating scatter by edge destination, left as they are. -/
def nbr64 (h : Mat 100000 64) (e : IVec S2x3200000 32) : Mat 100000 64 :=
  Host.scatterAdd (F := Ideal) (φ := .f32) scatter_S100000x64_S3200000x1_S3200000x64_1_0_0_1 (Read.val_main_v37 (F := Ideal)) (Read.val_main_v38 (F := Ideal) e)
    (Host.gather gather_S100000x64_S3200000x1_S3200000x64_1_0_n_n_0_1_164 h (Read.val_main_v35 (F := Ideal) e))

/-- The first layer's activations: the dense layer, clamped at zero, of the mean of the neighbours' input rows. -/
def refH1 (x : Mat 100000 26) (e : IVec S2x3200000 32) (W1l : Mat 26 64) (b1 : Vc 64) (W1r : Mat 26 64) : Mat 100000 64 :=
  dense (n := 26) true (meanDiv (Read.val_main_v13 (F := Ideal) x e) (Read.val_main_v17 (F := Ideal) e)) x W1l b1 W1r

/-- The second layer's output: the dense layer of the mean of the neighbours' first-layer rows. -/
def refH2 (x : Mat 100000 26) (e : IVec S2x3200000 32) (W1l : Mat 26 64) (b1 : Vc 64) (W1r : Mat 26 64)
    (W2l : Mat 64 64) (b2 : Vc 64) (W2r : Mat 64 64) : Mat 100000 64 :=
  dense (n := 64) false (meanDiv (nbr64 (refH1 x e W1l b1 W1r) e) (Read.val_main_v17 (F := Ideal) e)) (refH1 x e W1l b1 W1r) W2l b2 W2r

/-- The bit pattern of the float one denotes the extended real one. -/
theorem ofBits_one_f32 : Ideal.ofBits .f32 0x3F800000#32 = 1 := by
  simp [Ideal.ofBits, Ideal.ieee, -EReal.coe_mul]; norm_num

/-- A dense layer read at node `p` and feature `q`. -/
theorem dense_apply {n : Nat} (relu : Bool) (mean x : Mat 100000 n) (Wl : Mat n 64) (b : Vc 64) (Wr : Mat n 64)
    (p : Fin 100000) (q : Fin 64) :
    dense relu mean x Wl b Wr (ix2 p q)
      = if relu then max (((∑ k : Fin n, mean (ix2 p k) * Wl (ix2 k q)) + (∑ k : Fin n, x (ix2 p k) * Wr (ix2 k q))) + b (ix1 q)) 0
        else ((∑ k : Fin n, mean (ix2 p k) * Wl (ix2 k q)) + (∑ k : Fin n, x (ix2 p k) * Wr (ix2 k q))) + b (ix1 q) := rfl

/-- The mean read at node `p` and feature `k`. -/
theorem meanDiv_apply {n : Nat} (s : Mat 100000 n) (deg : Vc 100000) (p : Fin 100000) (k : Fin n) :
    meanDiv s deg (ix2 p k) = Ideal.div (s (ix2 p k)) (max (deg (ix1 p)) 1) := rfl

/-- The first layer's mean as the reference divides it out: the neighbour sum over the in-degree clamped at one. -/
theorem v22_at (x : Mat 100000 26) (e : IVec S2x3200000 32) (p : Fin 100000) (k : Fin 26) :
    Read.val_main_v22 (F := Ideal) x e (ix2 p k)
      = meanDiv (Read.val_main_v13 (F := Ideal) x e) (Read.val_main_v17 (F := Ideal) e) (ix2 p k) := by
  rw [meanDiv_apply, Read.val_main_v22_apply, Read.val_main_v21_apply, Read.val_main_v20_apply, Read.val_main_v19_apply,
    Read.val_main_v18_apply, Read.val_main_cst_3_apply]
  have h : Read.idx_main_v20 (Read.idx_main_v21 (ix2 p k)) = ix1 p := funext fun a => by match a with | ⟨0, _⟩ => rfl
  rw [h, Ideal.hostDivf_def, Ideal.maximumf_def, Ideal.ofBits_def, ofBits_one_f32]

theorem ref_h1 (x : Mat 100000 26) (e : IVec S2x3200000 32) (W1l : Mat 26 64) (b1 : Vc 64) (W1r : Mat 26 64) :
    Read.val_main_v29 (F := Ideal) x e W1l b1 W1r = refH1 x e W1l b1 W1r := by
  funext i
  obtain ⟨p, q, rfl⟩ : ∃ p q, i = ix2 p q := ⟨i 0, i 1, eq_ix2 i⟩
  rw [refH1, dense_apply, if_pos rfl]
  rw [Read.val_main_v29_apply, Read.val_main_v28_apply, Read.val_main_v26_apply, Read.val_main_v23_apply,
    Read.val_main_v27_apply, Read.val_main_v25_apply, Read.val_main_v24_apply, Read.val_main_call0_v0_apply,
    Read.val_main_call0_cst_apply]
  have hl : ∀ k : Fin 26, Read.lidx_main_v23 (ix2 p q) k = ix2 p k := fun k => funext fun a => by
    match a with | ⟨0, _⟩ => rfl | ⟨1, _⟩ => rfl
  have hr : ∀ k : Fin 26, Read.ridx_main_v23 (ix2 p q) k = ix2 k q := fun k => funext fun a => by
    match a with | ⟨0, _⟩ => rfl | ⟨1, _⟩ => rfl
  have hl' : ∀ k : Fin 26, Read.lidx_main_v27 (ix2 p q) k = ix2 p k := fun k => funext fun a => by
    match a with | ⟨0, _⟩ => rfl | ⟨1, _⟩ => rfl
  have hr' : ∀ k : Fin 26, Read.ridx_main_v27 (ix2 p q) k = ix2 k q := fun k => funext fun a => by
    match a with | ⟨0, _⟩ => rfl | ⟨1, _⟩ => rfl
  have hb : Read.idx_main_v24 (Read.idx_main_v25 (ix2 p q)) = ix1 q := funext fun a => by match a with | ⟨0, _⟩ => rfl
  simp only [hl, hr, hl', hr', hb, v22_at, Ideal.maximumf_def, Ideal.addf_def, Ideal.ofBits_def, Ideal.ofBits_zero_f32]
  rw [add_right_comm]

/-- The second in-degree scatter is the first one: the same operation on the same operands. -/
theorem v43_eq (e : IVec S2x3200000 32) : Read.val_main_v43 (F := Ideal) e = Read.val_main_v17 (F := Ideal) e := rfl

/-- The second layer's neighbour sum is `nbr64` of the first layer's activations. -/
theorem v39_eq (x : Mat 100000 26) (e : IVec S2x3200000 32) (W1l : Mat 26 64) (b1 : Vc 64) (W1r : Mat 26 64) :
    Read.val_main_v39 (F := Ideal) x e W1l b1 W1r = nbr64 (Read.val_main_v29 (F := Ideal) x e W1l b1 W1r) e := rfl

/-- The second layer's mean as the reference divides it out. -/
theorem v48_at (x : Mat 100000 26) (e : IVec S2x3200000 32) (W1l : Mat 26 64) (b1 : Vc 64) (W1r : Mat 26 64)
    (p : Fin 100000) (k : Fin 64) :
    Read.val_main_v48 (F := Ideal) x e W1l b1 W1r (ix2 p k)
      = meanDiv (nbr64 (refH1 x e W1l b1 W1r) e) (Read.val_main_v17 (F := Ideal) e) (ix2 p k) := by
  rw [meanDiv_apply, Read.val_main_v48_apply, Read.val_main_v47_apply, Read.val_main_v46_apply, Read.val_main_v45_apply,
    Read.val_main_v44_apply, Read.val_main_cst_9_apply, v43_eq, v39_eq, ref_h1]
  have h : Read.idx_main_v46 (Read.idx_main_v47 (ix2 p k)) = ix1 p := funext fun a => by match a with | ⟨0, _⟩ => rfl
  rw [h, Ideal.hostDivf_def, Ideal.maximumf_def, Ideal.ofBits_def, ofBits_one_f32]

theorem ref_h2 (x : Mat 100000 26) (e : IVec S2x3200000 32) (W1l : Mat 26 64) (b1 : Vc 64) (W1r : Mat 26 64)
    (W2l : Mat 64 64) (b2 : Vc 64) (W2r : Mat 64 64) :
    Read.val_main_v54 (F := Ideal) x e W1l b1 W1r W2l b2 W2r = refH2 x e W1l b1 W1r W2l b2 W2r := by
  funext i
  obtain ⟨p, q, rfl⟩ : ∃ p q, i = ix2 p q := ⟨i 0, i 1, eq_ix2 i⟩
  rw [refH2, dense_apply, if_neg (by decide)]
  rw [Read.val_main_v54_apply, Read.val_main_v52_apply, Read.val_main_v49_apply, Read.val_main_v53_apply,
    Read.val_main_v51_apply, Read.val_main_v50_apply, ref_h1]
  have hl : ∀ k : Fin 64, Read.lidx_main_v49 (ix2 p q) k = ix2 p k := fun k => funext fun a => by
    match a with | ⟨0, _⟩ => rfl | ⟨1, _⟩ => rfl
  have hr : ∀ k : Fin 64, Read.ridx_main_v49 (ix2 p q) k = ix2 k q := fun k => funext fun a => by
    match a with | ⟨0, _⟩ => rfl | ⟨1, _⟩ => rfl
  have hl' : ∀ k : Fin 64, Read.lidx_main_v53 (ix2 p q) k = ix2 p k := fun k => funext fun a => by
    match a with | ⟨0, _⟩ => rfl | ⟨1, _⟩ => rfl
  have hr' : ∀ k : Fin 64, Read.ridx_main_v53 (ix2 p q) k = ix2 k q := fun k => funext fun a => by
    match a with | ⟨0, _⟩ => rfl | ⟨1, _⟩ => rfl
  have hb : Read.idx_main_v50 (Read.idx_main_v51 (ix2 p q)) = ix1 q := funext fun a => by match a with | ⟨0, _⟩ => rfl
  simp only [hl, hr, hl', hr', hb, v48_at, Ideal.addf_def]
  rw [add_right_comm]

/-- The pooled output read at graph `g` and output feature `c`. -/
theorem poolOut_apply (S : Fin 64 → Fin 64 → EReal) (C : Fin 64 → EReal) (Wlin : Mat 64 26) (blin : Vc 26) (g : Fin 64) (c : Fin 26) :
    poolOut S C Wlin blin (ix2 g c) = (∑ l : Fin 64, Ideal.div (S g l) (max (C g) 1) * Wlin (ix2 l c)) + blin (ix1 c) := rfl

/-- The id column the pooling scatters read is the id vector. -/
theorem v56_col (bid : IVec S100000 32) : (fun r : Fin 100000 => Read.val_main_v56 (F := Ideal) bid (ix2 r 0)) = fun r => bid (ix1 r) := by
  funext r
  rw [Read.val_main_v56_apply]
  exact congrArg bid (funext fun a => by match a with | ⟨0, _⟩ => rfl)

theorem v60_col (bid : IVec S100000 32) : (fun r : Fin 100000 => Read.val_main_v60 (F := Ideal) bid (ix2 r 0)) = fun r => bid (ix1 r) := by
  funext r
  rw [Read.val_main_v60_apply]
  exact congrArg bid (funext fun a => by match a with | ⟨0, _⟩ => rfl)

/-- The per-graph sums: the reference's accumulating scatter of the second layer's rows by graph id. -/
theorem v57_at (x : Mat 100000 26) (e : IVec S2x3200000 32) (bid : IVec S100000 32) (W1l : Mat 26 64) (b1 : Vc 64) (W1r : Mat 26 64)
    (W2l : Mat 64 64) (b2 : Vc 64) (W2r : Mat 64 64) (g l : Fin 64) :
    Read.val_main_v57 (F := Ideal) x e bid W1l b1 W1r W2l b2 W2r (ix2 g l)
      = segSum (refH2 x e W1l b1 W1r W2l b2 W2r) (fun r => bid (ix1 r)) g l := by
  unfold Read.val_main_v57
  rw [ref_h2, scatter_segSum _ (fun i => by
    rw [Read.val_main_v55_apply, Read.val_main_cst_10_apply, Ideal.ofBits_def, Ideal.ofBits_zero_f32]), v56_col]

/-- The per-graph node counts: the reference's accumulating scatter of ones by graph id. -/
theorem v61_at (bid : IVec S100000 32) (g : Fin 64) :
    Read.val_main_v61 (F := Ideal) bid (ix1 g) = segCnt (fun r => bid (ix1 r)) g := by
  unfold Read.val_main_v61
  rw [scatter_segCnt _ (fun i => by
      rw [Read.val_main_v59_apply, Read.val_main_cst_12_apply, Ideal.ofBits_def, Ideal.ofBits_zero_f32]) _ _ (fun i => by
      rw [Read.val_main_v58_apply, Read.val_main_cst_11_apply, Ideal.ofBits_def, ofBits_one_f32]), v60_col]

/-- The reference's result is the pooled output of the second layer. -/
theorem ref_value (x : Mat 100000 26) (e : IVec S2x3200000 32) (bid : IVec S100000 32) (W1l : Mat 26 64) (b1 : Vc 64) (W1r : Mat 26 64) (W2l : Mat 64 64) (b2 : Vc 64) (W2r : Mat 64 64) (Wlin : Mat 64 26) (blin : Vc 26) :
    Read.val_main_v70 (F := Ideal) x e bid W1l b1 W1r W2l b2 W2r Wlin blin
      = poolOut (segSum (refH2 x e W1l b1 W1r W2l b2 W2r) (fun r => bid (ix1 r))) (segCnt (fun r => bid (ix1 r))) Wlin blin := by
  funext i
  obtain ⟨g, c, rfl⟩ : ∃ g c, i = ix2 g c := ⟨i 0, i 1, eq_ix2 i⟩
  rw [poolOut_apply, Read.val_main_v70_apply, Read.val_main_v67_apply, Read.val_main_v69_apply, Read.val_main_v68_apply]
  have hl : ∀ k : Fin 64, Read.lidx_main_v67 (ix2 g c) k = ix2 g k := fun k => funext fun a => by
    match a with | ⟨0, _⟩ => rfl | ⟨1, _⟩ => rfl
  have hr : ∀ k : Fin 64, Read.ridx_main_v67 (ix2 g c) k = ix2 k c := fun k => funext fun a => by
    match a with | ⟨0, _⟩ => rfl | ⟨1, _⟩ => rfl
  have hb : Read.idx_main_v68 (Read.idx_main_v69 (ix2 g c)) = ix1 c := funext fun a => by match a with | ⟨0, _⟩ => rfl
  have hd : ∀ k : Fin 64, Read.idx_main_v64 (Read.idx_main_v65 (ix2 g k)) = ix1 g := fun k => funext fun a => by
    match a with | ⟨0, _⟩ => rfl
  simp only [hl, hr, hb, Read.val_main_v66_apply, Read.val_main_v65_apply, Read.val_main_v64_apply, Read.val_main_v63_apply,
    Read.val_main_v62_apply, Read.val_main_cst_13_apply, hd, v57_at, v61_at, Ideal.addf_def, Ideal.hostDivf_def,
    Ideal.maximumf_def, Ideal.ofBits_def, ofBits_one_f32]

end Cert.Sage

end
-- ==== Proof.KernelIdeal.KHost.lean ====
/- What the kernel program's three stretches of host operations write, as functions of the contents they start from:
   the first layer's neighbourhood mean (the neighbour sum times the reciprocal of the clamped in-degree), the edge
   rows and the reciprocal that the second stretch reads again, the second layer's mean likewise, and the graph ids as
   a column. The gathers and the accumulating scatters are the reference's own, on the same operands. -/
import proofs.«415661_j14705968022324_1_alg».proof.Proof.Gen.KernelIdeal.Launch
import proofs.«415661_j14705968022324_1_alg».proof.Proof.RefVal
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx

/-- The contents a valuation gives a TensorCore reference. -/
abbrev rd (W : Valuation τ sig (Elt Ideal)) (b : Ref sig .tc) : b.ty.Contents (Elt Ideal) := W (Proc.devRef .tc b)

/-- The third stretch writes the graph ids as a column: its row `r` is id `r`. -/
theorem host2_v40 (W : Valuation τ sig (Elt Ideal)) (r : Fin 100000) :
    (StableHlo.after (hostOps2 (F := Ideal)) W (Proc.devRef .tc main_v40) : IVec S100000x1 32) (ix2 r 0)
      = (rd W main_arg2 : IVec S100000 32) (ix1 r) := by
  after_results
  show shapeCast S100000x1 (W (Proc.devRef .tc main_arg2) : IVec S100000 32) shapeCasts_S100000_S100000x1 (ix2 r 0) = _
  exact shapeCast_apply _ shapeCasts_S100000_S100000x1 (ix2 r 0) (ix1 r)
    (by rewrite [Shape.rowMajor_val_two, Shape.rowMajor_val_one]; show r.val = r.val * 1 + 0; omega)

/-- The first stretch's first edge row (the sources), as the reference slices it. -/
theorem host0_v1 (W : Valuation τ sig (Elt Ideal)) :
    StableHlo.after (hostOps0 (F := Ideal)) W (Proc.devRef .tc main_v1)
      = Cert.ReferenceIdeal.Read.val_main_v1 (F := Ideal) (rd W main_arg1) := by
  after_results
  rfl

/-- The first stretch's second edge row (the destinations), as the reference slices it. -/
theorem host0_v3 (W : Valuation τ sig (Elt Ideal)) :
    StableHlo.after (hostOps0 (F := Ideal)) W (Proc.devRef .tc main_v3)
      = Cert.ReferenceIdeal.Read.val_main_v3 (F := Ideal) (rd W main_arg1) := by
  after_results
  rfl

/-- The kernel's in-degree is the reference's: the same accumulating scatter of ones by the destinations. -/
theorem host0_v7 (W : Valuation τ sig (Elt Ideal)) :
    StableHlo.after (hostOps0 (F := Ideal)) W (Proc.devRef .tc main_v7)
      = Cert.ReferenceIdeal.Read.val_main_v17 (F := Ideal) (rd W main_arg1) := by
  after_results
  rfl

/-- The reciprocal of a degree vector clamped at one, as the kernel's operations spell it, read at an index. -/
theorem recip_apply (d : Cert.Sage.Vc 100000) (i : S100000.Idx) :
    Host.divf (F := Ideal) (φ := .f32) (broadcastInDim S100000 ![] bcast_S_S100000 (constant (F := Ideal) S_ .f32 0x3F800000#32))
        (maximumf (F := Ideal) d (broadcastInDim S100000 ![] bcast_S_S100000 (constant (F := Ideal) S_ .f32 0x3F800000#32))) i
      = Ideal.div 1 (max (d i) 1) := by
  show Ideal.div (broadcastInDim S100000 ![] bcast_S_S100000 (constant (F := Ideal) S_ .f32 0x3F800000#32) i)
      (max (d i) (broadcastInDim S100000 ![] bcast_S_S100000 (constant (F := Ideal) S_ .f32 0x3F800000#32) i)) = _
  rw [broadcastInDim_apply _ bcast_S_S100000 _ i ix0 (fun a => a.elim0), constant_apply, Cert.Sage.ofBits_one_f32]

/-- The reciprocal of the clamped in-degree, which both layers' means multiply by. -/
theorem host0_v11 (W : Valuation τ sig (Elt Ideal)) :
    (StableHlo.after (hostOps0 (F := Ideal)) W (Proc.devRef .tc main_v11) : Cert.Sage.Vc 100000)
      = fun i => Ideal.div 1 (max (Cert.ReferenceIdeal.Read.val_main_v17 (F := Ideal) (rd W main_arg1) i) 1) := by
  after_results
  funext i
  exact recip_apply (Cert.ReferenceIdeal.Read.val_main_v17 (F := Ideal) (rd W main_arg1)) i

/-- A degree-indexed vector broadcast along the rows of a matrix, read at node `p` and feature `k`. -/
theorem rowBcast_apply {n : Nat} (h : S100000x1.BroadcastsInDim (⟨2, ![100000, n]⟩ : Shape) (![0, 1] : Fin 2 → Fin 2))
    (rc : Cert.Sage.Vc 100000) (p : Fin 100000) (k : Fin n) :
    broadcastInDim (⟨2, ![100000, n]⟩ : Shape) (![0, 1] : Fin 2 → Fin 2) h
        (broadcastInDim S100000x1 ![0] bcast_S100000_S100000x1_0 rc) (ix2 p k) = rc (ix1 p) := by
  rw [broadcastInDim_apply _ h _ (ix2 p k) (ix2 p 0) (fun a => match a with
      | ⟨0, _⟩ => by show p.val = if (100000 : Nat) = 1 then 0 else p.val; rw [if_neg (by decide)]
      | ⟨1, _⟩ => by show 0 = if (1 : Nat) = 1 then 0 else k.val; rw [if_pos rfl]),
    broadcastInDim_apply _ bcast_S100000_S100000x1_0 _ (ix2 p 0) (ix1 p) (fun a => match a with
      | ⟨0, _⟩ => by show p.val = if (100000 : Nat) = 1 then 0 else p.val; rw [if_neg (by decide)])]

/-- A neighbour sum times the broadcast reciprocal of the clamped degree is the mean as the kernel spells it. -/
theorem mul_rowBcast_eq_meanMul {n : Nat} (h : S100000x1.BroadcastsInDim (⟨2, ![100000, n]⟩ : Shape) (![0, 1] : Fin 2 → Fin 2))
    (s : Cert.Sage.Mat 100000 n) (d : Cert.Sage.Vc 100000) :
    mulf (F := Ideal) (φ := .f32) s (broadcastInDim (⟨2, ![100000, n]⟩ : Shape) (![0, 1] : Fin 2 → Fin 2) h
        (broadcastInDim S100000x1 ![0] bcast_S100000_S100000x1_0 (fun i => Ideal.div 1 (max (d i) 1))))
      = Cert.Sage.meanMul s d := by
  funext i
  obtain ⟨p, k, rfl⟩ : ∃ p k, i = ix2 p k := ⟨i 0, i 1, eq_ix2 i⟩
  show s (ix2 p k) * _ = s (ix2 p k) * Ideal.div 1 (max (d (ix1 p)) 1)
  rw [rowBcast_apply h _ p k]

/-- The first stretch writes the first layer's mean: the reference's neighbour sum of the input rows times the
    reciprocal of its clamped in-degree. -/
theorem host0_v24 (W : Valuation τ sig (Elt Ideal)) :
    (StableHlo.after (hostOps0 (F := Ideal)) W (Proc.devRef .tc main_v24) : Cert.Sage.Mat 100000 26)
      = Cert.Sage.meanMul (n := 26) (Cert.ReferenceIdeal.Read.val_main_v13 (F := Ideal) (rd W main_arg0) (rd W main_arg1))
          (Cert.ReferenceIdeal.Read.val_main_v17 (F := Ideal) (rd W main_arg1)) := by
  after_results_simp
  refine Eq.trans ?_ (mul_rowBcast_eq_meanMul bcast_S100000x1_S100000x26_0_1 _ _)
  refine congrArg (mulf (F := Ideal) (φ := .f32) _) (congrArg _ (congrArg _ ?_))
  funext i
  exact recip_apply (Cert.ReferenceIdeal.Read.val_main_v17 (F := Ideal) (rd W main_arg1)) i

/-- The second stretch writes the second layer's mean: the neighbour sum (the reference's gather and accumulating
    scatter) of what the first region left, times the reciprocal of the clamped in-degree; it reads the edge rows and
    the reciprocal that the first stretch wrote. -/
theorem host1_v38 (W : Valuation τ sig (Elt Ideal)) (e : IVec S2x3200000 32)
    (h1 : rd W main_v1 = Cert.ReferenceIdeal.Read.val_main_v1 (F := Ideal) e)
    (h3 : rd W main_v3 = Cert.ReferenceIdeal.Read.val_main_v3 (F := Ideal) e)
    (h11 : (rd W main_v11 : Cert.Sage.Vc 100000) = fun i => Ideal.div 1 (max (Cert.ReferenceIdeal.Read.val_main_v17 (F := Ideal) e i) 1)) :
    (StableHlo.after (hostOps1 (F := Ideal)) W (Proc.devRef .tc main_v38) : Cert.Sage.Mat 100000 64)
      = Cert.Sage.meanMul (n := 64) (Cert.Sage.nbr64 (rd W main_v25) e) (Cert.ReferenceIdeal.Read.val_main_v17 (F := Ideal) e) := by
  after_results_simp
  have h1' : W (Proc.devRef .tc main_v1) = Cert.ReferenceIdeal.Read.val_main_v1 (F := Ideal) e := h1
  have h3' : W (Proc.devRef .tc main_v3) = Cert.ReferenceIdeal.Read.val_main_v3 (F := Ideal) e := h3
  have h11' : (W (Proc.devRef .tc main_v11) : Cert.Sage.Vc 100000) = fun i => Ideal.div 1 (max (Cert.ReferenceIdeal.Read.val_main_v17 (F := Ideal) e i) 1) := h11
  rw [h1', h3', h11']
  exact mul_rowBcast_eq_meanMul bcast_S100000x1_S100000x64_0_1 _ _

end Cert.KernelIdeal.Hand

end
-- ==== Proof.KernelIdeal.KLayers.lean ====
/- The buffers' contents followed through the kernel program's first four segments: the first stretch of host operations
   leaves the first layer's mean (times a reciprocal where the reference divides: the two agree); region 0 leaves the first
   layer's activations; the second stretch the second layer's mean of those; region 1 the second layer's output. Each is the
   reference's stage of the launch contents. -/
import proofs.«415661_j14705968022324_1_alg».proof.Proof.KernelIdeal.Fold
import proofs.«415661_j14705968022324_1_alg».proof.Proof.KernelIdeal.Val0
import proofs.«415661_j14705968022324_1_alg».proof.Proof.KernelIdeal.Val1
import proofs.«415661_j14705968022324_1_alg».proof.Proof.KernelIdeal.KHost
import proofs.«415661_j14705968022324_1_alg».proof.Proof.RefVal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Sage Idealize.ShloMosaic.ValueIdx

variable (m : (ℓ : Loc nD τ sig) → Buf (Elt Ideal) ℓ) (ρ : Dev nD → PrngReg)

/-- Every execution ends with the result buffer at the last boundary's contents and the arguments as launched. -/
theorem run_out : θ_run (defs (F := Ideal)) (onTc (τ := τ) (main (F := Ideal))) ⟨m, fun _ => 0, ρ⟩ (fun r => ∀ c : Dev nD,
      r.2.mem ((c.tc : Thread nD τ).loc main_v41) = Vx6 m ρ c main_v41
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v41 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c)⟩) (run_all m ρ)

section Value

variable (c : Dev nD)

/-- Region 0 leaves the first layer's activations: the reference's stage of the launch contents. -/
theorem first_layer :
    W2 m ρ c (Proc.devRef .tc main_v25) = refH1 (m ((c : Thread nD τ).loc main_arg0)) (m ((c : Thread nD τ).loc main_arg1)) (m ((c : Thread nD τ).loc main_arg3)) (m ((c : Thread nD τ).loc main_arg4)) (m ((c : Thread nD τ).loc main_arg5)) := by
  rw [W2_v25 m ρ c, arr0 (Vr1 m ρ) c]
  have e24 := host0_v24 (W0 m ρ c)
  rw [show Vr1 m ρ c main_v24 = _ from e24,
    Vr1_arg m ρ c main_arg0 (by decide), Vr1_arg m ρ c main_arg3 (by decide), Vr1_arg m ρ c main_arg4 (by decide),
    Vr1_arg m ρ c main_arg5 (by decide), meanMul_eq_meanDiv]
  rfl

/-- What the first stretch wrote for the second to read is still there after region 0. -/
theorem keep_v1 : W2 m ρ c (Proc.devRef .tc main_v1) = Cert.ReferenceIdeal.Read.val_main_v1 (F := Ideal) (m ((c : Thread nD τ).loc main_arg1)) :=
  (W2_keep m ρ c main_v1 (by decide)).trans (host0_v1 (W0 m ρ c))
theorem keep_v3 : W2 m ρ c (Proc.devRef .tc main_v3) = Cert.ReferenceIdeal.Read.val_main_v3 (F := Ideal) (m ((c : Thread nD τ).loc main_arg1)) :=
  (W2_keep m ρ c main_v3 (by decide)).trans (host0_v3 (W0 m ρ c))
theorem keep_v11 : W2 m ρ c (Proc.devRef .tc main_v11)
    = fun i => Ideal.div 1 (max (Cert.ReferenceIdeal.Read.val_main_v17 (F := Ideal) (m ((c : Thread nD τ).loc main_arg1)) i) 1) :=
  (W2_keep m ρ c main_v11 (by decide)).trans (host0_v11 (W0 m ρ c))

/-- Region 1 leaves the second layer's output: the reference's stage of the launch contents. -/
theorem second_layer :
    W4 m ρ c (Proc.devRef .tc main_v39)
      = refH2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W4_arr m ρ c 5, arr1 (Vr3 m ρ) c]
  have e38 := host1_v38 (W2 m ρ c) (m ((c : Thread nD τ).loc main_arg1)) (keep_v1 m ρ c) (keep_v3 m ρ c) (keep_v11 m ρ c)
  rw [show rd (W2 m ρ c) main_v25 = _ from first_layer m ρ c] at e38
  rw [show Vr3 m ρ c main_v38 = _ from e38, Vr3_v25 m ρ c, ← W2_v25 m ρ c, first_layer m ρ c,
    Vr3_arg m ρ c main_arg6 (by decide) (by decide) (by decide), Vr3_arg m ρ c main_arg7 (by decide) (by decide) (by decide),
    Vr3_arg m ρ c main_arg8 (by decide) (by decide) (by decide), meanMul_eq_meanDiv]
  rfl

/-- The graph ids are still the launch contents when the third stretch reads them. -/
theorem W4_arg2 : W4 m ρ c (Proc.devRef .tc main_arg2) = m ((c : Thread nD τ).loc main_arg2) :=
  (W4_of_ne m ρ c main_arg2 (by decide)).trans ((W3_of m ρ c main_arg2 (by decide)).trans
    ((W2_of_ne m ρ c main_arg2 (by decide)).trans ((W1_of m ρ c main_arg2 (by decide)).trans rfl)))

end Value

end Cert.KernelIdeal.Hand

end
-- ==== Proof.KernelIdeal.Val2Pieces.lean ====
/- Region 2 (per-graph pooling), what each case of its body leaves in its buffers, as values: the sums' scratch ends at
   "what it held, plus the transposed indicator times the block's rows", the counts' scratch at "what it held, plus the
   transposed indicator times a column of ones" — at point 0 what they held is the zero just stored —, and at point 49
   the output window ends at the pooled linear layer of those two sums. -/
import proofs.«415661_j14705968022324_1_alg».proof.Proof.KernelIdeal.Reg2
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat)
open Cert.KernelIdeal Cert.KernelIdeal.Gen

variable {F : FTy → Type} [FloatOps F]

/-- The zero offsets of a whole rank-2 access. -/
theorem hz2_2 : (![0, 0] : Fin 2 → Nat) = fun _ => 0 := funext fun a => by fin_cases a <;> rfl
/-- The zero offset of a whole rank-1 access. -/
theorem hz2_1 : (![0] : Fin 1 → Nat) = fun _ => 0 := funext fun a => by fin_cases a <;> rfl

/-- Point 0, the sums: the zero block is stored, read back, and the block's contribution added to it. -/
theorem sout2_A_0_eq (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i) (x0 : Vec F S2000x64 .f32) (x1 : Vec F S2000x1 .i32) (x2 : Vec F S64x26 .f32) (x3 : Vec F S26 .f32) :
    sout2_A_0 c i arg1 harg1 arg2 harg2 arg3 harg3 arg4 harg4 arg5 harg5 arg6 harg6 arg7 harg7 hc0 hc1 x0 x1 x2 x3 = k2_pay4 x1 x0 (k2_pay1 (F := F)) := by
  unfold sout2_A_0
  rw [View.read_writes_eq_canon _ _ _ (scover2_A_0 c i arg1 harg1 arg2 harg2 arg3 harg3 arg4 harg4 arg5 harg5 arg6 harg6 arg7 harg7 hc0 hc1 x0 x1 x2 x3)]
  unfold kernelRun2_A
  dsimp only
  sl_unfold_words
  rw [View.canon_cons_unit_zero (S := S64x64) hz2_2, View.readCov_unit_zero (S := S64x64) _ hz2_2]
  simp only [View.readAt_eq_ld, harg1.read_unread, harg2.read_unread, View.ld_unit_zero (S := S2000x64) hz2_2, View.ld_unit_zero (S := S2000x1) hz2_2]

/-- Point 0, the counts: the zero column is stored, read back, and the block's counts added to it. -/
theorem sout2_A_1_eq (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : cond2_0 i) (hc1 : ¬cond2_1 i) (x0 : Vec F S2000x64 .f32) (x1 : Vec F S2000x1 .i32) (x2 : Vec F S64x26 .f32) (x3 : Vec F S26 .f32) :
    sout2_A_1 c i arg1 harg1 arg2 harg2 arg3 harg3 arg4 harg4 arg5 harg5 arg6 harg6 arg7 harg7 hc0 hc1 x0 x1 x2 x3 = k2_pay5 x1 (k2_pay2 (F := F)) := by
  unfold sout2_A_1
  rw [View.read_writes_eq_canon _ _ _ (scover2_A_1 c i arg1 harg1 arg2 harg2 arg3 harg3 arg4 harg4 arg5 harg5 arg6 harg6 arg7 harg7 hc0 hc1 x0 x1 x2 x3)]
  unfold kernelRun2_A
  dsimp only
  sl_unfold_words
  rw [View.canon_cons_unit_zero (S := S64x1) hz2_2, View.readCov_unit_zero (S := S64x1) _ hz2_2]
  simp only [View.readAt_eq_ld, harg1.read_unread, harg2.read_unread, View.ld_unit_zero (S := S2000x64) hz2_2, View.ld_unit_zero (S := S2000x1) hz2_2]

/-- A point between, the sums: the block's contribution added to what the scratch held. -/
theorem sout2_B_0_eq (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i) (x0 : Vec F S2000x64 .f32) (x1 : Vec F S2000x1 .i32) (x2 : Vec F S64x26 .f32) (x3 : Vec F S26 .f32) (xs0 : Vec F S64x64 .f32) (xs1 : Vec F S64x1 .f32) :
    sout2_B_0 c i arg1 harg1 arg2 harg2 arg3 harg3 arg4 harg4 arg5 harg5 arg6 harg6 arg7 harg7 hc0 hc1 x0 x1 x2 x3 xs0 xs1 = k2_pay4 x1 x0 xs0 := by
  unfold sout2_B_0
  rw [View.read_writes_eq_canon _ _ _ (scover2_B_0 c i arg1 harg1 arg2 harg2 arg3 harg3 arg4 harg4 arg5 harg5 arg6 harg6 arg7 harg7 hc0 hc1 x0 x1 x2 x3 xs0 xs1)]
  unfold kernelRun2_B
  dsimp only
  sl_unfold_words
  rw [View.canon_unit_zero hz2_2]
  simp only [View.readAt_eq_ld, harg1.read_unread, harg2.read_unread, harg6.read_unread, View.ld_unit_zero (S := S2000x64) hz2_2, View.ld_unit_zero (S := S2000x1) hz2_2, View.ld_unit_zero (S := S64x64) hz2_2]

/-- A point between, the counts: the block's counts added to what the scratch held. -/
theorem sout2_B_1_eq (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : ¬cond2_1 i) (x0 : Vec F S2000x64 .f32) (x1 : Vec F S2000x1 .i32) (x2 : Vec F S64x26 .f32) (x3 : Vec F S26 .f32) (xs0 : Vec F S64x64 .f32) (xs1 : Vec F S64x1 .f32) :
    sout2_B_1 c i arg1 harg1 arg2 harg2 arg3 harg3 arg4 harg4 arg5 harg5 arg6 harg6 arg7 harg7 hc0 hc1 x0 x1 x2 x3 xs0 xs1 = k2_pay5 x1 xs1 := by
  unfold sout2_B_1
  rw [View.read_writes_eq_canon _ _ _ (scover2_B_1 c i arg1 harg1 arg2 harg2 arg3 harg3 arg4 harg4 arg5 harg5 arg6 harg6 arg7 harg7 hc0 hc1 x0 x1 x2 x3 xs0 xs1)]
  unfold kernelRun2_B
  dsimp only
  sl_unfold_words
  rw [View.canon_unit_zero hz2_2]
  simp only [View.readAt_eq_ld, harg2.read_unread, harg7.read_unread, View.ld_unit_zero (S := S2000x1) hz2_2, View.ld_unit_zero (S := S64x1) hz2_2]

/-- Point 49, the sums: as at a point between. -/
theorem sout2_C_0_eq (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i) (x0 : Vec F S2000x64 .f32) (x1 : Vec F S2000x1 .i32) (x2 : Vec F S64x26 .f32) (x3 : Vec F S26 .f32) (xs0 : Vec F S64x64 .f32) (xs1 : Vec F S64x1 .f32) :
    sout2_C_0 c i arg1 harg1 arg2 harg2 arg3 harg3 arg4 harg4 arg5 harg5 arg6 harg6 arg7 harg7 hc0 hc1 x0 x1 x2 x3 xs0 xs1 = k2_pay4 x1 x0 xs0 := by
  unfold sout2_C_0
  rw [View.read_writes_eq_canon _ _ _ (scover2_C_0 c i arg1 harg1 arg2 harg2 arg3 harg3 arg4 harg4 arg5 harg5 arg6 harg6 arg7 harg7 hc0 hc1 x0 x1 x2 x3 xs0 xs1)]
  unfold kernelRun2_C
  dsimp only
  sl_unfold_words
  rw [View.canon_unit_zero hz2_2]
  simp only [View.readAt_eq_ld, harg1.read_unread, harg2.read_unread, harg6.read_unread, View.ld_unit_zero (S := S2000x64) hz2_2, View.ld_unit_zero (S := S2000x1) hz2_2, View.ld_unit_zero (S := S64x64) hz2_2]

/-- Point 49, the counts: as at a point between. -/
theorem sout2_C_1_eq (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i) (x0 : Vec F S2000x64 .f32) (x1 : Vec F S2000x1 .i32) (x2 : Vec F S64x26 .f32) (x3 : Vec F S26 .f32) (xs0 : Vec F S64x64 .f32) (xs1 : Vec F S64x1 .f32) :
    sout2_C_1 c i arg1 harg1 arg2 harg2 arg3 harg3 arg4 harg4 arg5 harg5 arg6 harg6 arg7 harg7 hc0 hc1 x0 x1 x2 x3 xs0 xs1 = k2_pay5 x1 xs1 := by
  unfold sout2_C_1
  rw [View.read_writes_eq_canon _ _ _ (scover2_C_1 c i arg1 harg1 arg2 harg2 arg3 harg3 arg4 harg4 arg5 harg5 arg6 harg6 arg7 harg7 hc0 hc1 x0 x1 x2 x3 xs0 xs1)]
  unfold kernelRun2_C
  dsimp only
  sl_unfold_words
  rw [View.canon_unit_zero hz2_2]
  simp only [View.readAt_eq_ld, harg2.read_unread, harg7.read_unread, View.ld_unit_zero (S := S2000x1) hz2_2, View.ld_unit_zero (S := S64x1) hz2_2]

/-- Point 49, the output window: the pooled linear layer of the sums and counts just stored (the loads after the two
    accumulating stores read those back), the weight matrix and the bias. -/
theorem out2_C_4_eq (c : Dev nD) (i : grid2.Coords) (arg1 : Memref sig .tc .vmem S2000x64 .f32) (harg1 : arg1.IsWhole) (arg2 : Memref sig .tc .vmem S2000x1 .i32) (harg2 : arg2.IsWhole) (arg3 : Memref sig .tc .vmem S64x26 .f32) (harg3 : arg3.IsWhole) (arg4 : Memref sig .tc .vmem S26 .f32) (harg4 : arg4.IsWhole) (arg5 : Memref sig .tc .vmem S64x26 .f32) (harg5 : arg5.IsWhole) (arg6 : Memref sig .tc .vmem S64x64 .f32) (harg6 : arg6.IsWhole) (arg7 : Memref sig .tc .vmem S64x1 .f32) (harg7 : arg7.IsWhole) (hc0 : ¬cond2_0 i) (hc1 : cond2_1 i) (x0 : Vec F S2000x64 .f32) (x1 : Vec F S2000x1 .i32) (x2 : Vec F S64x26 .f32) (x3 : Vec F S26 .f32) (xs0 : Vec F S64x64 .f32) (xs1 : Vec F S64x1 .f32) :
    out2_C_4 c i arg1 harg1 arg2 harg2 arg3 harg3 arg4 harg4 arg5 harg5 arg6 harg6 arg7 harg7 hc0 hc1 x0 x1 x2 x3 xs0 xs1 = k2_pay6 (k2_pay5 x1 xs1) (k2_pay4 x1 x0 xs0) x2 x3 := by
  unfold out2_C_4
  rw [View.read_writes_eq_canon _ _ _ (cover2_C_4 c i arg1 harg1 arg2 harg2 arg3 harg3 arg4 harg4 arg5 harg5 arg6 harg6 arg7 harg7 hc0 hc1 x0 x1 x2 x3 xs0 xs1)]
  unfold kernelRun2_C
  dsimp only
  sl_unfold_words
  rw [View.canon_unit_zero hz2_2]
  simp only [View.readAt_eq_ld, harg1.read_unread, harg2.read_unread, harg3.read_unread, harg4.read_unread, harg6.read_unread, harg7.read_unread,
    View.readCov_unit_zero (S := S64x1) _ hz2_2, View.readCov_unit_zero (S := S64x64) _ hz2_2,
    View.ld_unit_zero (S := S2000x64) hz2_2, View.ld_unit_zero (S := S2000x1) hz2_2, View.ld_unit_zero (S := S64x64) hz2_2,
    View.ld_unit_zero (S := S64x1) hz2_2, View.ld_unit_zero (S := S64x26) hz2_2, View.ld_unit_zero (S := S26) hz2_1]

end Cert.KernelIdeal.Hand

end
-- ==== Proof.KernelIdeal.Val2Pay.lean ====
/- Region 2's arithmetic at an index, over the extended reals: the zero splats; the 0/1 indicator built from a block's
   ids; the two accumulating stores (what the scratch held plus the transposed indicator times the block's rows, or times
   a column of ones); and the pooled linear layer point 49 stores (each graph's sums divided by its count clamped at one,
   times the weight matrix, plus the bias). Every product is into a zero accumulator, so it is the plain sum of products. -/
import proofs.«415661_j14705968022324_1_alg».proof.Proof.Gen.KernelIdeal.Skeleton
import proofs.«415661_j14705968022324_1_alg».proof.Proof.Spec
import proofs.«415661_j14705968022324_1_alg».proof.Proof.Seg
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

/-! ## The three products at a row and a column -/

/-- The left operand's row is the output's row, -/
theorem lhs_sum_0 (i : S64x64.Idx) (q : dot_S64x2000_S2000x64_S64x64_1_0_0_1_n_n.contr.Idx) :
    (dot_S64x2000_S2000x64_S64x64_1_0_0_1_n_n.lhsIdx i q 0).val = (i 0).val := by
  unfold DotDims.lhsIdx
  rw [dif_neg (show ¬(0 : Fin S64x2000.rank) ∈ dot_S64x2000_S2000x64_S64x64_1_0_0_1_n_n.lhsBatch by decide), dif_pos (show (0 : Fin S64x2000.rank) ∈ dot_S64x2000_S2000x64_S64x64_1_0_0_1_n_n.lhsNonContracting by decide)]
  rfl
/-- its column the contracted index; -/
theorem lhs_sum_1 (i : S64x64.Idx) (q : dot_S64x2000_S2000x64_S64x64_1_0_0_1_n_n.contr.Idx) :
    (dot_S64x2000_S2000x64_S64x64_1_0_0_1_n_n.lhsIdx i q 1).val = (q ⟨0, by decide⟩).val :=
  dot_S64x2000_S2000x64_S64x64_1_0_0_1_n_n.lhsIdx_val_of_single rfl i q
/-- the right operand's row is the contracted index, -/
theorem rhs_sum_0 (i : S64x64.Idx) (q : dot_S64x2000_S2000x64_S64x64_1_0_0_1_n_n.contr.Idx) :
    (dot_S64x2000_S2000x64_S64x64_1_0_0_1_n_n.rhsIdx i q 0).val = (q ⟨0, by decide⟩).val :=
  dot_S64x2000_S2000x64_S64x64_1_0_0_1_n_n.rhsIdx_val_of_single rfl i q
/-- its column the output's column. -/
theorem rhs_sum_1 (i : S64x64.Idx) (q : dot_S64x2000_S2000x64_S64x64_1_0_0_1_n_n.contr.Idx) :
    (dot_S64x2000_S2000x64_S64x64_1_0_0_1_n_n.rhsIdx i q 1).val = (i 1).val := by
  unfold DotDims.rhsIdx
  rw [dif_neg (show ¬(1 : Fin S2000x64.rank) ∈ dot_S64x2000_S2000x64_S64x64_1_0_0_1_n_n.rhsBatch by decide), dif_pos (show (1 : Fin S2000x64.rank) ∈ dot_S64x2000_S2000x64_S64x64_1_0_0_1_n_n.rhsNonContracting by decide)]
  rfl

/-- A 64×2000 matrix times a 2000×64 matrix, into a zero accumulator, at row `p` and column `q`: the sum over the
    2000 contracted indices of the products. -/
theorem mm_sum_apply (l : FVec Ideal S64x2000 .bf16) (r : FVec Ideal S2000x64 .bf16) (p : Fin 64) (q : Fin 64) :
    matmul dot_S64x2000_S2000x64_S64x64_1_0_0_1_n_n none l r (constant (F := Ideal) S64x64 .f32 0x00000000#32) (ix2 p q)
      = ∑ k : Fin 2000, l (ix2 p k) * r (ix2 k q) := by
  simp only [matmul]
  rw [Ideal.matmul_constant_zero_apply, ← Equiv.sum_comp (contrEquiv1 dot_S64x2000_S2000x64_S64x64_1_0_0_1_n_n 2000 rfl rfl).symm]
  refine Finset.sum_congr rfl fun k _ => ?_
  have hk := contrEquiv1_symm_val dot_S64x2000_S2000x64_S64x64_1_0_0_1_n_n 2000 rfl rfl k
  have el : dot_S64x2000_S2000x64_S64x64_1_0_0_1_n_n.lhsIdx (ix2 p q) ((contrEquiv1 dot_S64x2000_S2000x64_S64x64_1_0_0_1_n_n 2000 rfl rfl).symm k) = ix2 p k := funext fun a => Fin.ext (by
    match a with
    | ⟨0, _⟩ => exact lhs_sum_0 _ _
    | ⟨1, _⟩ => exact (lhs_sum_1 _ _).trans hk)
  have er : dot_S64x2000_S2000x64_S64x64_1_0_0_1_n_n.rhsIdx (ix2 p q) ((contrEquiv1 dot_S64x2000_S2000x64_S64x64_1_0_0_1_n_n 2000 rfl rfl).symm k) = ix2 k q := funext fun a => Fin.ext (by
    match a with
    | ⟨0, _⟩ => exact (rhs_sum_0 _ _).trans hk
    | ⟨1, _⟩ => exact rhs_sum_1 _ _)
  rw [el, er]

/-- The left operand's row is the output's row, -/
theorem lhs_cnt_0 (i : S64x1.Idx) (q : dot_S64x2000_S2000x1_S64x1_1_0_0_1_n_n.contr.Idx) :
    (dot_S64x2000_S2000x1_S64x1_1_0_0_1_n_n.lhsIdx i q 0).val = (i 0).val := by
  unfold DotDims.lhsIdx
  rw [dif_neg (show ¬(0 : Fin S64x2000.rank) ∈ dot_S64x2000_S2000x1_S64x1_1_0_0_1_n_n.lhsBatch by decide), dif_pos (show (0 : Fin S64x2000.rank) ∈ dot_S64x2000_S2000x1_S64x1_1_0_0_1_n_n.lhsNonContracting by decide)]
  rfl
/-- its column the contracted index; -/
theorem lhs_cnt_1 (i : S64x1.Idx) (q : dot_S64x2000_S2000x1_S64x1_1_0_0_1_n_n.contr.Idx) :
    (dot_S64x2000_S2000x1_S64x1_1_0_0_1_n_n.lhsIdx i q 1).val = (q ⟨0, by decide⟩).val :=
  dot_S64x2000_S2000x1_S64x1_1_0_0_1_n_n.lhsIdx_val_of_single rfl i q
/-- the right operand's row is the contracted index, -/
theorem rhs_cnt_0 (i : S64x1.Idx) (q : dot_S64x2000_S2000x1_S64x1_1_0_0_1_n_n.contr.Idx) :
    (dot_S64x2000_S2000x1_S64x1_1_0_0_1_n_n.rhsIdx i q 0).val = (q ⟨0, by decide⟩).val :=
  dot_S64x2000_S2000x1_S64x1_1_0_0_1_n_n.rhsIdx_val_of_single rfl i q
/-- its column the output's column. -/
theorem rhs_cnt_1 (i : S64x1.Idx) (q : dot_S64x2000_S2000x1_S64x1_1_0_0_1_n_n.contr.Idx) :
    (dot_S64x2000_S2000x1_S64x1_1_0_0_1_n_n.rhsIdx i q 1).val = (i 1).val := by
  unfold DotDims.rhsIdx
  rw [dif_neg (show ¬(1 : Fin S2000x1.rank) ∈ dot_S64x2000_S2000x1_S64x1_1_0_0_1_n_n.rhsBatch by decide), dif_pos (show (1 : Fin S2000x1.rank) ∈ dot_S64x2000_S2000x1_S64x1_1_0_0_1_n_n.rhsNonContracting by decide)]
  rfl

/-- A 64×2000 matrix times a 2000×1 matrix, into a zero accumulator, at row `p` and column `q`: the sum over the
    2000 contracted indices of the products. -/
theorem mm_cnt_apply (l : FVec Ideal S64x2000 .bf16) (r : FVec Ideal S2000x1 .bf16) (p : Fin 64) (q : Fin 1) :
    matmul dot_S64x2000_S2000x1_S64x1_1_0_0_1_n_n none l r (constant (F := Ideal) S64x1 .f32 0x00000000#32) (ix2 p q)
      = ∑ k : Fin 2000, l (ix2 p k) * r (ix2 k q) := by
  simp only [matmul]
  rw [Ideal.matmul_constant_zero_apply, ← Equiv.sum_comp (contrEquiv1 dot_S64x2000_S2000x1_S64x1_1_0_0_1_n_n 2000 rfl rfl).symm]
  refine Finset.sum_congr rfl fun k _ => ?_
  have hk := contrEquiv1_symm_val dot_S64x2000_S2000x1_S64x1_1_0_0_1_n_n 2000 rfl rfl k
  have el : dot_S64x2000_S2000x1_S64x1_1_0_0_1_n_n.lhsIdx (ix2 p q) ((contrEquiv1 dot_S64x2000_S2000x1_S64x1_1_0_0_1_n_n 2000 rfl rfl).symm k) = ix2 p k := funext fun a => Fin.ext (by
    match a with
    | ⟨0, _⟩ => exact lhs_cnt_0 _ _
    | ⟨1, _⟩ => exact (lhs_cnt_1 _ _).trans hk)
  have er : dot_S64x2000_S2000x1_S64x1_1_0_0_1_n_n.rhsIdx (ix2 p q) ((contrEquiv1 dot_S64x2000_S2000x1_S64x1_1_0_0_1_n_n 2000 rfl rfl).symm k) = ix2 k q := funext fun a => Fin.ext (by
    match a with
    | ⟨0, _⟩ => exact (rhs_cnt_0 _ _).trans hk
    | ⟨1, _⟩ => exact rhs_cnt_1 _ _)
  rw [el, er]

/-- The left operand's row is the output's row, -/
theorem lhs_lin_0 (i : S64x26.Idx) (q : dot_S64x64_S64x26_S64x26_1_0_0_1_n_n.contr.Idx) :
    (dot_S64x64_S64x26_S64x26_1_0_0_1_n_n.lhsIdx i q 0).val = (i 0).val := by
  unfold DotDims.lhsIdx
  rw [dif_neg (show ¬(0 : Fin S64x64.rank) ∈ dot_S64x64_S64x26_S64x26_1_0_0_1_n_n.lhsBatch by decide), dif_pos (show (0 : Fin S64x64.rank) ∈ dot_S64x64_S64x26_S64x26_1_0_0_1_n_n.lhsNonContracting by decide)]
  rfl
/-- its column the contracted index; -/
theorem lhs_lin_1 (i : S64x26.Idx) (q : dot_S64x64_S64x26_S64x26_1_0_0_1_n_n.contr.Idx) :
    (dot_S64x64_S64x26_S64x26_1_0_0_1_n_n.lhsIdx i q 1).val = (q ⟨0, by decide⟩).val :=
  dot_S64x64_S64x26_S64x26_1_0_0_1_n_n.lhsIdx_val_of_single rfl i q
/-- the right operand's row is the contracted index, -/
theorem rhs_lin_0 (i : S64x26.Idx) (q : dot_S64x64_S64x26_S64x26_1_0_0_1_n_n.contr.Idx) :
    (dot_S64x64_S64x26_S64x26_1_0_0_1_n_n.rhsIdx i q 0).val = (q ⟨0, by decide⟩).val :=
  dot_S64x64_S64x26_S64x26_1_0_0_1_n_n.rhsIdx_val_of_single rfl i q
/-- its column the output's column. -/
theorem rhs_lin_1 (i : S64x26.Idx) (q : dot_S64x64_S64x26_S64x26_1_0_0_1_n_n.contr.Idx) :
    (dot_S64x64_S64x26_S64x26_1_0_0_1_n_n.rhsIdx i q 1).val = (i 1).val := by
  unfold DotDims.rhsIdx
  rw [dif_neg (show ¬(1 : Fin S64x26.rank) ∈ dot_S64x64_S64x26_S64x26_1_0_0_1_n_n.rhsBatch by decide), dif_pos (show (1 : Fin S64x26.rank) ∈ dot_S64x64_S64x26_S64x26_1_0_0_1_n_n.rhsNonContracting by decide)]
  rfl

/-- A 64×64 matrix times a 64×26 matrix, into a zero accumulator, at row `p` and column `q`: the sum over the
    64 contracted indices of the products. -/
theorem mm_lin_apply (l : FVec Ideal S64x64 .bf16) (r : FVec Ideal S64x26 .bf16) (p : Fin 64) (q : Fin 26) :
    matmul dot_S64x64_S64x26_S64x26_1_0_0_1_n_n none l r (constant (F := Ideal) S64x26 .f32 0x00000000#32) (ix2 p q)
      = ∑ k : Fin 64, l (ix2 p k) * r (ix2 k q) := by
  simp only [matmul]
  rw [Ideal.matmul_constant_zero_apply, ← Equiv.sum_comp (contrEquiv1 dot_S64x64_S64x26_S64x26_1_0_0_1_n_n 64 rfl rfl).symm]
  refine Finset.sum_congr rfl fun k _ => ?_
  have hk := contrEquiv1_symm_val dot_S64x64_S64x26_S64x26_1_0_0_1_n_n 64 rfl rfl k
  have el : dot_S64x64_S64x26_S64x26_1_0_0_1_n_n.lhsIdx (ix2 p q) ((contrEquiv1 dot_S64x64_S64x26_S64x26_1_0_0_1_n_n 64 rfl rfl).symm k) = ix2 p k := funext fun a => Fin.ext (by
    match a with
    | ⟨0, _⟩ => exact lhs_lin_0 _ _
    | ⟨1, _⟩ => exact (lhs_lin_1 _ _).trans hk)
  have er : dot_S64x64_S64x26_S64x26_1_0_0_1_n_n.rhsIdx (ix2 p q) ((contrEquiv1 dot_S64x64_S64x26_S64x26_1_0_0_1_n_n 64 rfl rfl).symm k) = ix2 k q := funext fun a => Fin.ext (by
    match a with
    | ⟨0, _⟩ => exact (rhs_lin_0 _ _).trans hk
    | ⟨1, _⟩ => exact rhs_lin_1 _ _)
  rw [el, er]

/-! ## The zero splats -/

/-- The block the reset stores into the sums' scratch is zero everywhere. -/
theorem pool_pay1_apply (i : S64x64.Idx) : k2_pay1 (F := Ideal) i = 0 := by
  unfold k2_pay1
  refine (congrFun (shapeCast_self _ _) i).trans ?_
  exact Ideal.ofBits_zero_f32

/-- The column the reset stores into the counts' scratch is zero everywhere. -/
theorem pool_pay2_apply (i : S64x1.Idx) : k2_pay2 (F := Ideal) i = 0 := by
  unfold k2_pay2
  refine (congrFun (shapeCast_self _ _) i).trans ?_
  exact Ideal.ofBits_zero_f32

/-! ## The indicator -/

/-- A column repeated along 64 columns reads, at `(k, g)`, the column at `k`. -/
theorem bcast_ids_apply {α : Type} (v : S2000x1.Idx → α) (h : S2000x1.Broadcasts S2000x64) (k : Fin 2000) (g : Fin 64) :
    broadcastTo S2000x64 v h (ix2 k g) = v (ix2 k 0) := by
  refine broadcastTo_apply v h (ix2 k g) (ix2 k 0) fun ax => ?_
  match ax with
  | ⟨0, _⟩ => rfl
  | ⟨1, _⟩ => rfl

/-- The one-bit word of a decided comparison, widened to 32 bits and read as a signed number, is the real 1 or 0. -/
theorem indicator_word (b : Bool) :
    (((((BitVec.ofBool b).setWidth 32 : BitVec 32).toInt : ℝ) : EReal)) = if b then 1 else 0 := by
  cases b
  · simp
  · simp

/-- The indicator the body builds from a block's ids, at row `k` and graph `g`: 1 when the id is the word of `g`,
    0 otherwise (the comparison's bit, widened, converted exactly; the change of format is the identity). -/
theorem pool_pay3_apply (v3 : Vec Ideal S2000x1 .i32) (k : Fin 2000) (g : Fin 64) :
    k2_pay3 (F := Ideal) v3 (ix2 k g) = Cert.Sage.oneHot (v3 (ix2 k 0)) g := by
  unfold k2_pay3
  show (((((IntOp.cmpi .eq (broadcastTo S2000x64 (shapeCast S2000x1 v3 shapeCasts_S2000x1_S2000x1) broadcasts_S2000x1_S2000x64 (ix2 k g))
      (iota .tc S2000x64 32 [1] iota_S2000x64_d1_w32 (ix2 k g))).setWidth 32 : BitVec 32).toInt : ℝ) : EReal)) = _
  have e1 : broadcastTo S2000x64 (shapeCast S2000x1 v3 shapeCasts_S2000x1_S2000x1) broadcasts_S2000x1_S2000x64 (ix2 k g) = v3 (ix2 k 0) :=
    (bcast_ids_apply _ _ k g).trans (congrFun (shapeCast_self v3 _) (ix2 k 0))
  have e2 : iota .tc S2000x64 32 [1] iota_S2000x64_d1_w32 (ix2 k g) = BitVec.ofNat 32 g.val :=
    iota_single_apply .tc S2000x64 32 1 iota_S2000x64_d1_w32 (ix2 k g)
  rw [e1, e2]
  unfold Cert.Sage.oneHot
  show (((((BitVec.ofBool (v3 (ix2 k 0) == BitVec.ofNat 32 g.val)).setWidth 32 : BitVec 32).toInt : ℝ) : EReal)) = _
  rw [indicator_word]
  by_cases hb : v3 (ix2 k 0) = BitVec.ofNat 32 g.val
  · rw [if_pos hb, if_pos (by simpa using hb)]
  · rw [if_neg hb, if_neg (by simpa using hb)]

/-! ## The accumulating stores -/

/-- What the body stores into the sums' scratch, at graph `g` and feature `l`: what the scratch held there, plus the
    sum over the block's 2000 rows of the indicator times the row's feature. -/
theorem pool_pay4_apply (v3 : Vec Ideal S2000x1 .i32) (v11 : Vec Ideal S2000x64 .f32) (v19 : Vec Ideal S64x64 .f32) (g l : Fin 64) :
    k2_pay4 (F := Ideal) v3 v11 v19 (ix2 g l)
      = v19 (ix2 g l) + ∑ k : Fin 2000, Cert.Sage.oneHot (v3 (ix2 k 0)) g * v11 (ix2 k l) := by
  unfold k2_pay4
  refine (congrFun (shapeCast_self _ _) (ix2 g l)).trans ?_
  refine (addf_apply _ _ _).trans ?_
  refine congrArg (v19 (ix2 g l) + ·) ?_
  refine (mm_sum_apply _ _ g l).trans ?_
  refine Finset.sum_congr rfl fun k _ => ?_
  refine congrArg₂ (· * ·) ?_ ?_
  · exact (transpose_ix2_apply _ _ g k).trans (pool_pay3_apply v3 k g)
  · exact congrFun (shapeCast_self v11 _) (ix2 k l)

/-- The bf16 word of one is the extended real 1. -/
theorem one_bf16 : Ideal.ofBits .bf16 0x3F80#16 = 1 := IdealRules.sign_bit.ideal_onePat .bf16

/-- The f32 word of one is the extended real 1. -/
theorem one_f32 : Ideal.ofBits .f32 0x3F800000#32 = 1 := IdealRules.sign_bit.ideal_onePat .f32

/-- What the body stores into the counts' scratch, at graph `g`: what the scratch held there, plus the sum over the
    block's 2000 rows of the indicator (times the one of the column of ones). -/
theorem pool_pay5_apply (v3 : Vec Ideal S2000x1 .i32) (v24 : Vec Ideal S64x1 .f32) (g : Fin 64) :
    k2_pay5 (F := Ideal) v3 v24 (ix2 g 0)
      = v24 (ix2 g 0) + ∑ k : Fin 2000, Cert.Sage.oneHot (v3 (ix2 k 0)) g * 1 := by
  unfold k2_pay5
  refine (congrFun (shapeCast_self _ _) (ix2 g 0)).trans ?_
  refine (addf_apply _ _ _).trans ?_
  refine congrArg (v24 (ix2 g 0) + ·) ?_
  refine (mm_cnt_apply _ _ g 0).trans ?_
  refine Finset.sum_congr rfl fun k _ => ?_
  refine congrArg₂ (· * ·) ?_ ?_
  · exact (transpose_ix2_apply _ _ g k).trans (pool_pay3_apply v3 k g)
  · exact one_bf16

/-! ## The pooled linear layer -/

/-- A column repeated along 64 columns reads, at `(g, l)`, the column at `g`. -/
theorem bcast_cnt_apply {α : Type} (v : S64x1.Idx → α) (h : S64x1.Broadcasts S64x64) (g l : Fin 64) :
    broadcastTo S64x64 v h (ix2 g l) = v (ix2 g 0) := by
  refine broadcastTo_apply v h (ix2 g l) (ix2 g 0) fun ax => ?_
  match ax with
  | ⟨0, _⟩ => rfl
  | ⟨1, _⟩ => rfl

/-- The bias vector, viewed as one row and repeated down the 64 rows, at row `g` and column `j`: the bias at `j`. -/
theorem bias2_apply (b : Vec Ideal S26 .f32) (g : Fin 64) (j : Fin 26) :
    broadcastTo S64x26 (shapeCast S1x26 (shapeCast S1x26 b shapeCasts_S26_S1x26) shapeCasts_S1x26_S1x26) broadcasts_S1x26_S64x26 (ix2 g j)
      = b (ix1 j) := by
  rw [shapeCast_self]
  exact (broadcastTo_1b_ab_apply _ broadcasts_S1x26_S64x26 g j).trans (shapeCast_a_1a_apply b shapeCasts_S26_S1x26 0 j)

/-- What point 49 stores into the output window, at graph `g` and output feature `j`: the sums' row divided by the
    count clamped at one from below, times the weight matrix, plus the bias. -/
theorem pool_pay6_apply (v32 : Vec Ideal S64x1 .f32) (v35 : Vec Ideal S64x64 .f32) (v39 : Vec Ideal S64x26 .f32) (v42 : Vec Ideal S26 .f32)
    (g : Fin 64) (j : Fin 26) :
    k2_pay6 (F := Ideal) v32 v35 v39 v42 (ix2 g j)
      = (∑ l : Fin 64, Ideal.div (v35 (ix2 g l)) (max (v32 (ix2 g 0)) 1) * v39 (ix2 l j)) + v42 (ix1 j) := by
  unfold k2_pay6
  refine (addf_apply _ _ _).trans ?_
  refine congrArg₂ (· + ·) ?_ (bias2_apply v42 g j)
  refine (mm_lin_apply _ _ g j).trans ?_
  refine Finset.sum_congr rfl fun l _ => ?_
  refine congrArg₂ (· * ·) ?_ rfl
  show Ideal.div (v35 (ix2 g l)) (broadcastTo S64x64 (maximumf (F := Ideal) v32 (broadcast S64x1 (Scalar.ofBits (F := Ideal) .f32 0x3F800000#32))) broadcasts_S64x1_S64x64 (ix2 g l)) = _
  refine congrArg (Ideal.div (v35 (ix2 g l))) ?_
  refine (bcast_cnt_apply _ _ g l).trans ?_
  refine (maximumf_apply _ _ _).trans ?_
  exact congrArg (max (v32 (ix2 g 0))) one_f32

end Cert.KernelIdeal.Hand

end
-- ==== Proof.KernelIdeal.Val2Blocks.lean ====
/- Region 2 (per-graph pooling), its blocks as parts of the arrays: block `t` of the node rows and of the graph ids is
   nodes `2000·t … 2000·t + 1999`, the weight matrix and the bias are whole at every point, and the output array, written
   back once by the last point with a block that is the whole array, ends at what the last point left in its window. -/
import proofs.«415661_j14705968022324_1_alg».proof.Proof.KernelIdeal.Reg2
import proofs.«415661_j14705968022324_1_alg».proof.Proof.Seg
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-- The index maps over the 50 points: the node rows and the graph ids are at block row `t`; the weight matrix, the bias
    and the output are at their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0 :=
  (by decide +kernel : ∀ t : Fin grid2.N, _)

/-- Row `k` of the node rows' block at point `t` is the row of node `2000·t + k`. -/
theorem iblk2_0_apply (c : Dev nD) (t : Fin cfg2.N) (k : Fin 2000) (l : Fin 64) :
    (iblk2 V c 0 t : Vec F S2000x64 .f32) (ix2 k l) = (V c main_v39 : Vec F S100000x64 .f32) (ix2 (Cert.Sage.node t k) l) := by
  obtain ⟨e0, e1, -⟩ := idx_facts2 t
  unfold iblk2
  rw [View.read_apply]
  show V c main_v39 (((cfg2.win 0).blk t).view.emb (ix2 k l)) = V c main_v39 (ix2 (Cert.Sage.node t k) l)
  congr 1
  funext a; apply Fin.ext
  match a with
  | ⟨0, _⟩ => show win2_0.index t (0 : Fin 2) * 2000 + 1 * k.val = 2000 * t.val + k.val; rw [e0]; omega
  | ⟨1, _⟩ => show win2_0.index t (1 : Fin 2) * 64 + 1 * l.val = l.val; rw [e1]; omega

/-- Row `k` of the graph ids' block at point `t` is the id of node `2000·t + k`. -/
theorem iblk2_1_apply (c : Dev nD) (t : Fin cfg2.N) (k : Fin 2000) :
    (iblk2 V c 1 t : Vec F S2000x1 .i32) (ix2 k 0) = (V c main_v40 : Vec F S100000x1 .i32) (ix2 (Cert.Sage.node t k) 0) := by
  obtain ⟨-, -, e0, e1, -⟩ := idx_facts2 t
  unfold iblk2
  rw [View.read_apply]
  show V c main_v40 (((cfg2.win 1).blk t).view.emb (ix2 k 0)) = V c main_v40 (ix2 (Cert.Sage.node t k) 0)
  congr 1
  funext a; apply Fin.ext
  match a with
  | ⟨0, _⟩ => show win2_1.index t (0 : Fin 2) * 2000 + 1 * k.val = 2000 * t.val + k.val; rw [e0]; omega
  | ⟨1, _⟩ => show win2_1.index t (1 : Fin 2) * 1 + 1 * 0 = 0; rw [e1]

/-- The third input's block is, at every point, the whole weight matrix of the final linear layer. -/
theorem iblk2_2_eq (c : Dev nD) (t : Fin cfg2.N) :
    (iblk2 V c 2 t : Vec F S64x26 .f32) = (V c main_arg9 : Vec F S64x26 .f32) := by
  obtain ⟨-, -, -, -, e0, e1, -⟩ := idx_facts2 t
  funext y
  unfold iblk2
  rw [View.read_apply]
  show V c main_arg9 (((cfg2.win 2).blk t).view.emb y) = V c main_arg9 y
  congr 1
  funext a; apply Fin.ext
  match a with
  | ⟨0, _⟩ => show win2_2.index t (0 : Fin 2) * 64 + 1 * (y 0).val = (y 0).val; rw [e0]; omega
  | ⟨1, _⟩ => show win2_2.index t (1 : Fin 2) * 26 + 1 * (y 1).val = (y 1).val; rw [e1]; omega

/-- The fourth input's block is the whole bias of the final linear layer. -/
theorem iblk2_3_eq (c : Dev nD) (t : Fin cfg2.N) :
    (iblk2 V c 3 t : Vec F S26 .f32) = (V c main_arg10 : Vec F S26 .f32) := by
  obtain ⟨-, -, -, -, -, -, e0, -⟩ := idx_facts2 t
  funext y
  unfold iblk2
  rw [View.read_apply]
  show V c main_arg10 (((cfg2.win 3).blk t).view.emb y) = V c main_arg10 y
  congr 1
  funext a; apply Fin.ext
  match a with
  | ⟨0, _⟩ => show win2_3.index t (0 : Fin 1) * 26 + 1 * (y 0).val = (y 0).val; rw [e0]; omega

/-! ## The output array: written back once, whole, by the last point -/

/-- The last of the 50 points. -/
theorem lt49_2 : 49 < cfg2.N := by rw [show cfg2.N = 50 from N_2]; decide

/-- A graph and an output feature are in point `t`'s block of the output exactly when, on each axis, the coordinate is
    within the block's range. -/
theorem mem_blk2 (t : Fin cfg2.N) (i : S64x26.Idx) :
    i ∈ ((cfg2.win 4).blk t).view.set ↔ ∀ a : Fin 2, win2_4.index t a * S64x26.size a ≤ (i a).val ∧ (i a).val < win2_4.index t a * S64x26.size a + S64x26.size a := by
  show i ∈ ((View.whole main_v41).slice (win2_4.rect t)).set ↔ _
  rw [View.set_slice_whole, Rect.mem_set_unit]
  exact Iff.rfl

/-- The output's block at any point, read off contents of the block's own shape, is those contents: its block index is
    (0, 0) and its sizes are the array's. -/
theorem cut2_4_eq_read (t : Fin cfg2.N) (X : Vec F S64x26 .f32) :
    (cfg2.win 4).cut (grid2.coords t) X = ((cfg2.win 4).blk t).view.read (Elt F) X := by
  obtain ⟨-, -, -, -, -, -, -, e0, e1⟩ := idx_facts2 t
  funext j
  rw [View.read_apply]
  show X ((cfg2.win 4).xinj (grid2.coords t) j) = X (((cfg2.win 4).blk t).view.emb j)
  congr 1
  funext a; apply Fin.ext
  match a with
  | ⟨0, _⟩ => show (j 0).val = win2_4.index t (0 : Fin 2) * 64 + 1 * (j 0).val; rw [e0]; omega
  | ⟨1, _⟩ => show (j 1).val = win2_4.index t (1 : Fin 2) * 26 + 1 * (j 1).val; rw [e1]; omega

/-- The accumulation at equal positions is the same. -/
theorem outsAt2_congr (c : Dev nD) (n m : ℕ) (hn : n < cfg2.N) (hm : m < cfg2.N) (h : n = m) :
    outsAt2 V c n hn = outsAt2 V c m hm := by
  subst h; rfl

/-- What the one flushing point, the last, writes back is the whole of what it left in the output window. -/
theorem flushed2_eq (c : Dev nD) (t : Fin cfg2.N) (hf : (cfg2.win 4).flush t = true) :
    (dat2 V c).flushed 4 t = ((cfg2.win 4).blk t).view.read (Elt F) ((outsAt2 V c 49 lt49_2).1) := by
  have hN : cfg2.N = 50 := N_2
  have h49 : t.val = 49 := by have := (flush2_4 t).mp hf; have := t.isLt; omega
  show (cfg2.win 4).cut (grid2.coords t) ((dat2 V c).after 4 t) = _
  rw [after2_4, outsAt2_congr V c t.val 49 t.isLt lt49_2 h49]
  exact cut2_4_eq_read t _

/-- THE OUTPUT ARRAY after the region: what the last point left in the output window's buffer. -/
theorem arr2_last (c : Dev nD) : (dat2 V c).arrAt 4 cfg2.N = (outsAt2 V c 49 lt49_2).1 :=
  (dat2 V c).arrAt_eq_of_cover 4 ((outsAt2 V c 49 lt49_2).1) (fun t hf => flushed2_eq V c t hf) fun i => by
    have hi0 : (i 0).val < 64 := (i 0).isLt
    have hi1 : (i 1).val < 26 := (i 1).isLt
    obtain ⟨-, -, -, -, -, -, -, e0, e1⟩ := idx_facts2 (⟨49, lt49_2⟩ : Fin cfg2.N)
    refine ⟨⟨49, lt49_2⟩, (flush2_4 _).mpr rfl, ?_⟩
    rw [mem_blk2]
    intro a
    match a with
    | ⟨0, _⟩ => show win2_4.index ⟨49, lt49_2⟩ (0 : Fin 2) * 64 ≤ (i 0).val ∧ (i 0).val < win2_4.index ⟨49, lt49_2⟩ (0 : Fin 2) * 64 + 64; rw [e0]; omega
    | ⟨1, _⟩ => show win2_4.index ⟨49, lt49_2⟩ (1 : Fin 2) * 26 ≤ (i 1).val ∧ (i 1).val < win2_4.index ⟨49, lt49_2⟩ (1 : Fin 2) * 26 + 26; rw [e1]; omega

end Cert.KernelIdeal.Hand

end
-- ==== Proof.KernelIdeal.Val2.lean ====
/- The value of region 2, the per-graph pooling and the final linear layer: after point `n` the two scratch accumulators
   hold the sums, over blocks `0 … n`, of each block's indicator-weighted rows and of its indicator counts; after the last
   point these are the per-graph sums and node counts over all nodes, and the output window holds the pooled linear layer
   of them: each graph's mean row (its sum over its count clamped at one) times the weight matrix, plus the bias. -/
import proofs.«415661_j14705968022324_1_alg».proof.Proof.KernelIdeal.Val2Pieces
import proofs.«415661_j14705968022324_1_alg».proof.Proof.KernelIdeal.Val2Pay
import proofs.«415661_j14705968022324_1_alg».proof.Proof.KernelIdeal.Val2Blocks

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The rows of block `t`. -/
abbrev xblk (c : Dev nD) (t : Fin cfg2.N) : Vec Ideal S2000x64 .f32 := iblk2 V c 0 t
/-- The ids of block `t`, a column. -/
abbrev idblk (c : Dev nD) (t : Fin cfg2.N) : Vec Ideal S2000x1 .i32 := iblk2 V c 1 t
/-- The weight matrix as point `t` finds it. -/
abbrev wblk (c : Dev nD) (t : Fin cfg2.N) : Vec Ideal S64x26 .f32 := iblk2 V c 2 t
/-- The bias as point `t` finds it. -/
abbrev bblk (c : Dev nD) (t : Fin cfg2.N) : Vec Ideal S26 .f32 := iblk2 V c 3 t
/-- The rows of all nodes. -/
abbrev harr (c : Dev nD) : Cert.Sage.Mat 100000 64 := V c main_v39
/-- The ids of all nodes. -/
abbrev idarr (c : Dev nD) : Fin 100000 → BitVec 32 := fun r => (V c main_v40 : IVec S100000x1 32) (ix2 r 0)

/-! ## What each case leaves, at an index -/

/-- The sums' scratch after point 0. -/
theorem sums_A (c : Dev nD) (t : Fin cfg2.N) (h0 : t.val % 50 = 0) (h1 : ¬t.val % 50 = 49) (g l : Fin 64) :
    ((outsAt2 V c t.val t.isLt).2.1 : Vec Ideal S64x64 .f32) (ix2 g l)
      = ∑ k : Fin 2000, Cert.Sage.oneHot (idblk V c t (ix2 k 0)) g * xblk V c t (ix2 k l) := by
  rw [outsAt2_A V c t h0 h1]
  dsimp only
  refine (congrFun (sout2_A_0_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) (ix2 g l)).trans ?_
  refine (pool_pay4_apply (idblk V c t) (xblk V c t) (k2_pay1 (F := Ideal)) g l).trans ?_
  rw [pool_pay1_apply, zero_add]

/-- The counts' scratch after point 0. -/
theorem cnts_A (c : Dev nD) (t : Fin cfg2.N) (h0 : t.val % 50 = 0) (h1 : ¬t.val % 50 = 49) (g : Fin 64) :
    ((outsAt2 V c t.val t.isLt).2.2 : Vec Ideal S64x1 .f32) (ix2 g 0)
      = ∑ k : Fin 2000, Cert.Sage.oneHot (idblk V c t (ix2 k 0)) g * 1 := by
  rw [outsAt2_A V c t h0 h1]
  dsimp only
  refine (congrFun (sout2_A_1_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) (ix2 g 0)).trans ?_
  refine (pool_pay5_apply (idblk V c t) (k2_pay2 (F := Ideal)) g).trans ?_
  rw [pool_pay2_apply, zero_add]

/-- The sums' scratch after a point between: what the point before left, plus the block's contribution. -/
theorem sums_B (c : Dev nD) (t : Fin cfg2.N) (h0 : ¬t.val % 50 = 0) (h1 : ¬t.val % 50 = 49) (g l : Fin 64) :
    ((outsAt2 V c t.val t.isLt).2.1 : Vec Ideal S64x64 .f32) (ix2 g l)
      = ((outsAt2 V c (t.val - 1) (Nat.lt_of_le_of_lt (Nat.sub_le _ _) t.isLt)).2.1 : Vec Ideal S64x64 .f32) (ix2 g l)
        + ∑ k : Fin 2000, Cert.Sage.oneHot (idblk V c t (ix2 k 0)) g * xblk V c t (ix2 k l) := by
  rw [outsAt2_B V c t h0 h1]
  dsimp only
  refine (congrFun (sout2_B_0_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) (ix2 g l)).trans ?_
  exact pool_pay4_apply (idblk V c t) (xblk V c t) _ g l

/-- The counts' scratch after a point between. -/
theorem cnts_B (c : Dev nD) (t : Fin cfg2.N) (h0 : ¬t.val % 50 = 0) (h1 : ¬t.val % 50 = 49) (g : Fin 64) :
    ((outsAt2 V c t.val t.isLt).2.2 : Vec Ideal S64x1 .f32) (ix2 g 0)
      = ((outsAt2 V c (t.val - 1) (Nat.lt_of_le_of_lt (Nat.sub_le _ _) t.isLt)).2.2 : Vec Ideal S64x1 .f32) (ix2 g 0)
        + ∑ k : Fin 2000, Cert.Sage.oneHot (idblk V c t (ix2 k 0)) g * 1 := by
  rw [outsAt2_B V c t h0 h1]
  dsimp only
  refine (congrFun (sout2_B_1_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) (ix2 g 0)).trans ?_
  exact pool_pay5_apply (idblk V c t) _ g

/-- The sums' scratch after point 49. -/
theorem sums_C (c : Dev nD) (t : Fin cfg2.N) (h0 : ¬t.val % 50 = 0) (h1 : t.val % 50 = 49) (g l : Fin 64) :
    ((outsAt2 V c t.val t.isLt).2.1 : Vec Ideal S64x64 .f32) (ix2 g l)
      = ((outsAt2 V c (t.val - 1) (Nat.lt_of_le_of_lt (Nat.sub_le _ _) t.isLt)).2.1 : Vec Ideal S64x64 .f32) (ix2 g l)
        + ∑ k : Fin 2000, Cert.Sage.oneHot (idblk V c t (ix2 k 0)) g * xblk V c t (ix2 k l) := by
  rw [outsAt2_C V c t h0 h1]
  dsimp only
  refine (congrFun (sout2_C_0_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) (ix2 g l)).trans ?_
  exact pool_pay4_apply (idblk V c t) (xblk V c t) _ g l

/-- The counts' scratch after point 49. -/
theorem cnts_C (c : Dev nD) (t : Fin cfg2.N) (h0 : ¬t.val % 50 = 0) (h1 : t.val % 50 = 49) (g : Fin 64) :
    ((outsAt2 V c t.val t.isLt).2.2 : Vec Ideal S64x1 .f32) (ix2 g 0)
      = ((outsAt2 V c (t.val - 1) (Nat.lt_of_le_of_lt (Nat.sub_le _ _) t.isLt)).2.2 : Vec Ideal S64x1 .f32) (ix2 g 0)
        + ∑ k : Fin 2000, Cert.Sage.oneHot (idblk V c t (ix2 k 0)) g * 1 := by
  rw [outsAt2_C V c t h0 h1]
  dsimp only
  refine (congrFun (sout2_C_1_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) (ix2 g 0)).trans ?_
  exact pool_pay5_apply (idblk V c t) _ g

/-- The output window after point 49: the pooled linear layer of the sums and counts the point has just completed. -/
theorem out_C (c : Dev nD) (t : Fin cfg2.N) (h0 : ¬t.val % 50 = 0) (h1 : t.val % 50 = 49) (g : Fin 64) (j : Fin 26) :
    ((outsAt2 V c t.val t.isLt).1 : Vec Ideal S64x26 .f32) (ix2 g j)
      = (∑ l : Fin 64, Ideal.div (((outsAt2 V c t.val t.isLt).2.1 : Vec Ideal S64x64 .f32) (ix2 g l))
            (max (((outsAt2 V c t.val t.isLt).2.2 : Vec Ideal S64x1 .f32) (ix2 g 0)) 1) * wblk V c t (ix2 l j))
        + bblk V c t (ix1 j) := by
  rw [outsAt2_C V c t h0 h1]
  dsimp only
  rw [sout2_C_0_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2,
    sout2_C_1_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2]
  refine (congrFun (out2_C_4_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) (ix2 g j)).trans ?_
  exact pool_pay6_apply _ _ (wblk V c t) (bblk V c t) g j

/-! ## Adding up the blocks -/

/-- The sum of `f` over the blocks up to and including block `n`. -/
def partSum (f : Fin 50 → EReal) (n : ℕ) : EReal := ∑ t : Fin 50, if t.val ≤ n then f t else 0

theorem partSum_zero (f : Fin 50 → EReal) : partSum f 0 = f 0 := by
  unfold partSum
  rw [Finset.sum_eq_single (0 : Fin 50)]
  · exact if_pos (Nat.le_refl 0)
  · intro t _ ht
    exact if_neg (fun h => ht (Fin.ext (Nat.le_zero.mp h)))
  · intro h; exact absurd (Finset.mem_univ _) h

theorem partSum_succ (f : Fin 50 → EReal) (n : ℕ) (h : n + 1 < 50) :
    partSum f (n + 1) = partSum f n + f ⟨n + 1, h⟩ := by
  unfold partSum
  have e : ∀ t : Fin 50, (if t.val ≤ n + 1 then f t else 0)
      = (if t.val ≤ n then f t else 0) + (if t = ⟨n + 1, h⟩ then f t else 0) := by
    intro t
    by_cases h1 : t.val ≤ n
    · have h2 : t ≠ ⟨n + 1, h⟩ := fun e => by have := congrArg Fin.val e; dsimp only at this; omega
      rw [if_pos h1, if_pos (Nat.le_succ_of_le h1), if_neg h2, add_zero]
    · by_cases h2 : t = ⟨n + 1, h⟩
      · rw [if_neg h1, if_pos h2, if_pos (by rw [h2]), zero_add]
      · have h3 : ¬t.val ≤ n + 1 := fun h3 => h2 (Fin.ext (by dsimp only; omega))
        rw [if_neg h1, if_neg h2, if_neg h3, add_zero]
  rw [Finset.sum_congr rfl (fun t _ => e t), Finset.sum_add_distrib, Finset.sum_ite_eq' Finset.univ (⟨n + 1, h⟩ : Fin 50) f,
    if_pos (Finset.mem_univ _)]

theorem partSum_last (f : Fin 50 → EReal) : partSum f 49 = ∑ t : Fin 50, f t := by
  unfold partSum
  exact Finset.sum_congr rfl (fun t _ => if_pos (by have := t.isLt; omega))

/-- Block `t`'s contribution to the sums is the specification's block sum. -/
theorem contrib_sum (c : Dev nD) (t : Fin cfg2.N) (g l : Fin 64) :
    ∑ k : Fin 2000, Cert.Sage.oneHot (idblk V c t (ix2 k 0)) g * xblk V c t (ix2 k l)
      = Cert.Sage.blkSum (harr V c) (idarr V c) t g l := by
  unfold Cert.Sage.blkSum
  exact Finset.sum_congr rfl fun k _ => by rw [show xblk V c t (ix2 k l) = harr V c (ix2 (Cert.Sage.node t k) l) from iblk2_0_apply V c t k l,
      show idblk V c t (ix2 k 0) = idarr V c (Cert.Sage.node t k) from iblk2_1_apply V c t k]

/-- Block `t`'s contribution to the counts is the specification's block count. -/
theorem contrib_cnt (c : Dev nD) (t : Fin cfg2.N) (g : Fin 64) :
    ∑ k : Fin 2000, Cert.Sage.oneHot (idblk V c t (ix2 k 0)) g * 1
      = Cert.Sage.blkCnt (idarr V c) t g := by
  unfold Cert.Sage.blkCnt
  exact Finset.sum_congr rfl fun k _ => by rw [show idblk V c t (ix2 k 0) = idarr V c (Cert.Sage.node t k) from iblk2_1_apply V c t k]

/-- THE INVARIANT, the sums: after point `n` the sums' scratch holds, at graph `g` and feature `l`, the sum of the
    block sums of blocks `0 … n`. -/
theorem sums_inv (c : Dev nD) (g l : Fin 64) : ∀ (n : ℕ) (hn : n < cfg2.N),
    ((outsAt2 V c n hn).2.1 : Vec Ideal S64x64 .f32) (ix2 g l)
      = partSum (fun t => Cert.Sage.blkSum (harr V c) (idarr V c) t g l) n
  | 0, hn => by
    refine (sums_A V c ⟨0, hn⟩ (Nat.zero_mod _) (by show ¬(0 % 50 = 49); decide) g l).trans ?_
    rw [contrib_sum, partSum_zero]
    rfl
  | n + 1, hn => by
    have hN : n + 1 < 50 := lt_of_lt_of_eq hn (show cfg2.N = 50 from N_2)
    have h0 : ¬(⟨n + 1, hn⟩ : Fin cfg2.N).val % 50 = 0 := by dsimp only; omega
    have ih := sums_inv c g l n (Nat.lt_of_succ_lt hn)
    rw [partSum_succ _ n hN, ← ih]
    by_cases h1 : (⟨n + 1, hn⟩ : Fin cfg2.N).val % 50 = 49
    · refine (sums_C V c ⟨n + 1, hn⟩ h0 h1 g l).trans ?_
      rw [contrib_sum]
      rfl
    · refine (sums_B V c ⟨n + 1, hn⟩ h0 h1 g l).trans ?_
      rw [contrib_sum]
      rfl

/-- THE INVARIANT, the counts. -/
theorem cnts_inv (c : Dev nD) (g : Fin 64) : ∀ (n : ℕ) (hn : n < cfg2.N),
    ((outsAt2 V c n hn).2.2 : Vec Ideal S64x1 .f32) (ix2 g 0)
      = partSum (fun t => Cert.Sage.blkCnt (idarr V c) t g) n
  | 0, hn => by
    refine (cnts_A V c ⟨0, hn⟩ (Nat.zero_mod _) (by show ¬(0 % 50 = 49); decide) g).trans ?_
    rw [contrib_cnt, partSum_zero]
    rfl
  | n + 1, hn => by
    have hN : n + 1 < 50 := lt_of_lt_of_eq hn (show cfg2.N = 50 from N_2)
    have h0 : ¬(⟨n + 1, hn⟩ : Fin cfg2.N).val % 50 = 0 := by dsimp only; omega
    have ih := cnts_inv c g n (Nat.lt_of_succ_lt hn)
    rw [partSum_succ _ n hN, ← ih]
    by_cases h1 : (⟨n + 1, hn⟩ : Fin cfg2.N).val % 50 = 49
    · refine (cnts_C V c ⟨n + 1, hn⟩ h0 h1 g).trans ?_
      rw [contrib_cnt]
      rfl
    · refine (cnts_B V c ⟨n + 1, hn⟩ h0 h1 g).trans ?_
      rw [contrib_cnt]
      rfl

/-! ## The last point and the array -/

/-- After the last point the sums' scratch holds the per-graph sums over all nodes, -/
theorem sums_last (c : Dev nD) (t : Fin cfg2.N) (ht : t.val = 49) (g l : Fin 64) :
    ((outsAt2 V c t.val t.isLt).2.1 : Vec Ideal S64x64 .f32) (ix2 g l) = Cert.Sage.segSum (harr V c) (idarr V c) g l := by
  rw [sums_inv V c g l t.val t.isLt, ht, partSum_last]
  exact Cert.Sage.sum_blkSum (harr V c) (idarr V c) g l

/-- and the counts' scratch the per-graph node counts. -/
theorem cnts_last (c : Dev nD) (t : Fin cfg2.N) (ht : t.val = 49) (g : Fin 64) :
    ((outsAt2 V c t.val t.isLt).2.2 : Vec Ideal S64x1 .f32) (ix2 g 0) = Cert.Sage.segCnt (idarr V c) g := by
  rw [cnts_inv V c g t.val t.isLt, ht, partSum_last]
  exact Cert.Sage.sum_blkCnt (idarr V c) g

/-- The pooled output of the arrays the region finds. -/
abbrev pooled (c : Dev nD) : Cert.Sage.Mat 64 26 :=
  Cert.Sage.poolOut (Cert.Sage.segSum (harr V c) (idarr V c)) (Cert.Sage.segCnt (idarr V c)) (V c main_arg9) (V c main_arg10)

/-- So the output window after the last point is the pooled output, at every graph and output feature. -/
theorem out_last (c : Dev nD) (t : Fin cfg2.N) (ht : t.val = 49) (g : Fin 64) (j : Fin 26) :
    ((outsAt2 V c t.val t.isLt).1 : Vec Ideal S64x26 .f32) (ix2 g j) = pooled V c (ix2 g j) := by
  have h0 : ¬t.val % 50 = 0 := by omega
  have h1 : t.val % 50 = 49 := by omega
  refine (out_C V c t h0 h1 g j).trans ?_
  rw [cnts_last V c t ht g, show wblk V c t = (V c main_arg9 : Vec Ideal S64x26 .f32) from iblk2_2_eq V c t,
    show bblk V c t = (V c main_arg10 : Vec Ideal S26 .f32) from iblk2_3_eq V c t]
  simp only [sums_last V c t ht g]
  rfl

/-- THE ARRAY the region leaves in its output: the pooled output — per graph, the mean of its nodes' rows (the sum over
    the node count clamped at one) times the weight matrix, plus the bias — of the arrays it was entered with. -/
theorem arr2 (c : Dev nD) :
    (dat2 (F := Ideal) V c).arrAt 4 cfg2.N
      = Cert.Sage.poolOut (Cert.Sage.segSum (V c main_v39) (fun r => V c main_v40 (ix2 r 0))) (Cert.Sage.segCnt (fun r => V c main_v40 (ix2 r 0))) (V c main_arg9) (V c main_arg10) := by
  rw [arr2_last V c]
  funext i
  obtain ⟨g, j, rfl⟩ : ∃ (g : Fin 64) (j : Fin 26), i = ix2 g j := ⟨i 0, i 1, eq_ix2 i⟩
  rw [outsAt2_congr V c 49 (⟨49, lt49_2⟩ : Fin cfg2.N).val lt49_2 (⟨49, lt49_2⟩ : Fin cfg2.N).isLt rfl]
  exact out_last V c ⟨49, lt49_2⟩ rfl g j

end Cert.KernelIdeal.Hand

end
-- ==== Proof.KernelIdeal.KVal.lean ====
/- The kernel program's result as the reference's term of the same arguments: region 2 pools the second layer's output
   (as region 1 left it) by the graph ids (the third stretch's column of the launch ids) and applies the final linear layer
   with the launch weights; that is the reference's last stage. -/
import proofs.«415661_j14705968022324_1_alg».proof.Proof.KernelIdeal.KLayers
import proofs.«415661_j14705968022324_1_alg».proof.Proof.KernelIdeal.Val2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Sage Idealize.ShloMosaic.ValueIdx

variable (m : (ℓ : Loc nD τ sig) → Buf (Elt Ideal) ℓ) (ρ : Dev nD → PrngReg) (c : Dev nD)

/-- THE VALUE: the result buffer ends at the reference's term of the launch contents of the eleven arguments. -/
theorem kernel_value :
    Vx6 m ρ c main_v41 = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [ref_value]
  rw [show Vx6 m ρ c main_v41 = _ from W6_out m ρ c, arr2 (Vr5 m ρ) c]
  have h39 : Vr5 m ρ c main_v39 = refH2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
    (W5_of m ρ c main_v39 (by decide)).trans (second_layer m ρ c)
  have h40 : (fun r : Fin 100000 => Vr5 m ρ c main_v40 (ix2 r 0)) = fun r => (m ((c : Thread nD τ).loc main_arg2)) (ix1 r) := by
    funext r
    refine (host2_v40 (W4 m ρ c) r).trans ?_
    exact congrFun (W4_arg2 m ρ c) (ix1 r)
  rw [h39, h40, Vr5_arg m ρ c main_arg9 (by decide) (by decide) (by decide) (by decide) (by decide),
    Vr5_arg m ρ c main_arg10 (by decide) (by decide) (by decide) (by decide) (by decide)]

end Cert.KernelIdeal.Hand

end
-- ==== Proof.lean ====
/- The certificate of a two-layer GraphSAGE kernel program against its reference, over the extended reals.

   Both programs compute, per layer, the mean of the neighbours' rows (a gather by edge source, an accumulating scatter by
   edge destination, a division by the clamped in-degree), a dense layer  mean·Wl + x·Wr + b  (clamped at zero from below
   after the first layer), then per graph the mean of its nodes' rows and a final linear layer. They differ in three
   places, none of which changes a value at the ideal instance:
   * the kernel's program multiplies the neighbour sum by 1 / max(deg, 1) where the reference divides by max(deg, 1):
     max(deg, 1) is never zero, and off zero dividing IS multiplying by the inverse, at the infinities too;
   * the dense layers run as 50 blocks of 2000 nodes with the bias added last, the reference adds it between the two
     products: addition of extended reals is commutative and associative;
   * the pooling is a 0/1 indicator matrix times the rows, block by block, accumulated in scratch memory over the 50
     blocks, where the reference scatters rows into their graphs: both are the sum over all nodes of the row guarded by
     "this node's graph id is g" (0·x = 0 and 1·x = x at every extended real), a node whose id is outside 0..63 being in
     no graph on either side.
   No step needs the inputs to be finite, so the precondition is never opened.

   The frames: each program runs to the end from any memory, faults nowhere and leaves its arguments as launched. For the
   kernel's program (at both instances) this is the run of six segments — three stretches of host operations, three pallas
   regions — with every buffer's contents followed through the segments; the reference's is its run with the result dropped. -/
import proofs.«415661_j14705968022324_1_alg».proof.Defs
import proofs.«415661_j14705968022324_1_alg».proof.Proof.Gen.Kernel
import proofs.«415661_j14705968022324_1_alg».proof.Proof.Gen.KernelIdeal
import proofs.«415661_j14705968022324_1_alg».proof.Proof.Gen.ReferenceIdeal
import proofs.«415661_j14705968022324_1_alg».proof.Proof.Gen.Pre_finite_inputs
import proofs.«415661_j14705968022324_1_alg».proof.Proof.Kernel.Fold
import proofs.«415661_j14705968022324_1_alg».proof.Proof.KernelIdeal.KVal
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Hand.frame_all m ρ

/-- So does the idealized one: the same run read at the other instance. -/
theorem frame_ki : Cert.frame_KernelIdeal := fun m ρ _ => Cert.KernelIdeal.Hand.frame_all m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's result buffer holds what
    the last region's write-backs leave, which is the reference's term of the same arguments (`kernel_value`). -/
theorem algebraic : Cert.algebraic_KernelIdeal_ReferenceIdeal := by
  intro m ρ m' ρ' _ hagree
  refine ⟨fun c => Cert.KernelIdeal.Hand.Vx6 m ρ c Cert.KernelIdeal.main_v41, Cert.KernelIdeal.Hand.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2]
  exact (Cert.KernelIdeal.Hand.kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
